-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S8x3x128 : S_.BroadcastsInDim S8x3x128 (![] : Fin 0 → Fin S8x3x128.rank)
  reducesTo_S8x3x128_S_d0_1_2 : S8x3x128.ReducesTo [0, 1, 2] S_
  bcast_S_S8x128 : S_.BroadcastsInDim S8x128 (![] : Fin 0 → Fin S8x128.rank)
  reducesTo_S8x128_S_d0_1 : S8x128.ReducesTo [0, 1] S_
  bcast_S_S8x3x128x128 : S_.BroadcastsInDim S8x3x128x128 (![] : Fin 0 → Fin S8x3x128x128.rank)
  reducesTo_S8x3x128x128_S_d0_1_2_3 : S8x3x128x128.ReducesTo [0, 1, 2, 3] S_
  bcast_S_S8x128x1 : S_.BroadcastsInDim S8x128x1 (![] : Fin 0 → Fin S8x128x1.rank)
  reducesTo_S8x128x1_S_d0_1_2 : S8x128x1.ReducesTo [0, 1, 2] S_
  bcast_S_S8x1 : S_.BroadcastsInDim S8x1 (![] : Fin 0 → Fin S8x1.rank)
  reducesTo_S8x1_S_d0_1 : S8x1.ReducesTo [0, 1] S_
  bcast_S_S8x3 : S_.BroadcastsInDim S8x3 (![] : Fin 0 → Fin S8x3.rank)
  reducesTo_S8x3_S_d0_1 : S8x3.ReducesTo [0, 1] S_
  bcast_S_S8x3x2 : S_.BroadcastsInDim S8x3x2 (![] : Fin 0 → Fin S8x3x2.rank)
  reducesTo_S8x3x2_S_d0_1_2 : S8x3x2.ReducesTo [0, 1, 2] S_

variable [Facts]

def fn_part2 {F : FTy → Type} [FloatOps F] (main_arg7 : FVec F S8x3 .f32) (main_arg8 : FVec F S8x3x2 .f32) (main_v33 : IVec S_ 1) : IVec S_ 1 :=
  let main_v34 : FVec F S8x3 .f32 := Host.absf main_arg7
  let main_cst_12 : FVec F S_ .f32 := constant S_ .f32 0x7F800000#32
  let main_v35 : FVec F S8x3 .f32 := broadcastInDim S8x3 ![] bcast_S_S8x3 main_cst_12
  let main_v36 : IVec S8x3 1 := cmpf .olt main_v34 main_v35
  let main_c_13 : IVec S_ 1 := constantI S_ 1 1#1
  let main_v37 : IVec S_ 1 := (fun x v => Host.reduce IntOp.andi x v reducesTo_S8x3_S_d0_1 h_S_) main_v36 main_c_13
  let main_v38 : IVec S_ 1 := andi main_v33 main_v37
  let main_v39 : FVec F S8x3x2 .f32 := Host.absf main_arg8
  let main_cst_14 : FVec F S_ .f32 := constant S_ .f32 0x7F800000#32
  let main_v40 : FVec F S8x3x2 .f32 := broadcastInDim S8x3x2 ![] bcast_S_S8x3x2 main_cst_14
  let main_v41 : IVec S8x3x2 1 := cmpf .olt main_v39 main_v40
  let main_c_15 : IVec S_ 1 := constantI S_ 1 1#1
  let main_v42 : IVec S_ 1 := (fun x v => Host.reduce IntOp.andi x v reducesTo_S8x3x2_S_d0_1_2 h_S_) main_v41 main_c_15
  let main_v43 : IVec S_ 1 := andi main_v38 main_v42
  main_v43

def fn_part1 {F : FTy → Type} [FloatOps F] (main_arg4 : FVec F S8x3x128 .f32) (main_arg5 : FVec F S8x128x1 .f32) (main_arg6 : FVec F S8x1 .f32) (main_arg7 : FVec F S8x3 .f32) (main_arg8 : FVec F S8x3x2 .f32) (main_v13 : IVec S_ 1) (main_v16 : IVec S8x3x128x128 1) : IVec S_ 1 :=
  let main_c_5 : IVec S_ 1 := constantI S_ 1 1#1
  let main_v17 : IVec S_ 1 := (fun x v => Host.reduce IntOp.andi x v reducesTo_S8x3x128x128_S_d0_1_2_3 h_S_) main_v16 main_c_5
  let main_v18 : IVec S_ 1 := andi main_v13 main_v17
  let main_v19 : FVec F S8x3x128 .f32 := Host.absf main_arg4
  let main_cst_6 : FVec F S_ .f32 := constant S_ .f32 0x7F800000#32
  let main_v20 : FVec F S8x3x128 .f32 := broadcastInDim S8x3x128 ![] bcast_S_S8x3x128 main_cst_6
  let main_v21 : IVec S8x3x128 1 := cmpf .olt main_v19 main_v20
  let main_c_7 : IVec S_ 1 := constantI S_ 1 1#1
  let main_v22 : IVec S_ 1 := (fun x v => Host.reduce IntOp.andi x v reducesTo_S8x3x128_S_d0_1_2 h_S_) main_v21 main_c_7
  let main_v23 : IVec S_ 1 := andi main_v18 main_v22
  let main_v24 : FVec F S8x128x1 .f32 := Host.absf main_arg5
  let main_cst_8 : FVec F S_ .f32 := constant S_ .f32 0x7F800000#32
  let main_v25 : FVec F S8x128x1 .f32 := broadcastInDim S8x128x1 ![] bcast_S_S8x128x1 main_cst_8
  let main_v26 : IVec S8x128x1 1 := cmpf .olt main_v24 main_v25
  let main_c_9 : IVec S_ 1 := constantI S_ 1 1#1
  let main_v27 : IVec S_ 1 := (fun x v => Host.reduce IntOp.andi x v reducesTo_S8x128x1_S_d0_1_2 h_S_) main_v26 main_c_9
  let main_v28 : IVec S_ 1 := andi main_v23 main_v27
  let main_v29 : FVec F S8x1 .f32 := Host.absf main_arg6
  let main_cst_10 : FVec F S_ .f32 := constant S_ .f32 0x7F800000#32
  let main_v30 : FVec F S8x1 .f32 := broadcastInDim S8x1 ![] bcast_S_S8x1 main_cst_10
  let main_v31 : IVec S8x1 1 := cmpf .olt main_v29 main_v30
  let main_c_11 : IVec S_ 1 := constantI S_ 1 1#1
  let main_v32 : IVec S_ 1 := (fun x v => Host.reduce IntOp.andi x v reducesTo_S8x1_S_d0_1 h_S_) main_v31 main_c_11
  let main_v33 : IVec S_ 1 := andi main_v28 main_v32
  fn_part2 (F := F) main_arg7 main_arg8 main_v33

def fn {F : FTy → Type} [FloatOps F] (main_arg0 : FVec F S65536x3 .f32) (main_arg1 : FVec F S8x3x128 .f32) (main_arg2 : FVec F S8x128 .f32) (main_arg3 : FVec F S8x3x128x128 .f32) (main_arg4 : FVec F S8x3x128 .f32) (main_arg5 : FVec F S8x128x1 .f32) (main_arg6 : FVec F S8x1 .f32) (main_arg7 : FVec F S8x3 .f32) (main_arg8 : FVec F S8x3x2 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S8x3x128 .f32 := Host.absf main_arg1
  let main_cst_0 : FVec F S_ .f32 := constant S_ .f32 0x7F800000#32
  let main_v5 : FVec F S8x3x128 .f32 := broadcastInDim S8x3x128 ![] bcast_S_S8x3x128 main_cst_0
  let main_v6 : IVec S8x3x128 1 := cmpf .olt main_v4 main_v5
  let main_c_1 : IVec S_ 1 := constantI S_ 1 1#1
  let main_v7 : IVec S_ 1 := (fun x v => Host.reduce IntOp.andi x v reducesTo_S8x3x128_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x3x128x128 .f32 := Host.absf main_arg3
  let main_cst_4 : FVec F S_ .f32 := constant S_ .f32 0x7F800000#32
  let main_v15 : FVec F S8x3x128x128 .f32 := broadcastInDim S8x3x128x128 ![] bcast_S_S8x3x128x128 main_cst_4
  let main_v16 : IVec S8x3x128x128 1 := cmpf .olt main_v14 main_v15
  fn_part1 (F := F) main_arg4 main_arg5 main_arg6 main_arg7 main_arg8 main_v13 main_v16
-- ==== Kernel.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S65536 : Shape := ⟨1, ![65536]⟩
abbrev S2048x3 : Shape := ⟨2, ![2048, 3]⟩
abbrev S2048 : Shape := ⟨1, ![2048]⟩
abbrev S1x3x2 : Shape := ⟨3, ![1, 3, 2]⟩
abbrev S3x2 : Shape := ⟨2, ![3, 2]⟩
abbrev S3x1 : Shape := ⟨2, ![3, 1]⟩
abbrev S3 : Shape := ⟨1, ![3]⟩
abbrev S1x3 : Shape := ⟨2, ![1, 3]⟩
abbrev S1x3x128 : Shape := ⟨3, ![1, 3, 128]⟩
abbrev S3x128 : Shape := ⟨2, ![3, 128]⟩
abbrev S1x128 : Shape := ⟨2, ![1, 128]⟩
abbrev S128 : Shape := ⟨1, ![128]⟩
abbrev S1x3x128x128 : Shape := ⟨4, ![1, 3, 128, 128]⟩
abbrev S3x128x128 : Shape := ⟨3, ![3, 128, 128]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S2048x128 : Shape := ⟨2, ![2048, 128]⟩
abbrev S1x128x128 : Shape := ⟨3, ![1, 128, 128]⟩
abbrev S128x128 : Shape := ⟨2, ![128, 128]⟩
abbrev S2048x1 : Shape := ⟨2, ![2048, 1]⟩

abbrev nBuf : Space → Nat
  | .hbm => 10
  | .vmem => 12
  | .smem => 0
  | _ => 0

abbrev bufTy : (tb : Table) → Fin (tcTables nBuf tb) → BufTy
  | .hbm, ⟨0, _⟩ => ⟨S65536x3, .f32⟩
  | .hbm, ⟨1, _⟩ => ⟨S8x3x128, .f32⟩
  | .hbm, ⟨2, _⟩ => ⟨S8x128, .f32⟩
  | .hbm, ⟨3, _⟩ => ⟨S8x3x128x128, .f32⟩
  | .hbm, ⟨4, _⟩ => ⟨S8x3x128, .f32⟩
  | .hbm, ⟨5, _⟩ => ⟨S8x128x1, .f32⟩
  | .hbm, ⟨6, _⟩ => ⟨S8x1, .f32⟩
  | .hbm, ⟨7, _⟩ => ⟨S8x3, .f32⟩
  | .hbm, ⟨8, _⟩ => ⟨S8x3x2, .f32⟩
  | .hbm, ⟨9, _⟩ => ⟨S65536, .f32⟩
  | .local _ .vmem, ⟨0, _⟩ => ⟨S2048x3, .f32⟩
  | .local _ .vmem, ⟨1, _⟩ => ⟨S2048x3, .f32⟩
  | .local _ .vmem, ⟨2, _⟩ => ⟨S8x3x128, .f32⟩
  | .local _ .vmem, ⟨3, _⟩ => ⟨S8x128, .f32⟩
  | .local _ .vmem, ⟨4, _⟩ => ⟨S8x3x128x128, .f32⟩
  | .local _ .vmem, ⟨5, _⟩ => ⟨S8x3x128, .f32⟩
  | .local _ .vmem, ⟨6, _⟩ => ⟨S8x128x1, .f32⟩
  | .local _ .vmem, ⟨7, _⟩ => ⟨S8x1, .f32⟩
  | .local _ .vmem, ⟨8, _⟩ => ⟨S8x3, .f32⟩
  | .local _ .vmem, ⟨9, _⟩ => ⟨S8x3x2, .f32⟩
  | .local _ .vmem, ⟨10, _⟩ => ⟨S2048, .f32⟩
  | .local _ .vmem, ⟨11, _⟩ => ⟨S2048, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x3x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S2048x3_S2048x3_0_0 : ∀ a, (![0, 0] : Fin 2 → Nat) a + S2048x3.size a ≤ S2048x3.size a
  h_S2048x3 : 0 < S2048x3.numel
  inb_S8x3x2_S1x3x2_0_0_0 : ∀ a, (![0, 0, 0] : Fin 3 → Nat) a + S1x3x2.size a ≤ S8x3x2.size a
  h_S1x3x2 : 0 < S1x3x2.numel
  shapeCasts_S1x3x2_S3x2 : S1x3x2.ShapeCasts S3x2
  slices_S3x2_o0_0_S3x1 : S3x2.Slices ![0, 0] S3x1
  shapeCasts_S3x1_S3 : S3x1.ShapeCasts S3
  slices_S3x2_o0_1_S3x1 : S3x2.Slices ![0, 1] S3x1
  inb_S8x3_S1x3_0_0 : ∀ a, (![0, 0] : Fin 2 → Nat) a + S1x3.size a ≤ S8x3.size a
  h_S1x3 : 0 < S1x3.numel
  shapeCasts_S1x3_S3 : S1x3.ShapeCasts S3
  inb_S8x3x128_S1x3x128_0_0_0 : ∀ a, (![0, 0, 0] : Fin 3 → Nat) a + S1x3x128.size a ≤ S8x3x128.size a
  h_S1x3x128 : 0 < S1x3x128.numel
  shapeCasts_S1x3x128_S3x128 : S1x3x128.ShapeCasts S3x128
  inb_S8x128_S1x128_0_0 : ∀ a, (![0, 0] : Fin 2 → Nat) a + S1x128.size a ≤ S8x128.size a
  h_S1x128 : 0 < S1x128.numel
  shapeCasts_S1x128_S128 : S1x128.ShapeCasts S128
  inb_S8x3x128x128_S1x3x128x128_0_0_0_0 : ∀ a, (![0, 0, 0, 0] : Fin 4 → Nat) a + S1x3x128x128.size a ≤ S8x3x128x128.size a
  h_S1x3x128x128 : 0 < S1x3x128x128.numel
  shapeCasts_S1x3x128x128_S3x128x128 : S1x3x128x128.ShapeCasts S3x128x128
  inb_S8x128x1_S1x128x1_0_0_0 : ∀ a, (![0, 0, 0] : Fin 3 → Nat) a + S1x128x1.size a ≤ S8x128x1.size a
  h_S1x128x1 : 0 < S1x128x1.numel
  shapeCasts_S1x128x1_S128x1 : S1x128x1.ShapeCasts S128x1
  inb_S8x1_S1x1_0_0 : ∀ a, (![0, 0] : Fin 2 → Nat) a + S1x1.size a ≤ S8x1.size a
  h_S1x1 : 0 < S1x1.numel
  shapeCasts_S1x1_S1 : S1x1.ShapeCasts S1
  shapeCasts_S3_S1x3 : S3.ShapeCasts S1x3
  broadcasts_S1x3_S2048x3 : S1x3.Broadcasts S2048x3
  bitsLt_bf16_f32 : FTy.bits .bf16 < FTy.bits .f32
  shapeCasts_S128_S1x128 : S128.ShapeCasts S1x128
  broadcasts_S1x128_S2048x128 : S1x128.Broadcasts S2048x128
  slices_S3x128x128_o0_0_0_S1x128x128 : S3x128x128.Slices ![0, 0, 0] S1x128x128
  shapeCasts_S1x128x128_S128x128 : S1x128x128.ShapeCasts S128x128
  slices_S3x128_o0_0_S1x128 : S3x128.Slices ![0, 0] S1x128
  slices_S3x128x128_o1_0_0_S1x128x128 : S3x128x128.Slices ![1, 0, 0] S1x128x128
  slices_S3x128_o1_0_S1x128 : S3x128.Slices ![1, 0] S1x128
  slices_S3x128x128_o2_0_0_S1x128x128 : S3x128x128.Slices ![2, 0, 0] S1x128x128
  slices_S3x128_o2_0_S1x128 : S3x128.Slices ![2, 0] S1x128
  shapeCasts_S2048x1_S2048 : S2048x1.ShapeCasts S2048
  inpos_S1_p0 : ∀ a, (![0] : Fin 1 → Nat) a < S1.size a
  reduces_S2048x3_S2048 : S2048x3.Reduces [1] S2048
  inb_S8x3x2_S1x3x2_1_0_0 : ∀ a, (![1, 0, 0] : Fin 3 → Nat) a + S1x3x2.size a ≤ S8x3x2.size a
  inb_S8x3_S1x3_1_0 : ∀ a, (![1, 0] : Fin 2 → Nat) a + S1x3.size a ≤ S8x3.size a
  inb_S8x3x128_S1x3x128_1_0_0 : ∀ a, (![1, 0, 0] : Fin 3 → Nat) a + S1x3x128.size a ≤ S8x3x128.size a
  inb_S8x128_S1x128_1_0 : ∀ a, (![1, 0] : Fin 2 → Nat) a + S1x128.size a ≤ S8x128.size a
  inb_S8x3x128x128_S1x3x128x128_1_0_0_0 : ∀ a, (![1, 0, 0, 0] : Fin 4 → Nat) a + S1x3x128x128.size a ≤ S8x3x128x128.size a
  inb_S8x128x1_S1x128x1_1_0_0 : ∀ a, (![1, 0, 0] : Fin 3 → Nat) a + S1x128x1.size a ≤ S8x128x1.size a
  inb_S8x1_S1x1_1_0 : ∀ a, (![1, 0] : Fin 2 → Nat) a + S1x1.size a ≤ S8x1.size a
  inb_S8x3x2_S1x3x2_2_0_0 : ∀ a, (![2, 0, 0] : Fin 3 → Nat) a + S1x3x2.size a ≤ S8x3x2.size a
  inb_S8x3_S1x3_2_0 : ∀ a, (![2, 0] : Fin 2 → Nat) a + S1x3.size a ≤ S8x3.size a
  inb_S8x3x128_S1x3x128_2_0_0 : ∀ a, (![2, 0, 0] : Fin 3 → Nat) a + S1x3x128.size a ≤ S8x3x128.size a
  inb_S8x128_S1x128_2_0 : ∀ a, (![2, 0] : Fin 2 → Nat) a + S1x128.size a ≤ S8x128.size a
  inb_S8x3x128x128_S1x3x128x128_2_0_0_0 : ∀ a, (![2, 0, 0, 0] : Fin 4 → Nat) a + S1x3x128x128.size a ≤ S8x3x128x128.size a
  inb_S8x128x1_S1x128x1_2_0_0 : ∀ a, (![2, 0, 0] : Fin 3 → Nat) a + S1x128x1.size a ≤ S8x128x1.size a
  inb_S8x1_S1x1_2_0 : ∀ a, (![2, 0] : Fin 2 → Nat) a + S1x1.size a ≤ S8x1.size a
  inb_S8x3x2_S1x3x2_3_0_0 : ∀ a, (![3, 0, 0] : Fin 3 → Nat) a + S1x3x2.size a ≤ S8x3x2.size a
  inb_S8x3_S1x3_3_0 : ∀ a, (![3, 0] : Fin 2 → Nat) a + S1x3.size a ≤ S8x3.size a
  inb_S8x3x128_S1x3x128_3_0_0 : ∀ a, (![3, 0, 0] : Fin 3 → Nat) a + S1x3x128.size a ≤ S8x3x128.size a
  inb_S8x128_S1x128_3_0 : ∀ a, (![3, 0] : Fin 2 → Nat) a + S1x128.size a ≤ S8x128.size a
  inb_S8x3x128x128_S1x3x128x128_3_0_0_0 : ∀ a, (![3, 0, 0, 0] : Fin 4 → Nat) a + S1x3x128x128.size a ≤ S8x3x128x128.size a
  inb_S8x128x1_S1x128x1_3_0_0 : ∀ a, (![3, 0, 0] : Fin 3 → Nat) a + S1x128x1.size a ≤ S8x128x1.size a
  inb_S8x1_S1x1_3_0 : ∀ a, (![3, 0] : Fin 2 → Nat) a + S1x1.size a ≤ S8x1.size a
  inb_S8x3x2_S1x3x2_4_0_0 : ∀ a, (![4, 0, 0] : Fin 3 → Nat) a + S1x3x2.size a ≤ S8x3x2.size a
  inb_S8x3_S1x3_4_0 : ∀ a, (![4, 0] : Fin 2 → Nat) a + S1x3.size a ≤ S8x3.size a
  inb_S8x3x128_S1x3x128_4_0_0 : ∀ a, (![4, 0, 0] : Fin 3 → Nat) a + S1x3x128.size a ≤ S8x3x128.size a
  inb_S8x128_S1x128_4_0 : ∀ a, (![4, 0] : Fin 2 → Nat) a + S1x128.size a ≤ S8x128.size a
  inb_S8x3x128x128_S1x3x128x128_4_0_0_0 : ∀ a, (![4, 0, 0, 0] : Fin 4 → Nat) a + S1x3x128x128.size a ≤ S8x3x128x128.size a
  inb_S8x128x1_S1x128x1_4_0_0 : ∀ a, (![4, 0, 0] : Fin 3 → Nat) a + S1x128x1.size a ≤ S8x128x1.size a
  inb_S8x1_S1x1_4_0 : ∀ a, (![4, 0] : Fin 2 → Nat) a + S1x1.size a ≤ S8x1.size a
  inb_S8x3x2_S1x3x2_5_0_0 : ∀ a, (![5, 0, 0] : Fin 3 → Nat) a + S1x3x2.size a ≤ S8x3x2.size a
  inb_S8x3_S1x3_5_0 : ∀ a, (![5, 0] : Fin 2 → Nat) a + S1x3.size a ≤ S8x3.size a
  inb_S8x3x128_S1x3x128_5_0_0 : ∀ a, (![5, 0, 0] : Fin 3 → Nat) a + S1x3x128.size a ≤ S8x3x128.size a
  inb_S8x128_S1x128_5_0 : ∀ a, (![5, 0] : Fin 2 → Nat) a + S1x128.size a ≤ S8x128.size a
  inb_S8x3x128x128_S1x3x128x128_5_0_0_0 : ∀ a, (![5, 0, 0, 0] : Fin 4 → Nat) a + S1x3x128x128.size a ≤ S8x3x128x128.size a
  inb_S8x128x1_S1x128x1_5_0_0 : ∀ a, (![5, 0, 0] : Fin 3 → Nat) a + S1x128x1.size a ≤ S8x128x1.size a
  inb_S8x1_S1x1_5_0 : ∀ a, (![5, 0] : Fin 2 → Nat) a + S1x1.size a ≤ S8x1.size a
  inb_S8x3x2_S1x3x2_6_0_0 : ∀ a, (![6, 0, 0] : Fin 3 → Nat) a + S1x3x2.size a ≤ S8x3x2.size a
  inb_S8x3_S1x3_6_0 : ∀ a, (![6, 0] : Fin 2 → Nat) a + S1x3.size a ≤ S8x3.size a
  inb_S8x3x128_S1x3x128_6_0_0 : ∀ a, (![6, 0, 0] : Fin 3 → Nat) a + S1x3x128.size a ≤ S8x3x128.size a
  inb_S8x128_S1x128_6_0 : ∀ a, (![6, 0] : Fin 2 → Nat) a + S1x128.size a ≤ S8x128.size a
  inb_S8x3x128x128_S1x3x128x128_6_0_0_0 : ∀ a, (![6, 0, 0, 0] : Fin 4 → Nat) a + S1x3x128x128.size a ≤ S8x3x128x128.size a
  inb_S8x128x1_S1x128x1_6_0_0 : ∀ a, (![6, 0, 0] : Fin 3 → Nat) a + S1x128x1.size a ≤ S8x128x1.size a
  inb_S8x1_S1x1_6_0 : ∀ a, (![6, 0] : Fin 2 → Nat) a + S1x1.size a ≤ S8x1.size a
  inb_S8x3x2_S1x3x2_7_0_0 : ∀ a, (![7, 0, 0] : Fin 3 → Nat) a + S1x3x2.size a ≤ S8x3x2.size a
  inb_S8x3_S1x3_7_0 : ∀ a, (![7, 0] : Fin 2 → Nat) a + S1x3.size a ≤ S8x3.size a
  inb_S8x3x128_S1x3x128_7_0_0 : ∀ a, (![7, 0, 0] : Fin 3 → Nat) a + S1x3x128.size a ≤ S8x3x128.size a
  inb_S8x128_S1x128_7_0 : ∀ a, (![7, 0] : Fin 2 → Nat) a + S1x128.size a ≤ S8x128.size a
  inb_S8x3x128x128_S1x3x128x128_7_0_0_0 : ∀ a, (![7, 0, 0, 0] : Fin 4 → Nat) a + S1x3x128x128.size a ≤ S8x3x128x128.size a
  inb_S8x128x1_S1x128x1_7_0_0 : ∀ a, (![7, 0, 0] : Fin 3 → Nat) a + S1x128x1.size a ≤ S8x128x1.size a
  inb_S8x1_S1x1_7_0 : ∀ a, (![7, 0] : Fin 2 → Nat) a + S1x1.size a ≤ S8x1.size a
  inb_S2048_S2048_0 : ∀ a, (![0] : Fin 1 → Nat) a + S2048.size a ≤ S2048.size a
  h_S2048 : 0 < S2048.numel
  dot_S2048x3_S3x128_S2048x128_1_0_0_1_n_n_wf : DotDims.WF S2048x3 S3x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S65536x3.size a
  hwx0_0 : ∀ i : grid0.Coords, EltTy.bits .f32 = 32 ∨ (Rect.block (s := S65536x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3x128.size a ≤ S8x3x128.size a
  hwx0_1 : ∀ i : grid0.Coords, EltTy.bits .f32 = 32 ∨ (Rect.block (s := S8x3x128) S8x3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x3x128x128.size a ≤ S8x3x128x128.size a
  hwx0_3 : ∀ i : grid0.Coords, EltTy.bits .f32 = 32 ∨ (Rect.block (s := S8x3x128x128) S8x3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x3x128.size a ≤ S8x3x128.size a
  hwx0_4 : ∀ i : grid0.Coords, EltTy.bits .f32 = 32 ∨ (Rect.block (s := S8x3x128) S8x3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128x1.size a ≤ S8x128x1.size a
  hwx0_5 : ∀ i : grid0.Coords, EltTy.bits .f32 = 32 ∨ (Rect.block (s := S8x128x1) S8x128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x3.size a ≤ S8x3.size a
  hwx0_7 : ∀ i : grid0.Coords, EltTy.bits .f32 = 32 ∨ (Rect.block (s := S8x3) S8x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x3x2.size a ≤ S8x3x2.size a
  hwx0_8 : ∀ i : grid0.Coords, EltTy.bits .f32 = 32 ∨ (Rect.block (s := S8x3x2) S8x3x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S65536.size a
  hwx0_9 : ∀ i : grid0.Coords, EltTy.bits .f32 = 32 ∨ (Rect.block (s := S65536) S2048.size (cc0_transform_9 i) (hinb0_9 i)).WholeWords (EltTy.packing .f32)

variable [Facts₀]

def dot_S2048x3_S3x128_S2048x128_1_0_0_1_n_n : DotDims S2048x3 S3x128 S2048x128 where
  lhsContracting := [1]
  rhsContracting := [0]
  lhsNonContracting := [0]
  rhsNonContracting := [1]
  lhsBatch := []
  rhsBatch := []
  wf := dot_S2048x3_S3x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S8x3x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x3 : Shape := ⟨2, ![65536, 3]⟩
abbrev S8x3x128 : Shape := ⟨3, ![8, 3, 128]⟩
abbrev S8x128 : Shape := ⟨2, ![8, 128]⟩
abbrev S8x3x128x128 : Shape := ⟨4, ![8, 3, 128, 128]⟩
abbrev S8x128x1 : Shape := ⟨3, ![8, 128, 1]⟩
abbrev S8x1 : Shape := ⟨2, ![8, 1]⟩
abbrev S8x3 : Shape := ⟨2, ![8, 3]⟩
abbrev S8x3x2 : Shape := ⟨3, ![8, 3, 2]⟩
abbrev S8x3x1 : Shape := ⟨3, ![8, 3, 1]⟩
abbrev S8x1x3 : Shape := ⟨3, ![8, 1, 3]⟩
abbrev S1x65536x3 : Shape := ⟨3, ![1, 65536, 3]⟩
abbrev S8x65536x3 : Shape := ⟨3, ![8, 65536, 3]⟩
abbrev S_ : Shape := ⟨0, ![]⟩
abbrev S8x65536x128 : Shape := ⟨3, ![8, 65536, 128]⟩
abbrev S8x1x128 : Shape := ⟨3, ![8, 1, 128]⟩
abbrev S8x1x128x128 : Shape := ⟨4, ![8, 1, 128, 128]⟩
abbrev S8x128x128 : Shape := ⟨3, ![8, 128, 128]⟩
abbrev S8x65536x1 : Shape := ⟨3, ![8, 65536, 1]⟩
abbrev S8x1x1 : Shape := ⟨3, ![8, 1, 1]⟩
abbrev S8x65536 : Shape := ⟨2, ![8, 65536]⟩
abbrev S65536 : Shape := ⟨1, ![65536]⟩
abbrev S1x65536 : Shape := ⟨2, ![1, 65536]⟩
abbrev S1x65536x1 : Shape := ⟨3, ![1, 65536, 1]⟩
abbrev S1 : Shape := ⟨1, ![1]⟩
abbrev S1x1x1 : Shape := ⟨3, ![1, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S8x3x128, .f32⟩
  | .hbm, ⟨2, _⟩ => ⟨S8x128, .f32⟩
  | .hbm, ⟨3, _⟩ => ⟨S8x3x128x128, .f32⟩
  | .hbm, ⟨4, _⟩ => ⟨S8x3x128, .f32⟩
  | .hbm, ⟨5, _⟩ => ⟨S8x128x1, .f32⟩
  | .hbm, ⟨6, _⟩ => ⟨S8x1, .f32⟩
  | .hbm, ⟨7, _⟩ => ⟨S8x3, .f32⟩
  | .hbm, ⟨8, _⟩ => ⟨S8x3x2, .f32⟩
  | .hbm, ⟨9, _⟩ => ⟨S8x3x1, .f32⟩
  | .hbm, ⟨10, _⟩ => ⟨S8x3, .f32⟩
  | .hbm, ⟨11, _⟩ => ⟨S8x1x3, .f32⟩
  | .hbm, ⟨12, _⟩ => ⟨S8x3x1, .f32⟩
  | .hbm, ⟨13, _⟩ => ⟨S8x3, .f32⟩
  | .hbm, ⟨14, _⟩ => ⟨S8x1x3, .f32⟩
  | .hbm, ⟨15, _⟩ => ⟨S1x65536x3, .f32⟩
  | .hbm, ⟨16, _⟩ => ⟨S8x65536x3, .f32⟩
  | .hbm, ⟨17, _⟩ => ⟨S8x65536x3, .f32⟩
  | .hbm, ⟨18, _⟩ => ⟨S8x65536x3, .f32⟩
  | .hbm, ⟨19, _⟩ => ⟨S_, .f32⟩
  | .hbm, ⟨20, _⟩ => ⟨S8x65536x3, .f32⟩
  | .hbm, ⟨21, _⟩ => ⟨S8x65536x3, .f32⟩
  | .hbm, ⟨22, _⟩ => ⟨S8x1x3, .f32⟩
  | .hbm, ⟨23, _⟩ => ⟨S8x65536x3, .f32⟩
  | .hbm, ⟨24, _⟩ => ⟨S8x65536x3, .f32⟩
  | .hbm, ⟨25, _⟩ => ⟨S_, .f32⟩
  | .hbm, ⟨26, _⟩ => ⟨S8x65536x3, .f32⟩
  | .hbm, ⟨27, _⟩ => ⟨S8x65536x3, .f32⟩
  | .hbm, ⟨28, _⟩ => ⟨S8x1x3, .f32⟩
  | .hbm, ⟨29, _⟩ => ⟨S8x65536x3, .f32⟩
  | .hbm, ⟨30, _⟩ => ⟨S8x65536x3, .f32⟩
  | .hbm, ⟨31, _⟩ => ⟨S8x65536x128, .f32⟩
  | .hbm, ⟨32, _⟩ => ⟨S8x1x128, .f32⟩
  | .hbm, ⟨33, _⟩ => ⟨S8x65536x128, .f32⟩
  | .hbm, ⟨34, _⟩ => ⟨S8x65536x128, .f32⟩
  | .hbm, ⟨35, _⟩ => ⟨S_, .f32⟩
  | .hbm, ⟨36, _⟩ => ⟨S8x65536x128, .f32⟩
  | .hbm, ⟨37, _⟩ => ⟨S8x65536x128, .f32⟩
  | .hbm, ⟨38, _⟩ => ⟨S8x65536x128, .f32⟩
  | .hbm, ⟨39, _⟩ => ⟨S8x1x128x128, .f32⟩
  | .hbm, ⟨40, _⟩ => ⟨S8x128x128, .f32⟩
  | .hbm, ⟨41, _⟩ => ⟨S8x65536x128, .f32⟩
  | .hbm, ⟨42, _⟩ => ⟨S8x1x128, .f32⟩
  | .hbm, ⟨43, _⟩ => ⟨S8x128, .f32⟩
  | .hbm, ⟨44, _⟩ => ⟨S8x1x128, .f32⟩
  | .hbm, ⟨45, _⟩ => ⟨S8x65536x128, .f32⟩
  | .hbm, ⟨46, _⟩ => ⟨S8x65536x128, .f32⟩
  | .hbm, ⟨47, _⟩ => ⟨S_, .f32⟩
  | .hbm, ⟨48, _⟩ => ⟨S8x65536x128, .f32⟩
  | .hbm, ⟨49, _⟩ => ⟨S8x65536x128, .f32⟩
  | .hbm, ⟨50, _⟩ => ⟨S8x65536x128, .f32⟩
  | .hbm, ⟨51, _⟩ => ⟨S8x1x128x128, .f32⟩
  | .hbm, ⟨52, _⟩ => ⟨S8x128x128, .f32⟩
  | .hbm, ⟨53, _⟩ => ⟨S8x65536x128, .f32⟩
  | .hbm, ⟨54, _⟩ => ⟨S8x1x128, .f32⟩
  | .hbm, ⟨55, _⟩ => ⟨S8x128, .f32⟩
  | .hbm, ⟨56, _⟩ => ⟨S8x1x128, .f32⟩
  | .hbm, ⟨57, _⟩ => ⟨S8x65536x128, .f32⟩
  | .hbm, ⟨58, _⟩ => ⟨S8x65536x128, .f32⟩
  | .hbm, ⟨59, _⟩ => ⟨S_, .f32⟩
  | .hbm, ⟨60, _⟩ => ⟨S8x65536x128, .f32⟩
  | .hbm, ⟨61, _⟩ => ⟨S8x65536x128, .f32⟩
  | .hbm, ⟨62, _⟩ => ⟨S8x65536x128, .f32⟩
  | .hbm, ⟨63, _⟩ => ⟨S8x1x128x128, .f32⟩
  | .hbm, ⟨64, _⟩ => ⟨S8x128x128, .f32⟩
  | .hbm, ⟨65, _⟩ => ⟨S8x65536x128, .f32⟩
  | .hbm, ⟨66, _⟩ => ⟨S8x1x128, .f32⟩
  | .hbm, ⟨67, _⟩ => ⟨S8x128, .f32⟩
  | .hbm, ⟨68, _⟩ => ⟨S8x1x128, .f32⟩
  | .hbm, ⟨69, _⟩ => ⟨S8x65536x128, .f32⟩
  | .hbm, ⟨70, _⟩ => ⟨S8x65536x128, .f32⟩
  | .hbm, ⟨71, _⟩ => ⟨S_, .f32⟩
  | .hbm, ⟨72, _⟩ => ⟨S8x65536x128, .f32⟩
  | .hbm, ⟨73, _⟩ => ⟨S8x65536x128, .f32⟩
  | .hbm, ⟨74, _⟩ => ⟨S8x65536x128, .f32⟩
  | .hbm, ⟨75, _⟩ => ⟨S8x65536x1, .f32⟩
  | .hbm, ⟨76, _⟩ => ⟨S8x1x1, .f32⟩
  | .hbm, ⟨77, _⟩ => ⟨S8x65536x1, .f32⟩
  | .hbm, ⟨78, _⟩ => ⟨S8x65536x1, .f32⟩
  | .hbm, ⟨79, _⟩ => ⟨S8x65536, .f32⟩
  | .hbm, ⟨80, _⟩ => ⟨S1x65536x3, .f32⟩
  | .hbm, ⟨81, _⟩ => ⟨S8x65536x3, .f32⟩
  | .hbm, ⟨82, _⟩ => ⟨S8x65536x3, .f32⟩
  | .hbm, ⟨83, _⟩ => ⟨S8x65536x3, .i1⟩
  | .hbm, ⟨84, _⟩ => ⟨S1x65536x3, .f32⟩
  | .hbm, ⟨85, _⟩ => ⟨S8x65536x3, .f32⟩
  | .hbm, ⟨86, _⟩ => ⟨S8x65536x3, .f32⟩
  | .hbm, ⟨87, _⟩ => ⟨S8x65536x3, .i1⟩
  | .hbm, ⟨88, _⟩ => ⟨S8x65536x3, .i1⟩
  | .hbm, ⟨89, _⟩ => ⟨S_, .i1⟩
  | .hbm, ⟨90, _⟩ => ⟨S8x65536, .i1⟩
  | .hbm, ⟨91, _⟩ => ⟨S8x65536, .i32⟩
  | .hbm, ⟨92, _⟩ => ⟨S_, .i1⟩
  | .hbm, ⟨93, _⟩ => ⟨S_, .i32⟩
  | .hbm, ⟨94, _⟩ => ⟨S65536, .i1⟩
  | .hbm, ⟨95, _⟩ => ⟨S65536, .i32⟩
  | .hbm, ⟨96, _⟩ => ⟨S_, .i1⟩
  | .hbm, ⟨97, _⟩ => ⟨S65536, .i1⟩
  | .hbm, ⟨98, _⟩ => ⟨S1x65536, .i32⟩
  | .hbm, ⟨99, _⟩ => ⟨S_, .i32⟩
  | .hbm, ⟨100, _⟩ => ⟨S1x65536, .i32⟩
  | .hbm, ⟨101, _⟩ => ⟨S1x65536, .i1⟩
  | .hbm, ⟨102, _⟩ => ⟨S_, .i32⟩
  | .hbm, ⟨103, _⟩ => ⟨S1x65536, .i32⟩
  | .hbm, ⟨104, _⟩ => ⟨S1x65536, .i32⟩
  | .hbm, ⟨105, _⟩ => ⟨S1x65536, .i32⟩
  | .hbm, ⟨106, _⟩ => ⟨S1x65536x1, .i32⟩
  | .hbm, ⟨107, _⟩ => ⟨S1, .i32⟩
  | .hbm, ⟨108, _⟩ => ⟨S_, .i32⟩
  | .hbm, ⟨109, _⟩ => ⟨S1x65536x1, .i32⟩
  | .hbm, ⟨110, _⟩ => ⟨S1x65536x1, .i1⟩
  | .hbm, ⟨111, _⟩ => ⟨S1x1x1, .i32⟩
  | .hbm, ⟨112, _⟩ => ⟨S1x65536x1, .i32⟩
  | .hbm, ⟨113, _⟩ => ⟨S1x65536x1, .i1⟩
  | .hbm, ⟨114, _⟩ => ⟨S1x65536x1, .i1⟩
  | .hbm, ⟨115, _⟩ => ⟨S_, .i1⟩
  | .hbm, ⟨116, _⟩ => ⟨S1x65536, .i1⟩
  | .hbm, ⟨117, _⟩ => ⟨S1x65536, .f32⟩
  | .hbm, ⟨118, _⟩ => ⟨S_, .f32⟩
  | .hbm, ⟨119, _⟩ => ⟨S1x65536, .f32⟩
  | .hbm, ⟨120, _⟩ => ⟨S1x65536, .f32⟩
  | .hbm, ⟨121, _⟩ => ⟨S65536, .f32⟩
  | .hbm, ⟨122, _⟩ => ⟨S_, .f32⟩
  | .hbm, ⟨123, _⟩ => ⟨S_, .f32⟩
  | .hbm, ⟨124, _⟩ => ⟨S65536, .f32⟩
  | .hbm, ⟨125, _⟩ => ⟨S65536, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c : Ref sig .tc := ⟨.hbm, 89, rfl⟩
abbrev main_v74 : Ref sig .tc := ⟨.hbm, 90, rfl⟩
abbrev main_call0_v0 : Ref sig .tc := ⟨.hbm, 91, rfl⟩
abbrev main_call0_c : Ref sig .tc := ⟨.hbm, 92, rfl⟩
abbrev main_call0_c_0 : Ref sig .tc := ⟨.hbm, 93, rfl⟩
abbrev main_call0_v1_0 : Ref sig .tc := ⟨.hbm, 94, rfl⟩
abbrev main_v75 : Ref sig .tc := ⟨.hbm, 95, rfl⟩
abbrev main_c_5 : Ref sig .tc := ⟨.hbm, 96, rfl⟩
abbrev main_v76 : Ref sig .tc := ⟨.hbm, 97, rfl⟩
abbrev main_v77 : Ref sig .tc := ⟨.hbm, 98, rfl⟩
abbrev main_call1_c : Ref sig .tc := ⟨.hbm, 99, rfl⟩
abbrev main_call1_v0 : Ref sig .tc := ⟨.hbm, 100, rfl⟩
abbrev main_call1_v1 : Ref sig .tc := ⟨.hbm, 101, rfl⟩
abbrev main_call1_c_0 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_c_1 : Ref sig .tc := ⟨.hbm, 107, rfl⟩
abbrev main_call1_c_2 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_call1_c_3 : Ref sig .tc := ⟨.hbm, 115, rfl⟩
abbrev main_call1_v12 : Ref sig .tc := ⟨.hbm, 116, rfl⟩
abbrev main_call1_v13 : Ref sig .tc := ⟨.hbm, 117, rfl⟩
abbrev main_call1_cst : Ref sig .tc := ⟨.hbm, 118, rfl⟩
abbrev main_call1_v14 : Ref sig .tc := ⟨.hbm, 119, rfl⟩
abbrev main_v78 : Ref sig .tc := ⟨.hbm, 120, rfl⟩
abbrev main_v79 : Ref sig .tc := ⟨.hbm, 121, rfl⟩
abbrev main_cst_6 : Ref sig .tc := ⟨.hbm, 122, rfl⟩
abbrev main_call2_v0 : Ref sig .tc := ⟨.hbm, 123, rfl⟩
abbrev main_call2_v1 : Ref sig .tc := ⟨.hbm, 124, rfl⟩
abbrev main_v80 : Ref sig .tc := ⟨.hbm, 125, rfl⟩

abbrev nD : Nat := 1
abbrev τ : Topo := Topo.v7x

variable {F : FTy → Type} [FloatOps F]

class Facts₀ : Prop where
  slices_S8x3x2_S8x3x1_0_0_0 : S8x3x2.Slices ![0, 0, 0] S8x3x1
  shapeCasts_S8x3x1_S8x3 : S8x3x1.ShapeCasts S8x3
  bcast_S8x3_S8x1x3_0_2 : S8x3.BroadcastsInDim S8x1x3 (![0, 2] : Fin 2 → Fin S8x1x3.rank)
  slices_S8x3x2_S8x3x1_0_0_1 : S8x3x2.Slices ![0, 0, 1] S8x3x1
  bcast_S65536x3_S1x65536x3_1_2 : S65536x3.BroadcastsInDim S1x65536x3 (![1, 2] : Fin 2 → Fin S1x65536x3.rank)
  bcast_S1x65536x3_S8x65536x3_0_1_2 : S1x65536x3.BroadcastsInDim S8x65536x3 (![0, 1, 2] : Fin 3 → Fin S8x65536x3.rank)
  bcast_S8x1x3_S8x65536x3_0_1_2 : S8x1x3.BroadcastsInDim S8x65536x3 (![0, 1, 2] : Fin 3 → Fin S8x65536x3.rank)
  bcast_S_S8x65536x3 : S_.BroadcastsInDim S8x65536x3 (![] : Fin 0 → Fin S8x65536x3.rank)
  bcast_S8x128_S8x1x128_0_2 : S8x128.BroadcastsInDim S8x1x128 (![0, 2] : Fin 2 → Fin S8x1x128.rank)
  bcast_S8x1x128_S8x65536x128_0_1_2 : S8x1x128.BroadcastsInDim S8x65536x128 (![0, 1, 2] : Fin 3 → Fin S8x65536x128.rank)
  bcast_S_S8x65536x128 : S_.BroadcastsInDim S8x65536x128 (![] : Fin 0 → Fin S8x65536x128.rank)
  slices_S8x3x128x128_S8x1x128x128_0_0_0_0 : S8x3x128x128.Slices ![0, 0, 0, 0] S8x1x128x128
  shapeCasts_S8x1x128x128_S8x128x128 : S8x1x128x128.ShapeCasts S8x128x128
  slices_S8x3x128_S8x1x128_0_0_0 : S8x3x128.Slices ![0, 0, 0] S8x1x128
  shapeCasts_S8x1x128_S8x128 : S8x1x128.ShapeCasts S8x128
  slices_S8x3x128x128_S8x1x128x128_0_1_0_0 : S8x3x128x128.Slices ![0, 1, 0, 0] S8x1x128x128
  slices_S8x3x128_S8x1x128_0_1_0 : S8x3x128.Slices ![0, 1, 0] S8x1x128
  slices_S8x3x128x128_S8x1x128x128_0_2_0_0 : S8x3x128x128.Slices ![0, 2, 0, 0] S8x1x128x128
  slices_S8x3x128_S8x1x128_0_2_0 : S8x3x128.Slices ![0, 2, 0] S8x1x128
  bcast_S8x1_S8x1x1_0_2 : S8x1.BroadcastsInDim S8x1x1 (![0, 2] : Fin 2 → Fin S8x1x1.rank)
  bcast_S8x1x1_S8x65536x1_0_1_2 : S8x1x1.BroadcastsInDim S8x65536x1 (![0, 1, 2] : Fin 3 → Fin S8x65536x1.rank)
  shapeCasts_S8x65536x1_S8x65536 : S8x65536x1.ShapeCasts S8x65536
  reducesTo_S8x65536x3_S8x65536_d2 : S8x65536x3.ReducesTo [2] S8x65536
  h_S_ : 0 < S_.numel
  reducesTo_S8x65536_S65536_d0 : S8x65536.ReducesTo [0] S65536
  bcast_S65536_S1x65536_1 : S65536.BroadcastsInDim S1x65536 (![1] : Fin 1 → Fin S1x65536.rank)
  bcast_S_S1x65536 : S_.BroadcastsInDim S1x65536 (![] : Fin 0 → Fin S1x65536.rank)
  shapeCasts_S1x65536_S1x65536x1 : S1x65536.ShapeCasts S1x65536x1
  bcast_S_S1x65536x1 : S_.BroadcastsInDim S1x65536x1 (![] : Fin 0 → Fin S1x65536x1.rank)
  bcast_S1_S1x1x1_2 : S1.BroadcastsInDim S1x1x1 (![2] : Fin 1 → Fin S1x1x1.rank)
  bcast_S1x1x1_S1x65536x1_0_1_2 : S1x1x1.BroadcastsInDim S1x65536x1 (![0, 1, 2] : Fin 3 → Fin S1x65536x1.rank)
  reducesTo_S1x65536x1_S1x65536_d2 : S1x65536x1.ReducesTo [2] S1x65536
  shapeCasts_S1x65536_S65536 : S1x65536.ShapeCasts S65536
  bcast_S_S65536 : S_.BroadcastsInDim S65536 (![] : Fin 0 → Fin S65536.rank)
  dot_S8x65536x3_S8x3x128_S8x65536x128_2_1_1_2_0_0_wf : DotDims.WF S8x65536x3 S8x3x128 S8x65536x128 [2] [1] [1] [2] [0] [0]
  dot_S8x65536x128_S8x128x128_S8x65536x128_2_1_1_2_0_0_wf : DotDims.WF S8x65536x128 S8x128x128 S8x65536x128 [2] [1] [1] [2] [0] [0]
  dot_S8x65536x128_S8x128x1_S8x65536x1_2_1_1_2_0_0_wf : DotDims.WF S8x65536x128 S8x128x1 S8x65536x1 [2] [1] [1] [2] [0] [0]
  gather_S8x65536_S1x65536x1_S1x65536_n_0_1_1_0_2_11_wf : GatherDims.WF S8x65536 S1x65536x1 S1x65536 [] [0] [1] [0] [1] 2 ![1, 1]

variable [Facts₀]

def dot_S8x65536x3_S8x3x128_S8x65536x128_2_1_1_2_0_0 : DotDims S8x65536x3 S8x3x128 S8x65536x128 where
  lhsContracting := [2]
  rhsContracting := [1]
  lhsNonContracting := [1]
  rhsNonContracting := [2]
  lhsBatch := [0]
  rhsBatch := [0]
  wf := dot_S8x65536x3_S8x3x128_S8x65536x128_2_1_1_2_0_0_wf
def dot_S8x65536x128_S8x128x128_S8x65536x128_2_1_1_2_0_0 : DotDims S8x65536x128 S8x128x128 S8x65536x128 where
  lhsContracting := [2]
  rhsContracting := [1]
  lhsNonContracting := [1]
  rhsNonContracting := [2]
  lhsBatch := [0]
  rhsBatch := [0]
  wf := dot_S8x65536x128_S8x128x128_S8x65536x128_2_1_1_2_0_0_wf
def dot_S8x65536x128_S8x128x1_S8x65536x1_2_1_1_2_0_0 : DotDims S8x65536x128 S8x128x1 S8x65536x1 where
  lhsContracting := [2]
  rhsContracting := [1]
  lhsNonContracting := [1]
  rhsNonContracting := [2]
  lhsBatch := [0]
  rhsBatch := [0]
  wf := dot_S8x65536x128_S8x128x1_S8x65536x1_2_1_1_2_0_0_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x65536_S1x65536x1_S1x65536_n_0_1_1_0_2_11 : GatherDims S8x65536 S1x65536x1 S1x65536 where
  offsetDims := []
  collapsedSliceDims := [0]
  operandBatchingDims := [1]
  startIndicesBatchingDims := [1]
  startIndexMap := [0]
  indexVectorDim := 2
  sliceSizes := ![1, 1]
  wf := gather_S8x65536_S1x65536x1_S1x65536_n_0_1_1_0_2_11_wf

class Facts : Prop extends Facts₀ where

variable [Facts]
-- ==== Proof.KerBody.lean ====
/-
  The kernel body's one store, restated box by box.

  The body is the loop over the eight boxes unrolled.  For each box it loads that box's corners, scale and weights
  (one row of each resident array), runs the block's 2048 points through the box's network (`boxVis`: the operations of
  the printed body's first iteration, in their order — the normalisation, a bf16 matrix product per layer into a zero
  accumulator, the bias, `sin (30 · _)`, the output column plus its bias) and tests the points against the box
  (`boxMask`: both comparisons, joined, turned into 1.0 / 0.0, the minimum over the three axes from +inf, compared
  with zero).  `kerStep` is one iteration's update of the running value and the "already placed" bits, and `kerOut` the
  eight iterations from the zero vector and no bits.  `out_eq`: the generated description of the store (`out0_9`, a
  nest of positionally cut pieces of the body) is exactly this walk — both unfold to the same operations.
-/
import proofs.«176922_j5729486373507_1_alg».proof.Proof.KernelIdealFrameP

set_option synthInstance.maxSize 4096

noncomputable section

namespace Cert.KernelIdeal.Body

open Cert.KernelIdeal Cert.KernelIdeal.Gen Cert.KernelIdeal.GenP Idealize.ShloMosaic Idealize.SL.Sem

variable {F : FTy → Type} [FloatOps F]

/-- One box's network on a block of points: the value of every point of the block, from the block and the box's loaded
    rows. -/
def boxVis (v0 : Vec F S2048x3 .f32) (v3 : Vec F S1x3x2 .f32) (v9 : Vec F S1x3 .f32) (v11 : Vec F S1x3x128 .f32) (v13 : Vec F S1x128 .f32) (v15 : Vec F S1x3x128x128 .f32) (v17 : Vec F S1x3x128 .f32) (v19 : Vec F S1x128x1 .f32) (v21 : Vec F S1x1 .f32) : FVec F S2048 .f32 :=
  have v4 : FVec F S3x2 .f32 := shapeCast S3x2 v3 shapeCasts_S1x3x2_S3x2
  have v5 : FVec F S3x1 .f32 := extractStridedSlice S3x1 ![0, 0] v4 slices_S3x2_o0_0_S3x1
  have v6 : FVec F S3 .f32 := shapeCast S3 v5 shapeCasts_S3x1_S3
  have v7 : FVec F S3x1 .f32 := extractStridedSlice S3x1 ![0, 1] v4 slices_S3x2_o0_1_S3x1
  have v8 : FVec F S3 .f32 := shapeCast S3 v7 shapeCasts_S3x1_S3
  have v10 : FVec F S3 .f32 := shapeCast S3 v9 shapeCasts_S1x3_S3
  have v12 : FVec F S3x128 .f32 := shapeCast S3x128 v11 shapeCasts_S1x3x128_S3x128
  have v14 : FVec F S128 .f32 := shapeCast S128 v13 shapeCasts_S1x128_S128
  have v16 : FVec F S3x128x128 .f32 := shapeCast S3x128x128 v15 shapeCasts_S1x3x128x128_S3x128x128
  have v18 : FVec F S3x128 .f32 := shapeCast S3x128 v17 shapeCasts_S1x3x128_S3x128
  have v20 : FVec F S128x1 .f32 := shapeCast S128x1 v19 shapeCasts_S1x128x1_S128x1
  have v22 : FVec F S1 .f32 := shapeCast S1 v21 shapeCasts_S1x1_S1
  have v23 : FVec F S1x3 .f32 := shapeCast S1x3 v6 shapeCasts_S3_S1x3
  have v24 : FVec F S2048x3 .f32 := broadcastTo S2048x3 v23 broadcasts_S1x3_S2048x3
  have v25 : FVec F S2048x3 .f32 := subf v0 v24
  have cst_23 : F .f32 := Scalar.ofBits .f32 0x40000000#32
  have v26 : FVec F S2048x3 .f32 := broadcast S2048x3 cst_23
  have v27 : FVec F S2048x3 .f32 := mulf v26 v25
  have v28 : FVec F S1x3 .f32 := shapeCast S1x3 v8 shapeCasts_S3_S1x3
  have v29 : FVec F S1x3 .f32 := shapeCast S1x3 v6 shapeCasts_S3_S1x3
  have v30 : FVec F S1x3 .f32 := subf v28 v29
  have v31 : FVec F S2048x3 .f32 := broadcastTo S2048x3 v30 broadcasts_S1x3_S2048x3
  have v32 : FVec F S2048x3 .f32 := divf v27 v31
  have cst_24 : F .f32 := Scalar.ofBits .f32 0x3F800000#32
  have v33 : FVec F S2048x3 .f32 := broadcast S2048x3 cst_24
  have v34 : FVec F S2048x3 .f32 := subf v32 v33
  have v35 : FVec F S1x3 .f32 := shapeCast S1x3 v10 shapeCasts_S3_S1x3
  have v36 : FVec F S2048x3 .f32 := broadcastTo S2048x3 v35 broadcasts_S1x3_S2048x3
  have v37 : FVec F S2048x3 .f32 := mulf v34 v36
  have v38 : FVec F S2048x3 .bf16 := truncf .bf16 v37 bitsLt_bf16_f32
  have v39 : FVec F S3x128 .bf16 := truncf .bf16 v12 bitsLt_bf16_f32
  have cst_25 : FVec F S2048x128 .f32 := constant S2048x128 .f32 0x00000000#32
  have v40 : FVec F S2048x128 .f32 := matmul dot_S2048x3_S3x128_S2048x128_1_0_0_1_n_n none v38 v39 cst_25
  have v41 : FVec F S1x128 .f32 := shapeCast S1x128 v14 shapeCasts_S128_S1x128
  have v42 : FVec F S2048x128 .f32 := broadcastTo S2048x128 v41 broadcasts_S1x128_S2048x128
  have v43 : FVec F S2048x128 .f32 := addf v40 v42
  have cst_26 : F .f32 := Scalar.ofBits .f32 0x41F00000#32
  have v44 : FVec F S2048x128 .f32 := broadcast S2048x128 cst_26
  have v45 : FVec F S2048x128 .f32 := mulf v44 v43
  have v46 : FVec F S2048x128 .f32 := sin v45
  have v47 : FVec F S1x128x128 .f32 := extractStridedSlice S1x128x128 ![0, 0, 0] v16 slices_S3x128x128_o0_0_0_S1x128x128
  have v48 : FVec F S128x128 .f32 := shapeCast S128x128 v47 shapeCasts_S1x128x128_S128x128
  have v49 : FVec F S1x128 .f32 := extractStridedSlice S1x128 ![0, 0] v18 slices_S3x128_o0_0_S1x128
  have v50 : FVec F S128 .f32 := shapeCast S128 v49 shapeCasts_S1x128_S128
  have v51 : FVec F S2048x128 .bf16 := truncf .bf16 v46 bitsLt_bf16_f32
  have v52 : FVec F S128x128 .bf16 := truncf .bf16 v48 bitsLt_bf16_f32
  have cst_27 : FVec F S2048x128 .f32 := constant S2048x128 .f32 0x00000000#32
  have v53 : FVec F S2048x128 .f32 := matmul dot_S2048x128_S128x128_S2048x128_1_0_0_1_n_n none v51 v52 cst_27
  have v54 : FVec F S1x128 .f32 := shapeCast S1x128 v50 shapeCasts_S128_S1x128
  have v55 : FVec F S2048x128 .f32 := broadcastTo S2048x128 v54 broadcasts_S1x128_S2048x128
  have v56 : FVec F S2048x128 .f32 := addf v53 v55
  have cst_28 : F .f32 := Scalar.ofBits .f32 0x41F00000#32
  have v57 : FVec F S2048x128 .f32 := broadcast S2048x128 cst_28
  have v58 : FVec F S2048x128 .f32 := mulf v57 v56
  have v59 : FVec F S2048x128 .f32 := sin v58
  have v60 : FVec F S1x128x128 .f32 := extractStridedSlice S1x128x128 ![1, 0, 0] v16 slices_S3x128x128_o1_0_0_S1x128x128
  have v61 : FVec F S128x128 .f32 := shapeCast S128x128 v60 shapeCasts_S1x128x128_S128x128
  have v62 : FVec F S1x128 .f32 := extractStridedSlice S1x128 ![1, 0] v18 slices_S3x128_o1_0_S1x128
  have v63 : FVec F S128 .f32 := shapeCast S128 v62 shapeCasts_S1x128_S128
  have v64 : FVec F S2048x128 .bf16 := truncf .bf16 v59 bitsLt_bf16_f32
  have v65 : FVec F S128x128 .bf16 := truncf .bf16 v61 bitsLt_bf16_f32
  have cst_29 : FVec F S2048x128 .f32 := constant S2048x128 .f32 0x00000000#32
  have v66 : FVec F S2048x128 .f32 := matmul dot_S2048x128_S128x128_S2048x128_1_0_0_1_n_n none v64 v65 cst_29
  have v67 : FVec F S1x128 .f32 := shapeCast S1x128 v63 shapeCasts_S128_S1x128
  have v68 : FVec F S2048x128 .f32 := broadcastTo S2048x128 v67 broadcasts_S1x128_S2048x128
  have v69 : FVec F S2048x128 .f32 := addf v66 v68
  have cst_30 : F .f32 := Scalar.ofBits .f32 0x41F00000#32
  have v70 : FVec F S2048x128 .f32 := broadcast S2048x128 cst_30
  have v71 : FVec F S2048x128 .f32 := mulf v70 v69
  have v72 : FVec F S2048x128 .f32 := sin v71
  have v73 : FVec F S1x128x128 .f32 := extractStridedSlice S1x128x128 ![2, 0, 0] v16 slices_S3x128x128_o2_0_0_S1x128x128
  have v74 : FVec F S128x128 .f32 := shapeCast S128x128 v73 shapeCasts_S1x128x128_S128x128
  have v75 : FVec F S1x128 .f32 := extractStridedSlice S1x128 ![2, 0] v18 slices_S3x128_o2_0_S1x128
  have v76 : FVec F S128 .f32 := shapeCast S128 v75 shapeCasts_S1x128_S128
  have v77 : FVec F S2048x128 .bf16 := truncf .bf16 v72 bitsLt_bf16_f32
  have v78 : FVec F S128x128 .bf16 := truncf .bf16 v74 bitsLt_bf16_f32
  have cst_31 : FVec F S2048x128 .f32 := constant S2048x128 .f32 0x00000000#32
  have v79 : FVec F S2048x128 .f32 := matmul dot_S2048x128_S128x128_S2048x128_1_0_0_1_n_n none v77 v78 cst_31
  have v80 : FVec F S1x128 .f32 := shapeCast S1x128 v76 shapeCasts_S128_S1x128
  have v81 : FVec F S2048x128 .f32 := broadcastTo S2048x128 v80 broadcasts_S1x128_S2048x128
  have v82 : FVec F S2048x128 .f32 := addf v79 v81
  have cst_32 : F .f32 := Scalar.ofBits .f32 0x41F00000#32
  have v83 : FVec F S2048x128 .f32 := broadcast S2048x128 cst_32
  have v84 : FVec F S2048x128 .f32 := mulf v83 v82
  have v85 : FVec F S2048x128 .f32 := sin v84
  have v86 : FVec F S2048x128 .bf16 := truncf .bf16 v85 bitsLt_bf16_f32
  have v87 : FVec F S128x1 .bf16 := truncf .bf16 v20 bitsLt_bf16_f32
  have cst_33 : FVec F S2048x1 .f32 := constant S2048x1 .f32 0x00000000#32
  have v88 : FVec F S2048x1 .f32 := matmul dot_S2048x128_S128x1_S2048x1_1_0_0_1_n_n none v86 v87 cst_33
  have v89 : FVec F S2048 .f32 := shapeCast S2048 v88 shapeCasts_S2048x1_S2048
  have v90 : F .f32 := extractAt ![0] v22 inpos_S1_p0
  have v91 : FVec F S2048 .f32 := broadcast S2048 v90
  have v92 : FVec F S2048 .f32 := addf v89 v91
  v92

/-- One box's containment test on a block of points, from the block and the box's loaded corners. -/
def boxMask (v0 : Vec F S2048x3 .f32) (v3 : Vec F S1x3x2 .f32) : IVec S2048 1 :=
  have v4 : FVec F S3x2 .f32 := shapeCast S3x2 v3 shapeCasts_S1x3x2_S3x2
  have v5 : FVec F S3x1 .f32 := extractStridedSlice S3x1 ![0, 0] v4 slices_S3x2_o0_0_S3x1
  have v6 : FVec F S3 .f32 := shapeCast S3 v5 shapeCasts_S3x1_S3
  have v7 : FVec F S3x1 .f32 := extractStridedSlice S3x1 ![0, 1] v4 slices_S3x2_o0_1_S3x1
  have v8 : FVec F S3 .f32 := shapeCast S3 v7 shapeCasts_S3x1_S3
  have v93 : FVec F S1x3 .f32 := shapeCast S1x3 v6 shapeCasts_S3_S1x3
  have v94 : FVec F S2048x3 .f32 := broadcastTo S2048x3 v93 broadcasts_S1x3_S2048x3
  have v95 : IVec S2048x3 1 := cmpf .oge v0 v94
  have v96 : FVec F S1x3 .f32 := shapeCast S1x3 v8 shapeCasts_S3_S1x3
  have v97 : FVec F S2048x3 .f32 := broadcastTo S2048x3 v96 broadcasts_S1x3_S2048x3
  have v98 : IVec S2048x3 1 := cmpf .ole v0 v97
  have v99 : IVec S2048x3 1 := andi v95 v98
  have cst_34 : F .f32 := Scalar.ofBits .f32 0x3F800000#32
  have cst_35 : F .f32 := Scalar.ofBits .f32 0x00000000#32
  have v100 : FVec F S2048x3 .f32 := broadcast S2048x3 cst_34
  have v101 : FVec F S2048x3 .f32 := broadcast S2048x3 cst_35
  have v102 : FVec F S2048x3 .f32 := select v99 v100 v101
  have cst_36 : FVec F S2048 .f32 := constant S2048 .f32 0x7F800000#32
  have v103 : FVec F S2048 .f32 := multiReduction .minimumf [1] S2048 v102 0x7F800000#32 reduces_S2048x3_S2048 (.inl rfl) rfl
  have cst_37 : F .f32 := Scalar.ofBits .f32 0x00000000#32
  have v104 : FVec F S2048 .f32 := broadcast S2048 cst_37
  have v105 : IVec S2048 1 := cmpf .ogt v103 v104
  v105

/-- One iteration's update: a point takes this box's value when the box holds it and no earlier box did; the box's bits
    are then recorded. -/
def kerStep (acc : FVec F S2048 .f32 × IVec S2048 1) (vis : FVec F S2048 .f32) (mask : IVec S2048 1) :
    FVec F S2048 .f32 × IVec S2048 1 :=
  (select (andi mask (xori acc.2 (constantI S2048 1 1#1))) vis acc.1, ori acc.2 mask)

/-- The eight iterations, from the zero vector and no bits, over the input windows' blocks. -/
def kerAcc (x0 : Vec F S2048x3 .f32) (x1 : Vec F S8x3x128 .f32) (x2 : Vec F S8x128 .f32) (x3 : Vec F S8x3x128x128 .f32) (x4 : Vec F S8x3x128 .f32) (x5 : Vec F S8x128x1 .f32) (x6 : Vec F S8x1 .f32) (x7 : Vec F S8x3 .f32) (x8 : Vec F S8x3x2 .f32) : FVec F S2048 .f32 × IVec S2048 1 :=
  kerStep
    (kerStep
    (kerStep
    (kerStep
    (kerStep
    (kerStep
    (kerStep
    (kerStep
    ((broadcast S2048 (Scalar.ofBits .f32 0x00000000#32), broadcast S2048 0#1))
    (boxVis (View.ld x0 r0_0) (View.ld x8 r0_1) (View.ld x7 r0_2) (View.ld x1 r0_3) (View.ld x2 r0_4) (View.ld x3 r0_5) (View.ld x4 r0_3) (View.ld x5 r0_6) (View.ld x6 r0_7))
    (boxMask (View.ld x0 r0_0) (View.ld x8 r0_1)))
    (boxVis (View.ld x0 r0_0) (View.ld x8 r0_8) (View.ld x7 r0_9) (View.ld x1 r0_10) (View.ld x2 r0_11) (View.ld x3 r0_12) (View.ld x4 r0_10) (View.ld x5 r0_13) (View.ld x6 r0_14))
    (boxMask (View.ld x0 r0_0) (View.ld x8 r0_8)))
    (boxVis (View.ld x0 r0_0) (View.ld x8 r0_15) (View.ld x7 r0_16) (View.ld x1 r0_17) (View.ld x2 r0_18) (View.ld x3 r0_19) (View.ld x4 r0_17) (View.ld x5 r0_20) (View.ld x6 r0_21))
    (boxMask (View.ld x0 r0_0) (View.ld x8 r0_15)))
    (boxVis (View.ld x0 r0_0) (View.ld x8 r0_22) (View.ld x7 r0_23) (View.ld x1 r0_24) (View.ld x2 r0_25) (View.ld x3 r0_26) (View.ld x4 r0_24) (View.ld x5 r0_27) (View.ld x6 r0_28))
    (boxMask (View.ld x0 r0_0) (View.ld x8 r0_22)))
    (boxVis (View.ld x0 r0_0) (View.ld x8 r0_29) (View.ld x7 r0_30) (View.ld x1 r0_31) (View.ld x2 r0_32) (View.ld x3 r0_33) (View.ld x4 r0_31) (View.ld x5 r0_34) (View.ld x6 r0_35))
    (boxMask (View.ld x0 r0_0) (View.ld x8 r0_29)))
    (boxVis (View.ld x0 r0_0) (View.ld x8 r0_36) (View.ld x7 r0_37) (View.ld x1 r0_38) (View.ld x2 r0_39) (View.ld x3 r0_40) (View.ld x4 r0_38) (View.ld x5 r0_41) (View.ld x6 r0_42))
    (boxMask (View.ld x0 r0_0) (View.ld x8 r0_36)))
    (boxVis (View.ld x0 r0_0) (View.ld x8 r0_43) (View.ld x7 r0_44) (View.ld x1 r0_45) (View.ld x2 r0_46) (View.ld x3 r0_47) (View.ld x4 r0_45) (View.ld x5 r0_48) (View.ld x6 r0_49))
    (boxMask (View.ld x0 r0_0) (View.ld x8 r0_43)))
    (boxVis (View.ld x0 r0_0) (View.ld x8 r0_50) (View.ld x7 r0_51) (View.ld x1 r0_52) (View.ld x2 r0_53) (View.ld x3 r0_54) (View.ld x4 r0_52) (View.ld x5 r0_55) (View.ld x6 r0_56))
    (boxMask (View.ld x0 r0_0) (View.ld x8 r0_50))

/-- The stored vector. -/
def kerOut (x0 : Vec F S2048x3 .f32) (x1 : Vec F S8x3x128 .f32) (x2 : Vec F S8x128 .f32) (x3 : Vec F S8x3x128x128 .f32) (x4 : Vec F S8x3x128 .f32) (x5 : Vec F S8x128x1 .f32) (x6 : Vec F S8x1 .f32) (x7 : Vec F S8x3 .f32) (x8 : Vec F S8x3x2 .f32) : FVec F S2048 .f32 :=
  (kerAcc x0 x1 x2 x3 x4 x5 x6 x7 x8).1

/-- The generated description of the body's store is the walk over the boxes. -/
theorem out_eq (x0 : Vec F S2048x3 .f32) (x1 : Vec F S8x3x128 .f32) (x2 : Vec F S8x128 .f32) (x3 : Vec F S8x3x128x128 .f32) (x4 : Vec F S8x3x128 .f32) (x5 : Vec F S8x128x1 .f32) (x6 : Vec F S8x1 .f32) (x7 : Vec F S8x3 .f32) (x8 : Vec F S8x3x2 .f32) :
    out0_9 x0 x1 x2 x3 x4 x5 x6 x7 x8 = View.canon [⟨r0_57, kerOut x0 x1 x2 x3 x4 x5 x6 x7 x8⟩] := rfl

end Cert.KernelIdeal.Body

end
-- ==== Proof.Spec.lean ====
/-
  The function both programs compute, one point at a time.

  A point `x : Fin 3 → EReal` is routed to the FIRST of eight axis-aligned boxes that contains it and is sent through that
  box's own sine network; a point no box contains gets zero.  For box `r` (low corner `B (r, d, 0)`, high corner
  `B (r, d, 1)`):

  * the coordinate `d` is normalised to `(2 · (x d − lo) / (hi − lo) − 1) · scale (r, d)` (`rowXn`);
  * the first layer is `h⁰ j = sin (30 · (Σ_d xnorm_d · W_in (r, d, j) + b_in (r, j)))` (`rowHid0`);
  * three more layers `hˡ⁺¹ k = sin (30 · (Σ_j hˡ j · W_h (r, l, j, k) + b_h (r, l, k)))` (`rowNext`);
  * the value is `Σ_k h³ k · W_out (r, k, 0) + b_out (r, 0)` (`rowVis`);
  * the point is inside the box when `lo ≤ x d ≤ hi` on all three axes (`rowIn`, a one-bit word).

  The row functions take one box's corners, scale and weights as plain functions of their coordinates; `vis r` and
  `inBox r` are they at box `r` of the resident arrays.

  `pick` walks the boxes in order, keeping the value of the first box whose bit is set: it is written as the
  left fold the unrolled loop performs (take box `r`'s value when its bit is set and no earlier bit was; then record the
  bit), started from zero and "no box yet".

  Every float here is an extended real and every operation the exact one (`Ideal.div`, `Ideal.sin`, `Ideal.cmp`); the
  four float literals stay the words they are printed as and are never evaluated.
-/
import Idealize.ShloMosaic.PureOps.Ideal
import Idealize.ShloMosaic.Lib.ValueIdx

noncomputable section

namespace Cert.Siren

open Idealize.ShloMosaic Idealize.ShloMosaic.ValueIdx
open scoped BigOperators

/-- The literal `2.0`. -/
abbrev two : EReal := Ideal.ofBits .f32 0x40000000#32
/-- The literal `1.0`. -/
abbrev one : EReal := Ideal.ofBits .f32 0x3F800000#32
/-- The literal `30.0`, the sine frequency. -/
abbrev freq : EReal := Ideal.ofBits .f32 0x41F00000#32
/-- The literal `0.0`, the value of a point outside every box. -/
abbrev zero : EReal := Ideal.ofBits .f32 0x00000000#32

/-- A coordinate mapped from `[lo, hi]` to `[-1, 1]` and scaled. -/
def xnorm (lo hi s x : EReal) : EReal := (Ideal.div (two * (x - lo)) (hi - lo) - one) * s

/-- The activation: `sin (30 · z)`. -/
def act (z : EReal) : EReal := Ideal.sin (freq * z)

section Row

variable (lo hi s : Fin 3 → EReal) (win : Fin 3 → Fin 128 → EReal) (bi : Fin 128 → EReal)
  (wh : Fin 3 → Fin 128 → Fin 128 → EReal) (bh : Fin 3 → Fin 128 → EReal) (wo : Fin 128 → EReal) (bo : EReal)

/-- A box's normalised coordinates of the point, from the box's corners and scale. -/
def rowXn (x : Fin 3 → EReal) (d : Fin 3) : EReal := xnorm (lo d) (hi d) (s d) (x d)

/-- A box's first layer, from its input weights and bias. -/
def rowHid0 (x : Fin 3 → EReal) (j : Fin 128) : EReal :=
  act (∑ d : Fin 3, rowXn lo hi s x d * win d j + bi j)

/-- A box's hidden layer `l` applied to the layer before it. -/
def rowNext (l : Fin 3) (h : Fin 128 → EReal) (k : Fin 128) : EReal :=
  act (∑ j : Fin 128, h j * wh l j k + bh l k)

/-- A box's last hidden layer at the point. -/
def rowHid3 (x : Fin 3 → EReal) : Fin 128 → EReal :=
  rowNext wh bh 2 (rowNext wh bh 1 (rowNext wh bh 0 (rowHid0 lo hi s win bi x)))

/-- A box's value at the point. -/
def rowVis (x : Fin 3 → EReal) : EReal :=
  ∑ k : Fin 128, rowHid3 lo hi s win bi wh bh x k * wo k + bo

/-- One axis of the box test: `lo ≤ x` and `x ≤ hi`, as a one-bit word. -/
def rowAxis (x : Fin 3 → EReal) (d : Fin 3) : BitVec 1 :=
  IntOp.andi (Ideal.cmp .oge (x d) (lo d)) (Ideal.cmp .ole (x d) (hi d))

/-- The box test: all three axes. -/
def rowIn (x : Fin 3 → EReal) : BitVec 1 :=
  if ∀ d : Fin 3, rowAxis lo hi x d = 1#1 then 1#1 else 0#1

end Row

section Point

variable (Win : (⟨3, ![8, 3, 128]⟩ : Shape).Idx → EReal) (bin : (⟨2, ![8, 128]⟩ : Shape).Idx → EReal)
  (Wh : (⟨4, ![8, 3, 128, 128]⟩ : Shape).Idx → EReal) (bh : (⟨3, ![8, 3, 128]⟩ : Shape).Idx → EReal)
  (Wout : (⟨3, ![8, 128, 1]⟩ : Shape).Idx → EReal) (bout : (⟨2, ![8, 1]⟩ : Shape).Idx → EReal)
  (sc : (⟨2, ![8, 3]⟩ : Shape).Idx → EReal) (B : (⟨3, ![8, 3, 2]⟩ : Shape).Idx → EReal)

/-- Box `r`'s value at the point: the row functions at box `r` of the resident arrays. -/
def vis (r : Fin 8) (x : Fin 3 → EReal) : EReal :=
  rowVis (fun d => B (ix3 r d (0 : Fin 2))) (fun d => B (ix3 r d (1 : Fin 2))) (fun d => sc (ix2 r d))
    (fun d j => Win (ix3 r d j)) (fun j => bin (ix2 r j)) (fun l j k => Wh (ix4 r l j k)) (fun l k => bh (ix3 r l k))
    (fun k => Wout (ix3 r k (0 : Fin 1))) (bout (ix2 r (0 : Fin 1))) x

/-- Box `r`'s test of the point. -/
def inBox (r : Fin 8) (x : Fin 3 → EReal) : BitVec 1 :=
  rowIn (fun d => B (ix3 r d (0 : Fin 2))) (fun d => B (ix3 r d (1 : Fin 2))) x

/-- One step of the walk over the boxes: the running value and the "some box held it" bit, after box `r`. -/
def pickStep (m : Fin 8 → BitVec 1) (v : Fin 8 → EReal) (acc : EReal × BitVec 1) (r : Fin 8) : EReal × BitVec 1 :=
  (Scalar.select (IntOp.andi (m r) (IntOp.xori acc.2 1#1)) (v r) acc.1, IntOp.ori acc.2 (m r))

/-- The value of the first box whose bit is set; zero when none is. -/
def pick (m : Fin 8 → BitVec 1) (v : Fin 8 → EReal) : EReal :=
  ((List.finRange 8).foldl (pickStep m v) (zero, 0#1)).1

/-- The value of a point. -/
def pointVal (x : Fin 3 → EReal) : EReal :=
  pick (fun r => inBox B r x) (fun r => vis Win bin Wh bh Wout bout sc B r x)

end Point

/-- The result array: every point of `X` sent through `pointVal`. -/
def G (X : (⟨2, ![65536, 3]⟩ : Shape).Idx → EReal) (Win : (⟨3, ![8, 3, 128]⟩ : Shape).Idx → EReal)
    (bin : (⟨2, ![8, 128]⟩ : Shape).Idx → EReal) (Wh : (⟨4, ![8, 3, 128, 128]⟩ : Shape).Idx → EReal)
    (bh : (⟨3, ![8, 3, 128]⟩ : Shape).Idx → EReal) (Wout : (⟨3, ![8, 128, 1]⟩ : Shape).Idx → EReal)
    (bout : (⟨2, ![8, 1]⟩ : Shape).Idx → EReal) (sc : (⟨2, ![8, 3]⟩ : Shape).Idx → EReal)
    (B : (⟨3, ![8, 3, 2]⟩ : Shape).Idx → EReal) : (⟨1, ![65536]⟩ : Shape).Idx → EReal :=
  fun i => pointVal Win bin Wh bh Wout bout sc B (fun d => X (ix2 (i 0) d))

end Cert.Siren

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.KerRead.lean ====
/-
  One box's network and test on a block, read at a point of the block.

  At the extended reals the block-wide operations of `boxVis` and `boxMask` are, at point `p`, the row functions of the
  specification at the point's three coordinates and the box's loaded rows: a change of float format is the identity, a
  matrix product into the zero accumulator is the sum over the contracted axis, a broadcast row reads its one row, and
  the minimum over the three axes of 1.0 / 0.0 from +inf is positive exactly when all three comparisons hold.
-/
import proofs.«176922_j5729486373507_1_alg».proof.Proof.KerBody
import proofs.«176922_j5729486373507_1_alg».proof.Proof.Spec
import proofs.«176922_j5729486373507_1_alg».proof.Proof.LibRowOps
import Idealize.ShloMosaic.Lib.IdealHost

noncomputable section

namespace Cert.KernelIdeal.Body

open Cert.KernelIdeal Cert.KernelIdeal.Gen Cert.KernelIdeal.GenP Idealize.ShloMosaic Idealize.ShloMosaic.ValueIdx
open scoped BigOperators

section Casts
variable {α : Type}

/-- A column `[a, 1]` cast to `[a]` reads, at `r`, the column's entry in row `r`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- A rank-3 array cut along its leading axis from `o` reads, at `(j, b, c)`, the source at `(k, b, c)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- The one entry of a `[1]` array taken at position `0`. -/
theorem extractAt_one (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => by match a with | ⟨0, _⟩ => rfl)

end Casts

/-- The corner rows of a box: the low corner on axis `d`. -/
theorem lo_apply (v3 : Vec Ideal S1x3x2 .f32) (d : Fin 3) :
    shapeCast S3 (extractStridedSlice S3x1 ![0, 0] (shapeCast S3x2 v3 shapeCasts_S1x3x2_S3x2) slices_S3x2_o0_0_S3x1)
      shapeCasts_S3x1_S3 (ix1 d) = v3 (ix3 (0 : Fin 1) d (0 : Fin 2)) := by
  rw [shapeCast_a1_a_apply, slice2_axis1_apply 0 _ _ d (0 : Fin 1) (0 : Fin 2) rfl, shapeCast_1ab_ab_apply]

/-- The corner rows of a box: the high corner on axis `d`. -/
theorem hi_apply (v3 : Vec Ideal S1x3x2 .f32) (d : Fin 3) :
    shapeCast S3 (extractStridedSlice S3x1 ![0, 1] (shapeCast S3x2 v3 shapeCasts_S1x3x2_S3x2) slices_S3x2_o0_1_S3x1)
      shapeCasts_S3x1_S3 (ix1 d) = v3 (ix3 (0 : Fin 1) d (1 : Fin 2)) := by
  rw [shapeCast_a1_a_apply, slice2_axis1_apply 1 _ _ d (0 : Fin 1) (1 : Fin 2) rfl, shapeCast_1ab_ab_apply]

/-! ## The blocks of one box's network -/

/-- The normalised coordinates of the block's points, from the block and the box's corner and scale rows. -/
def xnB (v0 : FVec Ideal S2048x3 .f32) (v6 v8 v10 : FVec Ideal S3 .f32) : FVec Ideal S2048x3 .f32 :=
  mulf (subf (divf (mulf (broadcast S2048x3 (Scalar.ofBits .f32 0x40000000#32))
          (subf v0 (broadcastTo S2048x3 (shapeCast S1x3 v6 shapeCasts_S3_S1x3) broadcasts_S1x3_S2048x3)))
        (broadcastTo S2048x3 (subf (shapeCast S1x3 v8 shapeCasts_S3_S1x3) (shapeCast S1x3 v6 shapeCasts_S3_S1x3))
          broadcasts_S1x3_S2048x3))
      (broadcast S2048x3 (Scalar.ofBits .f32 0x3F800000#32)))
    (broadcastTo S2048x3 (shapeCast S1x3 v10 shapeCasts_S3_S1x3) broadcasts_S1x3_S2048x3)

theorem xnB_apply (v0 : FVec Ideal S2048x3 .f32) (v6 v8 v10 : FVec Ideal S3 .f32) (p : Fin 2048) (d : Fin 3) :
    xnB v0 v6 v8 v10 (ix2 p d) = Cert.Siren.xnorm (v6 (ix1 d)) (v8 (ix1 d)) (v10 (ix1 d)) (v0 (ix2 p d)) := by
  show (Ideal.div (Cert.Siren.two * (v0 (ix2 p d) - broadcastTo S2048x3 (shapeCast S1x3 v6 shapeCasts_S3_S1x3) broadcasts_S1x3_S2048x3 (ix2 p d)))
      (broadcastTo S2048x3 (subf (shapeCast S1x3 v8 shapeCasts_S3_S1x3) (shapeCast S1x3 v6 shapeCasts_S3_S1x3)) broadcasts_S1x3_S2048x3 (ix2 p d))
      - Cert.Siren.one) * broadcastTo S2048x3 (shapeCast S1x3 v10 shapeCasts_S3_S1x3) broadcasts_S1x3_S2048x3 (ix2 p d) = _
  rw [broadcastTo_1b_ab_apply, broadcastTo_1b_ab_apply, broadcastTo_1b_ab_apply, subf_apply,
    shapeCast_a_1a_apply, shapeCast_a_1a_apply, shapeCast_a_1a_apply]
  rfl

/-- A layer's pre-activation plus bias through the activation: the block-wide operations after a matrix product. -/
def actB (z : FVec Ideal S2048x128 .f32) (b : FVec Ideal S128 .f32) : FVec Ideal S2048x128 .f32 :=
  sin (mulf (broadcast S2048x128 (Scalar.ofBits .f32 0x41F00000#32))
    (addf z (broadcastTo S2048x128 (shapeCast S1x128 b shapeCasts_S128_S1x128) broadcasts_S1x128_S2048x128)))

theorem actB_apply (z : FVec Ideal S2048x128 .f32) (b : FVec Ideal S128 .f32) (p : Fin 2048) (k : Fin 128) :
    actB z b (ix2 p k) = Cert.Siren.act (z (ix2 p k) + b (ix1 k)) := by
  show Ideal.sin (Cert.Siren.freq * (z (ix2 p k)
    + broadcastTo S2048x128 (shapeCast S1x128 b shapeCasts_S128_S1x128) broadcasts_S1x128_S2048x128 (ix2 p k))) = _
  rw [broadcastTo_1b_ab_apply, shapeCast_a_1a_apply]
  rfl

/-- The first layer's matrix product: the normalised coordinates against the input weights. -/
def mm0 (xn : FVec Ideal S2048x3 .f32) (w : FVec Ideal S3x128 .f32) : FVec Ideal S2048x128 .f32 :=
  matmul dot_S2048x3_S3x128_S2048x128_1_0_0_1_n_n none (truncf .bf16 xn bitsLt_bf16_f32) (truncf .bf16 w bitsLt_bf16_f32)
    (constant S2048x128 .f32 0x00000000#32)

theorem mm0_apply (xn : FVec Ideal S2048x3 .f32) (w : FVec Ideal S3x128 .f32) (p : Fin 2048) (j : Fin 128) :
    mm0 xn w (ix2 p j) = ∑ d : Fin 3, xn (ix2 p d) * w (ix2 d j) :=
  Cert.RowOps.matmul_plain_apply dot_S2048x3_S3x128_S2048x128_1_0_0_1_n_n rfl none
    (truncf .bf16 xn bitsLt_bf16_f32) (truncf .bf16 w bitsLt_bf16_f32) p j

/-- A hidden layer: the layer before it against the hidden weights cut at `o`, plus the bias row cut at `o`, through
    the activation. -/
def hidB (o : ℕ) (hW : S3x128x128.Slices ![o, 0, 0] S1x128x128) (hB : S3x128.Slices ![o, 0] S1x128)
    (h : FVec Ideal S2048x128 .f32) (v16 : FVec Ideal S3x128x128 .f32) (v18 : FVec Ideal S3x128 .f32) :
    FVec Ideal S2048x128 .f32 :=
  actB (matmul dot_S2048x128_S128x128_S2048x128_1_0_0_1_n_n none (truncf .bf16 h bitsLt_bf16_f32)
      (truncf .bf16 (shapeCast S128x128 (extractStridedSlice S1x128x128 ![o, 0, 0] v16 hW) shapeCasts_S1x128x128_S128x128)
        bitsLt_bf16_f32)
      (constant S2048x128 .f32 0x00000000#32))
    (shapeCast S128 (extractStridedSlice S1x128 ![o, 0] v18 hB) shapeCasts_S1x128_S128)

theorem hidB_apply (o : ℕ) (hW : S3x128x128.Slices ![o, 0, 0] S1x128x128) (hB : S3x128.Slices ![o, 0] S1x128)
    (h : FVec Ideal S2048x128 .f32) (v16 : FVec Ideal S3x128x128 .f32) (v18 : FVec Ideal S3x128 .f32)
    (l : Fin 3) (hl : l.val = o) (p : Fin 2048) (k : Fin 128) :
    hidB o hW hB h v16 v18 (ix2 p k)
      = Cert.Siren.act (∑ j : Fin 128, h (ix2 p j) * v16 (ix3 l j k) + v18 (ix2 l k)) := by
  unfold hidB
  rw [actB_apply, Cert.RowOps.matmul_plain_apply dot_S2048x128_S128x128_S2048x128_1_0_0_1_n_n rfl none,
    shapeCast_1a_a_apply, slice2_axis0_apply o v18 hB (0 : Fin 1) k l (by rw [hl]; rfl)]
  congr 2
  refine Finset.sum_congr rfl fun j _ => ?_
  rw [truncf_apply, truncf_apply, shapeCast_1ab_ab_apply,
    slice3_axis0_apply o v16 hW (0 : Fin 1) j k l (by rw [hl]; rfl)]

/-- The output column against the last layer, plus the output bias. -/
def outB (h : FVec Ideal S2048x128 .f32) (v20 : FVec Ideal S128x1 .f32) (v22 : FVec Ideal S1 .f32) : FVec Ideal S2048 .f32 :=
  addf (shapeCast S2048 (matmul dot_S2048x128_S128x1_S2048x1_1_0_0_1_n_n none (truncf .bf16 h bitsLt_bf16_f32)
      (truncf .bf16 v20 bitsLt_bf16_f32) (constant S2048x1 .f32 0x00000000#32)) shapeCasts_S2048x1_S2048)
    (broadcast S2048 (extractAt ![0] v22 inpos_S1_p0))

theorem outB_apply (h : FVec Ideal S2048x128 .f32) (v20 : FVec Ideal S128x1 .f32) (v22 : FVec Ideal S1 .f32) (p : Fin 2048) :
    outB h v20 v22 (ix1 p) = ∑ k : Fin 128, h (ix2 p k) * v20 (ix2 k (0 : Fin 1)) + v22 (ix1 (0 : Fin 1)) := by
  unfold outB
  rw [addf_apply, broadcast_apply, extractAt_one, shapeCast_a1_a_apply,
    Cert.RowOps.matmul_plain_apply dot_S2048x128_S128x1_S2048x1_1_0_0_1_n_n rfl none]
  rfl

/-- One box's network as the composition of its blocks. -/
theorem boxVis_eq (v0 : Vec Ideal S2048x3 .f32) (v3 : Vec Ideal S1x3x2 .f32) (v9 : Vec Ideal S1x3 .f32)
    (v11 : Vec Ideal S1x3x128 .f32) (v13 : Vec Ideal S1x128 .f32) (v15 : Vec Ideal S1x3x128x128 .f32)
    (v17 : Vec Ideal S1x3x128 .f32) (v19 : Vec Ideal S1x128x1 .f32) (v21 : Vec Ideal S1x1 .f32) :
    boxVis v0 v3 v9 v11 v13 v15 v17 v19 v21 =
      outB
        (hidB 2 slices_S3x128x128_o2_0_0_S1x128x128 slices_S3x128_o2_0_S1x128
          (hidB 1 slices_S3x128x128_o1_0_0_S1x128x128 slices_S3x128_o1_0_S1x128
            (hidB 0 slices_S3x128x128_o0_0_0_S1x128x128 slices_S3x128_o0_0_S1x128
              (actB (mm0
                  (xnB v0
                    (shapeCast S3 (extractStridedSlice S3x1 ![0, 0] (shapeCast S3x2 v3 shapeCasts_S1x3x2_S3x2)
                      slices_S3x2_o0_0_S3x1) shapeCasts_S3x1_S3)
                    (shapeCast S3 (extractStridedSlice S3x1 ![0, 1] (shapeCast S3x2 v3 shapeCasts_S1x3x2_S3x2)
                      slices_S3x2_o0_1_S3x1) shapeCasts_S3x1_S3)
                    (shapeCast S3 v9 shapeCasts_S1x3_S3))
                  (shapeCast S3x128 v11 shapeCasts_S1x3x128_S3x128))
                (shapeCast S128 v13 shapeCasts_S1x128_S128))
              (shapeCast S3x128x128 v15 shapeCasts_S1x3x128x128_S3x128x128) (shapeCast S3x128 v17 shapeCasts_S1x3x128_S3x128))
            (shapeCast S3x128x128 v15 shapeCasts_S1x3x128x128_S3x128x128) (shapeCast S3x128 v17 shapeCasts_S1x3x128_S3x128))
          (shapeCast S3x128x128 v15 shapeCasts_S1x3x128x128_S3x128x128) (shapeCast S3x128 v17 shapeCasts_S1x3x128_S3x128))
        (shapeCast S128x1 v19 shapeCasts_S1x128x1_S128x1) (shapeCast S1 v21 shapeCasts_S1x1_S1) := rfl

/-- The first layer at `(p, j)`: the specification's first layer at the point's coordinates. -/
theorem hid0_apply (v0 : Vec Ideal S2048x3 .f32) (v3 : Vec Ideal S1x3x2 .f32) (v9 : Vec Ideal S1x3 .f32)
    (v11 : Vec Ideal S1x3x128 .f32) (v13 : Vec Ideal S1x128 .f32) (p : Fin 2048) (j : Fin 128) :
    actB (mm0
        (xnB v0
          (shapeCast S3 (extractStridedSlice S3x1 ![0, 0] (shapeCast S3x2 v3 shapeCasts_S1x3x2_S3x2)
            slices_S3x2_o0_0_S3x1) shapeCasts_S3x1_S3)
          (shapeCast S3 (extractStridedSlice S3x1 ![0, 1] (shapeCast S3x2 v3 shapeCasts_S1x3x2_S3x2)
            slices_S3x2_o0_1_S3x1) shapeCasts_S3x1_S3)
          (shapeCast S3 v9 shapeCasts_S1x3_S3))
        (shapeCast S3x128 v11 shapeCasts_S1x3x128_S3x128))
      (shapeCast S128 v13 shapeCasts_S1x128_S128) (ix2 p j)
    = Cert.Siren.rowHid0 (fun d => v3 (ix3 (0 : Fin 1) d (0 : Fin 2))) (fun d => v3 (ix3 (0 : Fin 1) d (1 : Fin 2)))
        (fun d => v9 (ix2 (0 : Fin 1) d)) (fun d j => v11 (ix3 (0 : Fin 1) d j)) (fun j => v13 (ix2 (0 : Fin 1) j))
        (fun d => v0 (ix2 p d)) j := by
  rw [actB_apply, mm0_apply, shapeCast_1a_a_apply]
  unfold Cert.Siren.rowHid0
  congr 2
  refine Finset.sum_congr rfl fun d _ => ?_
  rw [xnB_apply, lo_apply, hi_apply, shapeCast_1a_a_apply, shapeCast_1ab_ab_apply]
  rfl

/-- A hidden layer at `(p, k)`, given the layer before it at `(p, ·)`: the specification's next layer. -/
theorem hid_step (o : ℕ) (hW : S3x128x128.Slices ![o, 0, 0] S1x128x128) (hB : S3x128.Slices ![o, 0] S1x128)
    (h : FVec Ideal S2048x128 .f32) (v15 : Vec Ideal S1x3x128x128 .f32) (v17 : Vec Ideal S1x3x128 .f32)
    (l : Fin 3) (hl : l.val = o) (p : Fin 2048) (g : Fin 128 → EReal) (hg : ∀ j, h (ix2 p j) = g j) (k : Fin 128) :
    hidB o hW hB h (shapeCast S3x128x128 v15 shapeCasts_S1x3x128x128_S3x128x128)
        (shapeCast S3x128 v17 shapeCasts_S1x3x128_S3x128) (ix2 p k)
      = Cert.Siren.rowNext (fun l j k => v15 (ix4 (0 : Fin 1) l j k)) (fun l k => v17 (ix3 (0 : Fin 1) l k)) l g k := by
  rw [hidB_apply o hW hB _ _ _ l hl, shapeCast_1ab_ab_apply]
  unfold Cert.Siren.rowNext
  congr 2
  refine Finset.sum_congr rfl fun j _ => ?_
  rw [hg, shapeCast_1abc_abc_apply]

/-- One box's value at point `p` of the block is the specification's row value at the point's coordinates. -/
theorem boxVis_apply (v0 : Vec Ideal S2048x3 .f32) (v3 : Vec Ideal S1x3x2 .f32) (v9 : Vec Ideal S1x3 .f32)
    (v11 : Vec Ideal S1x3x128 .f32) (v13 : Vec Ideal S1x128 .f32) (v15 : Vec Ideal S1x3x128x128 .f32)
    (v17 : Vec Ideal S1x3x128 .f32) (v19 : Vec Ideal S1x128x1 .f32) (v21 : Vec Ideal S1x1 .f32) (p : Fin 2048) :
    boxVis v0 v3 v9 v11 v13 v15 v17 v19 v21 (ix1 p) =
      Cert.Siren.rowVis (fun d => v3 (ix3 (0 : Fin 1) d (0 : Fin 2))) (fun d => v3 (ix3 (0 : Fin 1) d (1 : Fin 2)))
        (fun d => v9 (ix2 (0 : Fin 1) d)) (fun d j => v11 (ix3 (0 : Fin 1) d j)) (fun j => v13 (ix2 (0 : Fin 1) j))
        (fun l j k => v15 (ix4 (0 : Fin 1) l j k)) (fun l k => v17 (ix3 (0 : Fin 1) l k))
        (fun k => v19 (ix3 (0 : Fin 1) k (0 : Fin 1))) (v21 (ix2 (0 : Fin 1) (0 : Fin 1))) (fun d => v0 (ix2 p d)) := by
  rw [boxVis_eq, outB_apply, shapeCast_1a_a_apply]
  unfold Cert.Siren.rowVis Cert.Siren.rowHid3
  congr 1
  refine Finset.sum_congr rfl fun k _ => ?_
  rw [shapeCast_1ab_ab_apply]
  congr 1
  refine hid_step 2 _ _ _ v15 v17 2 rfl p _ (fun j => ?_) k
  refine hid_step 1 _ _ _ v15 v17 1 rfl p _ (fun j => ?_) j
  refine hid_step 0 _ _ _ v15 v17 0 rfl p _ (fun j => ?_) j
  exact hid0_apply v0 v3 v9 v11 v13 p j

/-! ## The containment test -/

/-- A float minimum over one axis, at the extended reals: the fold of `min` from the accumulator's value over that
    axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the three axes of a block-wide array, at point `p`: the fold of `min` over `d` of the array at
    `(p, d)`. -/
theorem min_rows (x : FVec Ideal S2048x3 .f32) (hφ : FKind.Formats .f32)
    (hacc : (0x7F800000#32 : BitVec FTy.f32.bits) = FKind.minimumf.neutral .f32 hφ) (p : Fin 2048) :
    multiReduction .minimumf [1] S2048 x 0x7F800000#32 reduces_S2048x3_S2048 hφ hacc (ix1 p)
      = (Finset.univ : Finset (Fin 3)).fold min (Ideal.ofBits .f32 0x7F800000#32) (fun d => x (ix2 p d)) := by
  refine (multiReduction_minimumf_single x _ reduces_S2048x3_S2048 hφ hacc (ix1 p)).trans ?_
  show (Finset.univ : Finset (Fin 3)).fold min _ _ = _
  congr 1
  funext d
  exact congrArg x (funext fun ax => Fin.ext (by match ax with | ⟨0, _⟩ => rfl | ⟨1, _⟩ => rfl))

/-- The minimum from `+∞` over three axes of `1` where a bit is set and `0` where it is not is positive exactly when
    all three bits are set. -/
theorem min_bits_pos (f : Fin 3 → EReal) (b : Fin 3 → BitVec 1)
    (hf : ∀ d, f d = Scalar.select (b d) (Ideal.ofBits .f32 0x3F800000#32) (Ideal.ofBits .f32 0x00000000#32))
    (inst : Decidable (∀ d, b d = 1#1)) :
    Ideal.cmp .ogt ((Finset.univ : Finset (Fin 3)).fold min (Ideal.ofBits .f32 0x7F800000#32) f)
      (Ideal.ofBits .f32 0x00000000#32) = @ite _ (∀ d, b d = 1#1) inst 1#1 0#1 := by
  have htop : Ideal.ofBits .f32 0x7F800000#32 = ⊤ := by simp [Ideal.ofBits, Ideal.ieee]
  have key : (0 : EReal) < (Finset.univ : Finset (Fin 3)).fold min ⊤ f ↔ ∀ d, b d = 1#1 := by
    rw [Finset.lt_fold_min]
    constructor
    · rintro ⟨_, h⟩ d
      have hd := h d (Finset.mem_univ d)
      by_contra hne
      rw [hf d, eq_zero_of_ne_one hne, select_zero, Ideal.ofBits_zero_f32] at hd
      exact lt_irrefl _ hd
    · intro h
      refine ⟨EReal.zero_lt_top, fun d _ => ?_⟩
      rw [hf d, h d, select_one, Ideal.ofBits_one_f32]
      exact zero_lt_one
  rw [Ideal.ofBits_zero_f32, htop]
  show BitVec.ofBool (decide ((0 : EReal) < _)) = _
  by_cases hall : ∀ d, b d = 1#1
  · rw [if_pos hall, decide_eq_true (key.mpr hall)]; rfl
  · rw [if_neg hall, decide_eq_false (mt key.mp hall)]; rfl

/-- The minimum over the three axes from `+∞`, block-wide. -/
def minB (x : FVec Ideal S2048x3 .f32) : FVec Ideal S2048 .f32 :=
  multiReduction .minimumf [1] S2048 x 0x7F800000#32 reduces_S2048x3_S2048 (.inl rfl) rfl

theorem minB_apply (x : FVec Ideal S2048x3 .f32) (p : Fin 2048) :
    minB x (ix1 p) = (Finset.univ : Finset (Fin 3)).fold min (Ideal.ofBits .f32 0x7F800000#32) (fun d => x (ix2 p d)) :=
  min_rows x _ _ p

/-- The joined comparisons of the block against a box's corner rows, block-wide. -/
def axisB (v0 : FVec Ideal S2048x3 .f32) (v6 v8 : FVec Ideal S3 .f32) : IVec S2048x3 1 :=
  andi (cmpf .oge v0 (broadcastTo S2048x3 (shapeCast S1x3 v6 shapeCasts_S3_S1x3) broadcasts_S1x3_S2048x3))
    (cmpf .ole v0 (broadcastTo S2048x3 (shapeCast S1x3 v8 shapeCasts_S3_S1x3) broadcasts_S1x3_S2048x3))

theorem axisB_apply (v0 : FVec Ideal S2048x3 .f32) (v6 v8 : FVec Ideal S3 .f32) (p : Fin 2048) (d : Fin 3) :
    axisB v0 v6 v8 (ix2 p d)
      = IntOp.andi (Ideal.cmp .oge (v0 (ix2 p d)) (v6 (ix1 d))) (Ideal.cmp .ole (v0 (ix2 p d)) (v8 (ix1 d))) := by
  show IntOp.andi
      (Ideal.cmp .oge (v0 (ix2 p d)) (broadcastTo S2048x3 (shapeCast S1x3 v6 shapeCasts_S3_S1x3) broadcasts_S1x3_S2048x3 (ix2 p d)))
      (Ideal.cmp .ole (v0 (ix2 p d)) (broadcastTo S2048x3 (shapeCast S1x3 v8 shapeCasts_S3_S1x3) broadcasts_S1x3_S2048x3 (ix2 p d)))
    = _
  rw [broadcastTo_1b_ab_apply, broadcastTo_1b_ab_apply, shapeCast_a_1a_apply, shapeCast_a_1a_apply]

/-- One box's test as the composition of its blocks. -/
theorem boxMask_eq (v0 : Vec Ideal S2048x3 .f32) (v3 : Vec Ideal S1x3x2 .f32) :
    boxMask v0 v3 =
      cmpf .ogt
        (minB (select
          (axisB v0
            (shapeCast S3 (extractStridedSlice S3x1 ![0, 0] (shapeCast S3x2 v3 shapeCasts_S1x3x2_S3x2)
              slices_S3x2_o0_0_S3x1) shapeCasts_S3x1_S3)
            (shapeCast S3 (extractStridedSlice S3x1 ![0, 1] (shapeCast S3x2 v3 shapeCasts_S1x3x2_S3x2)
              slices_S3x2_o0_1_S3x1) shapeCasts_S3x1_S3))
          (broadcast S2048x3 (Scalar.ofBits .f32 0x3F800000#32)) (broadcast S2048x3 (Scalar.ofBits .f32 0x00000000#32))))
        (broadcast S2048 (Scalar.ofBits .f32 0x00000000#32)) := rfl

/-- One box's test at point `p` of the block is the specification's row test at the point's coordinates. -/
theorem boxMask_apply (v0 : Vec Ideal S2048x3 .f32) (v3 : Vec Ideal S1x3x2 .f32) (p : Fin 2048) :
    boxMask v0 v3 (ix1 p) = Cert.Siren.rowIn (fun d => v3 (ix3 (0 : Fin 1) d (0 : Fin 2))) (fun d => v3 (ix3 (0 : Fin 1) d (1 : Fin 2))) (fun d => v0 (ix2 p d)) := by
  rw [boxMask_eq, cmpf_apply, minB_apply, broadcast_apply, Ideal.cmpf_def]
  unfold Cert.Siren.rowIn
  refine min_bits_pos _ _ (fun d => ?_) _
  rw [select_apply, axisB_apply, lo_apply, hi_apply]
  rfl

end Cert.KernelIdeal.Body

end
-- ==== Proof.KerPoint.lean ====
/-
  The stored vector at a point of the block is the specification's value of that point.

  Each box's loads are row `r` of the resident arrays (a unit-stride rectangle of one row read back), so `boxVis` and
  `boxMask` at the loads are the specification's `vis r` and `inBox r` (KerRead); and the eight updates of `kerAcc`, read
  at the point, are the specification's walk `pick` over the eight boxes.
-/
import proofs.«176922_j5729486373507_1_alg».proof.Proof.KerRead

noncomputable section

namespace Cert.KernelIdeal.Body

open Cert.KernelIdeal Cert.KernelIdeal.Gen Cert.KernelIdeal.GenP Idealize.ShloMosaic Idealize.ShloMosaic.ValueIdx

/-! ## One row of a resident array read back

A unit-stride rectangle of extent one on the leading axis, at offset `r` there and whole on the other axes, read at
`(0, d, …)` is the array at `(r, d, …)`: the rectangle's index map adds the offsets coordinate by coordinate. -/

/-- Row `r` of a rank-2 array. -/
theorem ld_row2 {n1 : Nat} (X : Vec Ideal (⟨2, ![8, n1]⟩ : Shape) .f32) (r : Fin 8) {off : Fin 2 → ℕ}
    (h : off = ![r.val, 0])
    (inb : ∀ a, off a + (⟨2, ![1, n1]⟩ : Shape).size a ≤ (⟨2, ![8, n1]⟩ : Shape).size a) (d : Fin n1) :
    View.ld X (Rect.unit (s := ⟨2, ![8, n1]⟩) off (⟨2, ![1, n1]⟩ : Shape).size inb) (ix2 (0 : Fin 1) d) = X (ix2 r d) := by
  subst h
  refine congrArg X (funext fun a => ?_)
  match a with
  | ⟨0, _⟩ => exact Fin.ext (by simp)
  | ⟨1, _⟩ => exact Fin.ext (by simp)

/-- Row `r` of a rank-3 array. -/
theorem ld_row3 {n1 n2 : Nat} (X : Vec Ideal (⟨3, ![8, n1, n2]⟩ : Shape) .f32) (r : Fin 8) {off : Fin 3 → ℕ}
    (h : off = ![r.val, 0, 0])
    (inb : ∀ a, off a + (⟨3, ![1, n1, n2]⟩ : Shape).size a ≤ (⟨3, ![8, n1, n2]⟩ : Shape).size a) (d : Fin n1) (e : Fin n2) :
    View.ld X (Rect.unit (s := ⟨3, ![8, n1, n2]⟩) off (⟨3, ![1, n1, n2]⟩ : Shape).size inb) (ix3 (0 : Fin 1) d e) =
      X (ix3 r d e) := by
  subst h
  refine congrArg X (funext fun a => ?_)
  match a with
  | ⟨0, _⟩ => exact Fin.ext (by simp)
  | ⟨1, _⟩ => exact Fin.ext (by simp)
  | ⟨2, _⟩ => exact Fin.ext (by simp)

/-- Row `r` of a rank-4 array. -/
theorem ld_row4 {n1 n2 n3 : Nat} (X : Vec Ideal (⟨4, ![8, n1, n2, n3]⟩ : Shape) .f32) (r : Fin 8) {off : Fin 4 → ℕ}
    (h : off = ![r.val, 0, 0, 0])
    (inb : ∀ a, off a + (⟨4, ![1, n1, n2, n3]⟩ : Shape).size a ≤ (⟨4, ![8, n1, n2, n3]⟩ : Shape).size a)
    (d : Fin n1) (e : Fin n2) (f : Fin n3) :
    View.ld X (Rect.unit (s := ⟨4, ![8, n1, n2, n3]⟩) off (⟨4, ![1, n1, n2, n3]⟩ : Shape).size inb)
        (ix4 (0 : Fin 1) d e f) = X (ix4 r d e f) := by
  subst h
  refine congrArg X (funext fun a => ?_)
  match a with
  | ⟨0, _⟩ => exact Fin.ext (by simp)
  | ⟨1, _⟩ => exact Fin.ext (by simp)
  | ⟨2, _⟩ => exact Fin.ext (by simp)
  | ⟨3, _⟩ => exact Fin.ext (by simp)

/-- The block of points is loaded whole. -/
theorem ld_block (x0 : Vec Ideal S2048x3 .f32) : View.ld x0 r0_0 = x0 :=
  View.ld_unit_zero (funext fun a => by match a with | ⟨0, _⟩ => rfl | ⟨1, _⟩ => rfl) _ x0

/-! ## One box at its loaded rows -/

section Box

variable (x0 : Vec Ideal S2048x3 .f32) (x1 : Vec Ideal S8x3x128 .f32) (x2 : Vec Ideal S8x128 .f32)
  (x3 : Vec Ideal S8x3x128x128 .f32) (x4 : Vec Ideal S8x3x128 .f32) (x5 : Vec Ideal S8x128x1 .f32)
  (x6 : Vec Ideal S8x1 .f32) (x7 : Vec Ideal S8x3 .f32) (x8 : Vec Ideal S8x3x2 .f32) (r : Fin 8) (p : Fin 2048)
  {o8 o1 o5 : Fin 3 → ℕ} {o7 o2 o6 : Fin 2 → ℕ} {o3 : Fin 4 → ℕ}
  (h8 : o8 = ![r.val, 0, 0]) (h7 : o7 = ![r.val, 0]) (h1 : o1 = ![r.val, 0, 0]) (h2 : o2 = ![r.val, 0])
  (h3 : o3 = ![r.val, 0, 0, 0]) (h5 : o5 = ![r.val, 0, 0]) (h6 : o6 = ![r.val, 0])
  (i8 : ∀ a, o8 a + S1x3x2.size a ≤ S8x3x2.size a) (i7 : ∀ a, o7 a + S1x3.size a ≤ S8x3.size a)
  (i1 : ∀ a, o1 a + S1x3x128.size a ≤ S8x3x128.size a) (i2 : ∀ a, o2 a + S1x128.size a ≤ S8x128.size a)
  (i3 : ∀ a, o3 a + S1x3x128x128.size a ≤ S8x3x128x128.size a) (i5 : ∀ a, o5 a + S1x128x1.size a ≤ S8x128x1.size a)
  (i6 : ∀ a, o6 a + S1x1.size a ≤ S8x1.size a)

include h8 h7 h1 h2 h3 h5 h6 in
/-- Box `r`'s network on the block, at its loaded rows, is the specification's `vis r` at the point. -/
theorem boxVis_row :
    boxVis (View.ld x0 r0_0) (View.ld x8 (Rect.unit o8 S1x3x2.size i8)) (View.ld x7 (Rect.unit o7 S1x3.size i7))
        (View.ld x1 (Rect.unit o1 S1x3x128.size i1)) (View.ld x2 (Rect.unit o2 S1x128.size i2))
        (View.ld x3 (Rect.unit o3 S1x3x128x128.size i3)) (View.ld x4 (Rect.unit o1 S1x3x128.size i1))
        (View.ld x5 (Rect.unit o5 S1x128x1.size i5)) (View.ld x6 (Rect.unit o6 S1x1.size i6)) (ix1 p) =
      Cert.Siren.vis x1 x2 x3 x4 x5 x6 x7 x8 r (fun d => x0 (ix2 p d)) := by
  rw [boxVis_apply, ld_block]
  unfold Cert.Siren.vis
  have e8 : ∀ d e, View.ld x8 (Rect.unit o8 S1x3x2.size i8) (ix3 (0 : Fin 1) d e) = x8 (ix3 r d e) :=
    fun d e => ld_row3 x8 r h8 i8 d e
  have e7 : ∀ d, View.ld x7 (Rect.unit o7 S1x3.size i7) (ix2 (0 : Fin 1) d) = x7 (ix2 r d) :=
    fun d => ld_row2 x7 r h7 i7 d
  have e1 : ∀ d e, View.ld x1 (Rect.unit o1 S1x3x128.size i1) (ix3 (0 : Fin 1) d e) = x1 (ix3 r d e) :=
    fun d e => ld_row3 x1 r h1 i1 d e
  have e4 : ∀ d e, View.ld x4 (Rect.unit o1 S1x3x128.size i1) (ix3 (0 : Fin 1) d e) = x4 (ix3 r d e) :=
    fun d e => ld_row3 x4 r h1 i1 d e
  have e2 : ∀ d, View.ld x2 (Rect.unit o2 S1x128.size i2) (ix2 (0 : Fin 1) d) = x2 (ix2 r d) :=
    fun d => ld_row2 x2 r h2 i2 d
  have e3 : ∀ d e f, View.ld x3 (Rect.unit o3 S1x3x128x128.size i3) (ix4 (0 : Fin 1) d e f) = x3 (ix4 r d e f) :=
    fun d e f => ld_row4 x3 r h3 i3 d e f
  have e5 : ∀ d e, View.ld x5 (Rect.unit o5 S1x128x1.size i5) (ix3 (0 : Fin 1) d e) = x5 (ix3 r d e) :=
    fun d e => ld_row3 x5 r h5 i5 d e
  have e6 : ∀ d, View.ld x6 (Rect.unit o6 S1x1.size i6) (ix2 (0 : Fin 1) d) = x6 (ix2 r d) :=
    fun d => ld_row2 x6 r h6 i6 d
  simp only [e8, e7, e1, e4, e2, e3, e5, e6]

include h8 in
/-- Box `r`'s test on the block, at its loaded corners, is the specification's `inBox r` at the point. -/
theorem boxMask_row :
    boxMask (View.ld x0 r0_0) (View.ld x8 (Rect.unit o8 S1x3x2.size i8)) (ix1 p) =
      Cert.Siren.inBox x8 r (fun d => x0 (ix2 p d)) := by
  rw [boxMask_apply, ld_block]
  unfold Cert.Siren.inBox
  have e8 : ∀ d e, View.ld x8 (Rect.unit o8 S1x3x2.size i8) (ix3 (0 : Fin 1) d e) = x8 (ix3 r d e) :=
    fun d e => ld_row3 x8 r h8 i8 d e
  simp only [e8]

end Box

/-! ## The walk read at a point -/

/-- The running value and bit of the walk at one point of the block. -/
def accAt (acc : FVec Ideal S2048 .f32 × IVec S2048 1) (i : S2048.Idx) : EReal × BitVec 1 := (acc.1 i, acc.2 i)

/-- One update of the block-wide walk, read at a point, is one step of the specification's walk. -/
theorem accAt_kerStep (m : Fin 8 → BitVec 1) (v : Fin 8 → EReal) (r : Fin 8)
    (acc : FVec Ideal S2048 .f32 × IVec S2048 1) (vis : FVec Ideal S2048 .f32) (mask : IVec S2048 1) (i : S2048.Idx)
    (a : EReal × BitVec 1) (ha : accAt acc i = a) (hv : vis i = v r) (hm : mask i = m r) :
    accAt (kerStep acc vis mask) i = Cert.Siren.pickStep m v a r := by
  subst ha
  unfold Cert.Siren.pickStep
  rw [← hv, ← hm]
  rfl

/-- The stored vector at point `p`: the value of the point `(x0 (p, 0), x0 (p, 1), x0 (p, 2))`. -/
theorem kerOut_apply (x0 : Vec Ideal S2048x3 .f32) (x1 : Vec Ideal S8x3x128 .f32) (x2 : Vec Ideal S8x128 .f32) (x3 : Vec Ideal S8x3x128x128 .f32) (x4 : Vec Ideal S8x3x128 .f32) (x5 : Vec Ideal S8x128x1 .f32) (x6 : Vec Ideal S8x1 .f32) (x7 : Vec Ideal S8x3 .f32) (x8 : Vec Ideal S8x3x2 .f32) (p : Fin 2048) :
    kerOut x0 x1 x2 x3 x4 x5 x6 x7 x8 (ix1 p) = Cert.Siren.pointVal x1 x2 x3 x4 x5 x6 x7 x8 (fun d => x0 (ix2 p d)) := by
  have hl : List.finRange 8 = [0, 1, 2, 3, 4, 5, 6, 7] := by decide
  unfold Cert.Siren.pointVal Cert.Siren.pick
  rw [hl]
  simp only [List.foldl]
  show (accAt (kerAcc x0 x1 x2 x3 x4 x5 x6 x7 x8) (ix1 p)).1 = _
  refine congrArg Prod.fst ?_
  unfold kerAcc
  refine accAt_kerStep _ _ 7 _ _ _ _ _ ?_
    (boxVis_row x0 x1 x2 x3 x4 x5 x6 x7 x8 7 p rfl rfl rfl rfl rfl rfl rfl _ _ _ _ _ _ _)
    (boxMask_row x0 x8 7 p rfl _)
  refine accAt_kerStep _ _ 6 _ _ _ _ _ ?_
    (boxVis_row x0 x1 x2 x3 x4 x5 x6 x7 x8 6 p rfl rfl rfl rfl rfl rfl rfl _ _ _ _ _ _ _)
    (boxMask_row x0 x8 6 p rfl _)
  refine accAt_kerStep _ _ 5 _ _ _ _ _ ?_
    (boxVis_row x0 x1 x2 x3 x4 x5 x6 x7 x8 5 p rfl rfl rfl rfl rfl rfl rfl _ _ _ _ _ _ _)
    (boxMask_row x0 x8 5 p rfl _)
  refine accAt_kerStep _ _ 4 _ _ _ _ _ ?_
    (boxVis_row x0 x1 x2 x3 x4 x5 x6 x7 x8 4 p rfl rfl rfl rfl rfl rfl rfl _ _ _ _ _ _ _)
    (boxMask_row x0 x8 4 p rfl _)
  refine accAt_kerStep _ _ 3 _ _ _ _ _ ?_
    (boxVis_row x0 x1 x2 x3 x4 x5 x6 x7 x8 3 p rfl rfl rfl rfl rfl rfl rfl _ _ _ _ _ _ _)
    (boxMask_row x0 x8 3 p rfl _)
  refine accAt_kerStep _ _ 2 _ _ _ _ _ ?_
    (boxVis_row x0 x1 x2 x3 x4 x5 x6 x7 x8 2 p rfl rfl rfl rfl rfl rfl rfl _ _ _ _ _ _ _)
    (boxMask_row x0 x8 2 p rfl _)
  refine accAt_kerStep _ _ 1 _ _ _ _ _ ?_
    (boxVis_row x0 x1 x2 x3 x4 x5 x6 x7 x8 1 p rfl rfl rfl rfl rfl rfl rfl _ _ _ _ _ _ _)
    (boxMask_row x0 x8 1 p rfl _)
  refine accAt_kerStep _ _ 0 _ _ _ _ _ ?_
    (boxVis_row x0 x1 x2 x3 x4 x5 x6 x7 x8 0 p rfl rfl rfl rfl rfl rfl rfl _ _ _ _ _ _ _)
    (boxMask_row x0 x8 0 p rfl _)
  rfl

end Cert.KernelIdeal.Body

end
-- ==== Proof.KerFinal.lean ====
/-
  The kernel's result array is the specification's.

  Grid point `t` writes back rows `2048 · t … 2048 · t + 2047` of the result; the points' block of `x` is those rows of the
  argument and every other window's block is its whole array, so by KerPoint what point `t` writes is the specification's
  array read through the block.  The 32 blocks cover the 65536 entries, hence the array after the run is `G` everywhere.
-/
import proofs.«176922_j5729486373507_1_alg».proof.Proof.KerPoint
import proofs.«176922_j5729486373507_1_alg».proof.Proof.KernelIdealValueP

noncomputable section

namespace Cert.KernelIdeal.KValue

open Cert.KernelIdeal Cert.KernelIdeal.Gen Cert.KernelIdeal.GenP Cert.KernelIdeal.ValueP Cert.KernelIdeal.Body
open Idealize.ShloMosaic Idealize.ShloMosaic.TcCoe Idealize.ShloMosaic.ValueIdx Idealize.SL.Sem

variable (m : (ℓ : Loc nD τ sig) → Buf (Elt Ideal) ℓ) (ρ : Dev nD → PrngReg)

/-- The rank-1 zero offsets, however spelt. -/
theorem hz1 : (![0] : Fin 1 → Nat) = fun _ => 0 := funext fun a => by match a with | ⟨0, _⟩ => rfl

/-- The specification's array of the argument arrays as the region finds them. -/
abbrev GK (c : Dev nD) : S65536.Idx → Elt Ideal .f32 :=
  Cert.Siren.G (V m c main_arg0) (V m c main_arg1) (V m c main_arg2) (V m c main_arg3) (V m c main_arg4)
    (V m c main_arg5) (V m c main_arg6) (V m c main_arg7) (V m c main_arg8)

/-- The stored vector at point `p` of a block whose rows are rows `n` of the points' array, the other blocks being
    their whole arrays, is the specification's array at `n`. -/
theorem point_eq (X0 : Vec Ideal S65536x3 .f32) (x0 : Vec Ideal S2048x3 .f32) (X1 x1 : Vec Ideal S8x3x128 .f32)
    (X2 x2 : Vec Ideal S8x128 .f32) (X3 x3 : Vec Ideal S8x3x128x128 .f32) (X4 x4 : Vec Ideal S8x3x128 .f32)
    (X5 x5 : Vec Ideal S8x128x1 .f32) (X6 x6 : Vec Ideal S8x1 .f32) (X7 x7 : Vec Ideal S8x3 .f32)
    (X8 x8 : Vec Ideal S8x3x2 .f32) (p : Fin 2048) (n : Fin 65536)
    (h0 : ∀ d : Fin 3, x0 (ix2 p d) = X0 (ix2 n d)) (h1 : x1 = X1) (h2 : x2 = X2) (h3 : x3 = X3) (h4 : x4 = X4)
    (h5 : x5 = X5) (h6 : x6 = X6) (h7 : x7 = X7) (h8 : x8 = X8) :
    kerOut x0 x1 x2 x3 x4 x5 x6 x7 x8 (ix1 p) = Cert.Siren.G X0 X1 X2 X3 X4 X5 X6 X7 X8 (ix1 n) := by
  subst h1 h2 h3 h4 h5 h6 h7 h8
  rw [kerOut_apply]
  show Cert.Siren.pointVal x1 x2 x3 x4 x5 x6 x7 x8 (fun d => x0 (ix2 p d)) =
    Cert.Siren.pointVal x1 x2 x3 x4 x5 x6 x7 x8 (fun d => X0 (ix2 n d))
  rw [show (fun d => x0 (ix2 p d)) = (fun d => X0 (ix2 n d)) from funext h0]

/-- The printed index maps, decided over the grid: the points' window and the result's move one block per grid point,
    every other window stays at block zero. -/
theorem idx_facts : ∀ t : Fin cfg0.N,
    win0_9.index t (0 : Fin 1) = t.val
    ∧ win0_0.index t (0 : Fin 2) = t.val ∧ win0_0.index t (1 : Fin 2) = 0
    ∧ (∀ a : Fin 3, win0_1.index t a = 0) ∧ (∀ a : Fin 2, win0_2.index t a = 0) ∧ (∀ a : Fin 4, win0_3.index t a = 0)
    ∧ (∀ a : Fin 3, win0_4.index t a = 0) ∧ (∀ a : Fin 3, win0_5.index t a = 0) ∧ (∀ a : Fin 2, win0_6.index t a = 0)
    ∧ (∀ a : Fin 2, win0_7.index t a = 0) ∧ (∀ a : Fin 3, win0_8.index t a = 0) :=
  (by decide +kernel : ∀ t : Fin grid0.N, _)

/-- Window 1's block is its whole array at every grid point. -/
theorem iblk1_eq (c : Dev nD) (t : Fin cfg0.N) : (iblk m c 1 t : Vec Ideal S8x3x128 .f32) = V m c main_arg1 := by
  obtain ⟨e9, e00, e01, e1, e2, e3, e4, e5, e6, e7, e8⟩ := idx_facts t
  funext y
  show V m c main_arg1 (((cfg0.win 1).blk t).view.emb y) = V m c main_arg1 y
  refine congrArg _ (funext fun a => Fin.ext ?_)
  show win0_1.index t a * S8x3x128.size a + 1 * (y a).val = (y a).val
  rw [e1 a]; omega

/-- Window 2's block is its whole array at every grid point. -/
theorem iblk2_eq (c : Dev nD) (t : Fin cfg0.N) : (iblk m c 2 t : Vec Ideal S8x128 .f32) = V m c main_arg2 := by
  obtain ⟨e9, e00, e01, e1, e2, e3, e4, e5, e6, e7, e8⟩ := idx_facts t
  funext y
  show V m c main_arg2 (((cfg0.win 2).blk t).view.emb y) = V m c main_arg2 y
  refine congrArg _ (funext fun a => Fin.ext ?_)
  show win0_2.index t a * S8x128.size a + 1 * (y a).val = (y a).val
  rw [e2 a]; omega

/-- Window 3's block is its whole array at every grid point. -/
theorem iblk3_eq (c : Dev nD) (t : Fin cfg0.N) : (iblk m c 3 t : Vec Ideal S8x3x128x128 .f32) = V m c main_arg3 := by
  obtain ⟨e9, e00, e01, e1, e2, e3, e4, e5, e6, e7, e8⟩ := idx_facts t
  funext y
  show V m c main_arg3 (((cfg0.win 3).blk t).view.emb y) = V m c main_arg3 y
  refine congrArg _ (funext fun a => Fin.ext ?_)
  show win0_3.index t a * S8x3x128x128.size a + 1 * (y a).val = (y a).val
  rw [e3 a]; omega

/-- Window 4's block is its whole array at every grid point. -/
theorem iblk4_eq (c : Dev nD) (t : Fin cfg0.N) : (iblk m c 4 t : Vec Ideal S8x3x128 .f32) = V m c main_arg4 := by
  obtain ⟨e9, e00, e01, e1, e2, e3, e4, e5, e6, e7, e8⟩ := idx_facts t
  funext y
  show V m c main_arg4 (((cfg0.win 4).blk t).view.emb y) = V m c main_arg4 y
  refine congrArg _ (funext fun a => Fin.ext ?_)
  show win0_4.index t a * S8x3x128.size a + 1 * (y a).val = (y a).val
  rw [e4 a]; omega

/-- Window 5's block is its whole array at every grid point. -/
theorem iblk5_eq (c : Dev nD) (t : Fin cfg0.N) : (iblk m c 5 t : Vec Ideal S8x128x1 .f32) = V m c main_arg5 := by
  obtain ⟨e9, e00, e01, e1, e2, e3, e4, e5, e6, e7, e8⟩ := idx_facts t
  funext y
  show V m c main_arg5 (((cfg0.win 5).blk t).view.emb y) = V m c main_arg5 y
  refine congrArg _ (funext fun a => Fin.ext ?_)
  show win0_5.index t a * S8x128x1.size a + 1 * (y a).val = (y a).val
  rw [e5 a]; omega

/-- Window 6's block is its whole array at every grid point. -/
theorem iblk6_eq (c : Dev nD) (t : Fin cfg0.N) : (iblk m c 6 t : Vec Ideal S8x1 .f32) = V m c main_arg6 := by
  obtain ⟨e9, e00, e01, e1, e2, e3, e4, e5, e6, e7, e8⟩ := idx_facts t
  funext y
  show V m c main_arg6 (((cfg0.win 6).blk t).view.emb y) = V m c main_arg6 y
  refine congrArg _ (funext fun a => Fin.ext ?_)
  show win0_6.index t a * S8x1.size a + 1 * (y a).val = (y a).val
  rw [e6 a]; omega

/-- Window 7's block is its whole array at every grid point. -/
theorem iblk7_eq (c : Dev nD) (t : Fin cfg0.N) : (iblk m c 7 t : Vec Ideal S8x3 .f32) = V m c main_arg7 := by
  obtain ⟨e9, e00, e01, e1, e2, e3, e4, e5, e6, e7, e8⟩ := idx_facts t
  funext y
  show V m c main_arg7 (((cfg0.win 7).blk t).view.emb y) = V m c main_arg7 y
  refine congrArg _ (funext fun a => Fin.ext ?_)
  show win0_7.index t a * S8x3.size a + 1 * (y a).val = (y a).val
  rw [e7 a]; omega

/-- Window 8's block is its whole array at every grid point. -/
theorem iblk8_eq (c : Dev nD) (t : Fin cfg0.N) : (iblk m c 8 t : Vec Ideal S8x3x2 .f32) = V m c main_arg8 := by
  obtain ⟨e9, e00, e01, e1, e2, e3, e4, e5, e6, e7, e8⟩ := idx_facts t
  funext y
  show V m c main_arg8 (((cfg0.win 8).blk t).view.emb y) = V m c main_arg8 y
  refine congrArg _ (funext fun a => Fin.ext ?_)
  show win0_8.index t a * S8x3x2.size a + 1 * (y a).val = (y a).val
  rw [e8 a]; omega

/-- The points' block at grid point `t` is rows `2048 · t …` of the points' array. -/
theorem iblk0_apply (c : Dev nD) (t : Fin cfg0.N) (p : Fin 2048) (n : Fin 65536) (hn : n.val = 2048 * t.val + p.val)
    (d : Fin 3) : (iblk m c 0 t : Vec Ideal S2048x3 .f32) (ix2 p d) = V m c main_arg0 (ix2 n d) := by
  obtain ⟨e9, e00, e01, e1, e2, e3, e4, e5, e6, e7, e8⟩ := idx_facts t
  show V m c main_arg0 (((cfg0.win 0).blk t).view.emb (ix2 p d)) = V m c main_arg0 (ix2 n d)
  refine congrArg _ (funext fun a => Fin.ext ?_)
  match a with
  | ⟨0, _⟩ => show win0_0.index t (0 : Fin 2) * 2048 + 1 * p.val = n.val; rw [e00, hn]; omega
  | ⟨1, _⟩ => show win0_0.index t (1 : Fin 2) * 3 + 1 * d.val = d.val; rw [e01]; omega

/-- WHAT POINT `t` WRITES BACK is block `t` of the specification's array. -/
theorem flushed_eq (c : Dev nD) (t : Fin cfg0.N) :
    (dats m 0 c).flushed 9 t = ((cfg0.win 9).blk t).view.read (Elt Ideal) (GK m c) := by
  obtain ⟨e9, e00, e01, e1, e2, e3, e4, e5, e6, e7, e8⟩ := idx_facts t
  have ht : t.val < 32 := Nat.lt_of_lt_of_eq t.isLt N_0
  rw [flushed9, Body.out_eq, View.canon_unit_zero hz1]
  refine funext fun (j : S2048.Idx) => ?_
  obtain ⟨p, rfl⟩ : ∃ p : Fin 2048, j = ix1 p := ⟨j 0, eq_ix1 j⟩
  have hp : p.val < 2048 := p.isLt
  show kerOut (iblk m c 0 t) (iblk m c 1 t) (iblk m c 2 t) (iblk m c 3 t) (iblk m c 4 t) (iblk m c 5 t) (iblk m c 6 t)
      (iblk m c 7 t) (iblk m c 8 t) (ix1 p) = GK m c (((cfg0.win 9).blk t).view.emb (ix1 p))
  have hemb : ((cfg0.win 9).blk t).view.emb (ix1 p) = ix1 (⟨2048 * t.val + p.val, by omega⟩ : Fin 65536) := by
    refine funext fun a => Fin.ext ?_
    match a with
    | ⟨0, _⟩ => show win0_9.index t (0 : Fin 1) * 2048 + 1 * p.val = 2048 * t.val + p.val; rw [e9]; omega
  rw [hemb]
  exact point_eq _ _ _ _ _ _ _ _ _ _ _ _ _ _ _ _ _ _ p ⟨2048 * t.val + p.val, by omega⟩
    (fun d => iblk0_apply m c t p _ rfl d) (iblk1_eq m c t) (iblk2_eq m c t) (iblk3_eq m c t) (iblk4_eq m c t)
    (iblk5_eq m c t) (iblk6_eq m c t) (iblk7_eq m c t) (iblk8_eq m c t)

/-- An index of the result array is in point `t`'s block iff its coordinate is in the block's range. -/
theorem mem_blk (t : Fin cfg0.N) (i : S65536.Idx) :
    i ∈ ((cfg0.win 9).blk t).view.set ↔ ∀ a : Fin 1, win0_9.index t a * S2048.size a ≤ (i a).val ∧ (i a).val < win0_9.index t a * S2048.size a + S2048.size a := by
  show i ∈ ((View.whole main_v0).slice (win0_9.rect t)).set ↔ _
  rw [View.set_slice_whole, Rect.mem_set_unit]
  exact Iff.rfl

/-- The 32 blocks cover the result array: entry `n` is in the block of point `n / 2048`. -/
theorem cover (i : S65536.Idx) : ∃ t : Fin cfg0.N, (cfg0.win 9).flush t = true ∧ i ∈ ((cfg0.win 9).blk t).view.set := by
  have hi : (i 0).val < 65536 := (i 0).isLt
  have hN : cfg0.N = 32 := N_0
  refine ⟨⟨(i 0).val / 2048, by rw [hN]; omega⟩, flush0_9 _, ?_⟩
  rw [mem_blk]
  obtain ⟨e9, -⟩ := idx_facts ⟨(i 0).val / 2048, by rw [hN]; omega⟩
  intro a
  match a with
  | ⟨0, _⟩ =>
    show win0_9.index _ (0 : Fin 1) * 2048 ≤ (i 0).val ∧ (i 0).val < win0_9.index _ (0 : Fin 1) * 2048 + 2048
    rw [e9]
    show (i 0).val / 2048 * 2048 ≤ (i 0).val ∧ (i 0).val < (i 0).val / 2048 * 2048 + 2048
    omega

/-- THE RESULT ARRAY after the run is the specification's. -/
theorem final (c : Dev nD) : (dats m 0 c).arrAt 9 cfg0.N = GK m c :=
  (dats m 0 c).arrAt_eq_of_cover 9 (GK m c) (fun t _ => flushed_eq m c t) cover

/-- Every weakly fair execution of the idealized kernel's @main terminates with the result array at the specification's
    function of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0) = Cert.Siren.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) :=
  (θ_run defs _ _).mono (fun r h c => ⟨(h c).1.trans (final m c), (h c).2⟩) (run_blocks m ρ)

end Cert.KernelIdeal.KValue

end
-- ==== Proof.RefRun.lean ====
/-
  The reference program's @main as a straight line of host operations, and its run.

  @main prints in two windows; the second calls three module-local functions (an arg-max over the boxes, a
  take-along-axis, a select against a scalar), whose bodies run on the call's own buffers.  `ops0` and `ops1` list the
  operations of the two windows in order, each callee's operations written out at its call over that call's buffer
  record; `main_eq` says @main is that list run in order, and `run_main` that every weakly fair execution terminates
  with every buffer at the fold of the operations' results over the launch contents (the library's `run_seq`).
-/
import proofs.«176922_j5729486373507_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 60 operations: the boxes' corners, the normalised coordinates, the first layer and the hidden
    layers up to the last bias's first broadcast. -/
abbrev ops0 : List (HloOp τ sig (Elt F)) :=
  [ unary main_arg8 main_v0 ((extractStridedSlice S8x3x1 ![0, 0, 0] · slices_S8x3x2_S8x3x1_0_0_0) : (⟨S8x3x2, .f32⟩ : BufTy).Contents (Elt F) → (⟨S8x3x1, .f32⟩ : BufTy).Contents (Elt F)),
    reshape main_v0 main_v1 rfl shapeCasts_S8x3x1_S8x3,
    unary main_v1 main_v2 (broadcastInDim S8x1x3 ![0, 2] bcast_S8x3_S8x1x3_0_2 : (⟨S8x3, .f32⟩ : BufTy).Contents (Elt F) → (⟨S8x1x3, .f32⟩ : BufTy).Contents (Elt F)),
    unary main_arg8 main_v3 ((extractStridedSlice S8x3x1 ![0, 0, 1] · slices_S8x3x2_S8x3x1_0_0_1) : (⟨S8x3x2, .f32⟩ : BufTy).Contents (Elt F) → (⟨S8x3x1, .f32⟩ : BufTy).Contents (Elt F)),
    reshape main_v3 main_v4 rfl shapeCasts_S8x3x1_S8x3,
    unary main_v4 main_v5 (broadcastInDim S8x1x3 ![0, 2] bcast_S8x3_S8x1x3_0_2 : (⟨S8x3, .f32⟩ : BufTy).Contents (Elt F) → (⟨S8x1x3, .f32⟩ : BufTy).Contents (Elt F)),
    unary main_arg0 main_v6 (broadcastInDim S1x65536x3 ![1, 2] bcast_S65536x3_S1x65536x3_1_2 : (⟨S65536x3, .f32⟩ : BufTy).Contents (Elt F) → (⟨S1x65536x3, .f32⟩ : BufTy).Contents (Elt F)),
    unary main_v6 main_v7 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    unary main_v2 main_v8 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v7 main_v8 main_v9 (subf : (⟨S8x65536x3, .f32⟩ : BufTy).Contents (Elt F) → (⟨S8x65536x3, .f32⟩ : BufTy).Contents (Elt F) → (⟨S8x65536x3, .f32⟩ : BufTy).Contents (Elt F)),
    nullary main_cst (constant S_ .f32 0x40000000#32),
    unary main_cst main_v10 (broadcastInDim S8x65536x3 ![] bcast_S_S8x65536x3 : (⟨S_, .f32⟩ : BufTy).Contents (Elt F) → (⟨S8x65536x3, .f32⟩ : BufTy).Contents (Elt F)),
    binary main_v10 main_v9 main_v11 (mulf : (⟨S8x65536x3, .f32⟩ : BufTy).Contents (Elt F) → (⟨S8x65536x3, .f32⟩ : BufTy).Contents (Elt F) → (⟨S8x65536x3, .f32⟩ : BufTy).Contents (Elt F)),
    binary main_v5 main_v2 main_v12 (subf : (⟨S8x1x3, .f32⟩ : BufTy).Contents (Elt F) → (⟨S8x1x3, .f32⟩ : BufTy).Contents (Elt F) → (⟨S8x1x3, .f32⟩ : BufTy).Contents (Elt F)),
    unary main_v12 main_v13 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v11 main_v13 main_v14 (Host.divf : (⟨S8x65536x3, .f32⟩ : BufTy).Contents (Elt F) → (⟨S8x65536x3, .f32⟩ : BufTy).Contents (Elt F) → (⟨S8x65536x3, .f32⟩ : BufTy).Contents (Elt F)),
    nullary main_cst_0 (constant S_ .f32 0x3F800000#32),
    unary main_cst_0 main_v15 (broadcastInDim S8x65536x3 ![] bcast_S_S8x65536x3 : (⟨S_, .f32⟩ : BufTy).Contents (Elt F) → (⟨S8x65536x3, .f32⟩ : BufTy).Contents (Elt F)),
    binary main_v14 main_v15 main_v16 (subf : (⟨S8x65536x3, .f32⟩ : BufTy).Contents (Elt F) → (⟨S8x65536x3, .f32⟩ : BufTy).Contents (Elt F) → (⟨S8x65536x3, .f32⟩ : BufTy).Contents (Elt F)),
    unary main_arg7 main_v17 (broadcastInDim S8x1x3 ![0, 2] bcast_S8x3_S8x1x3_0_2 : (⟨S8x3, .f32⟩ : BufTy).Contents (Elt F) → (⟨S8x1x3, .f32⟩ : BufTy).Contents (Elt F)),
    unary main_v17 main_v18 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v16 main_v18 main_v19 (mulf : (⟨S8x65536x3, .f32⟩ : BufTy).Contents (Elt F) → (⟨S8x65536x3, .f32⟩ : BufTy).Contents (Elt F) → (⟨S8x65536x3, .f32⟩ : BufTy).Contents (Elt F)),
    binary main_v19 main_arg1 main_v20 ((fun l r => Host.dotGeneral dot_S8x65536x3_S8x3x128_S8x65536x128_2_1_1_2_0_0 none l r) : (⟨S8x65536x3, .f32⟩ : BufTy).Contents (Elt F) → (⟨S8x3x128, .f32⟩ : BufTy).Contents (Elt F) → (⟨S8x65536x128, .f32⟩ : BufTy).Contents (Elt F)),
    unary main_arg2 main_v21 (broadcastInDim S8x1x128 ![0, 2] bcast_S8x128_S8x1x128_0_2 : (⟨S8x128, .f32⟩ : BufTy).Contents (Elt F) → (⟨S8x1x128, .f32⟩ : BufTy).Contents (Elt F)),
    unary main_v21 main_v22 (broadcastInDim S8x65536x128 ![0, 1, 2] bcast_S8x1x128_S8x65536x128_0_1_2 : (⟨S8x1x128, .f32⟩ : BufTy).Contents (Elt F) → (⟨S8x65536x128, .f32⟩ : BufTy).Contents (Elt F)),
    binary main_v20 main_v22 main_v23 (addf : (⟨S8x65536x128, .f32⟩ : BufTy).Contents (Elt F) → (⟨S8x65536x128, .f32⟩ : BufTy).Contents (Elt F) → (⟨S8x65536x128, .f32⟩ : BufTy).Contents (Elt F)),
    nullary main_cst_1 (constant S_ .f32 0x41F00000#32),
    unary main_cst_1 main_v24 (broadcastInDim S8x65536x128 ![] bcast_S_S8x65536x128 : (⟨S_, .f32⟩ : BufTy).Contents (Elt F) → (⟨S8x65536x128, .f32⟩ : BufTy).Contents (Elt F)),
    binary main_v24 main_v23 main_v25 (mulf : (⟨S8x65536x128, .f32⟩ : BufTy).Contents (Elt F) → (⟨S8x65536x128, .f32⟩ : BufTy).Contents (Elt F) → (⟨S8x65536x128, .f32⟩ : BufTy).Contents (Elt F)),
    unary main_v25 main_v26 (Host.sin : (⟨S8x65536x128, .f32⟩ : BufTy).Contents (Elt F) → (⟨S8x65536x128, .f32⟩ : BufTy).Contents (Elt F)),
    unary main_arg3 main_v27 ((extractStridedSlice S8x1x128x128 ![0, 0, 0, 0] · slices_S8x3x128x128_S8x1x128x128_0_0_0_0) : (⟨S8x3x128x128, .f32⟩ : BufTy).Contents (Elt F) → (⟨S8x1x128x128, .f32⟩ : BufTy).Contents (Elt F)),
    reshape main_v27 main_v28 rfl shapeCasts_S8x1x128x128_S8x128x128,
    binary main_v26 main_v28 main_v29 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    unary main_arg4 main_v30 ((extractStridedSlice S8x1x128 ![0, 0, 0] · slices_S8x3x128_S8x1x128_0_0_0) : (⟨S8x3x128, .f32⟩ : BufTy).Contents (Elt F) → (⟨S8x1x128, .f32⟩ : BufTy).Contents (Elt F)),
    reshape main_v30 main_v31 rfl shapeCasts_S8x1x128_S8x128,
    unary main_v31 main_v32 (broadcastInDim S8x1x128 ![0, 2] bcast_S8x128_S8x1x128_0_2 : (⟨S8x128, .f32⟩ : BufTy).Contents (Elt F) → (⟨S8x1x128, .f32⟩ : BufTy).Contents (Elt F)),
    unary main_v32 main_v33 (broadcastInDim S8x65536x128 ![0, 1, 2] bcast_S8x1x128_S8x65536x128_0_1_2 : (⟨S8x1x128, .f32⟩ : BufTy).Contents (Elt F) → (⟨S8x65536x128, .f32⟩ : BufTy).Contents (Elt F)),
    binary main_v29 main_v33 main_v34 (addf : (⟨S8x65536x128, .f32⟩ : BufTy).Contents (Elt F) → (⟨S8x65536x128, .f32⟩ : BufTy).Contents (Elt F) → (⟨S8x65536x128, .f32⟩ : BufTy).Contents (Elt F)),
    nullary main_cst_2 (constant S_ .f32 0x41F00000#32),
    unary main_cst_2 main_v35 (broadcastInDim S8x65536x128 ![] bcast_S_S8x65536x128 : (⟨S_, .f32⟩ : BufTy).Contents (Elt F) → (⟨S8x65536x128, .f32⟩ : BufTy).Contents (Elt F)),
    binary main_v35 main_v34 main_v36 (mulf : (⟨S8x65536x128, .f32⟩ : BufTy).Contents (Elt F) → (⟨S8x65536x128, .f32⟩ : BufTy).Contents (Elt F) → (⟨S8x65536x128, .f32⟩ : BufTy).Contents (Elt F)),
    unary main_v36 main_v37 (Host.sin : (⟨S8x65536x128, .f32⟩ : BufTy).Contents (Elt F) → (⟨S8x65536x128, .f32⟩ : BufTy).Contents (Elt F)),
    unary main_arg3 main_v38 ((extractStridedSlice S8x1x128x128 ![0, 1, 0, 0] · slices_S8x3x128x128_S8x1x128x128_0_1_0_0) : (⟨S8x3x128x128, .f32⟩ : BufTy).Contents (Elt F) → (⟨S8x1x128x128, .f32⟩ : BufTy).Contents (Elt F)),
    reshape main_v38 main_v39 rfl shapeCasts_S8x1x128x128_S8x128x128,
    binary main_v37 main_v39 main_v40 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    unary main_arg4 main_v41 ((extractStridedSlice S8x1x128 ![0, 1, 0] · slices_S8x3x128_S8x1x128_0_1_0) : (⟨S8x3x128, .f32⟩ : BufTy).Contents (Elt F) → (⟨S8x1x128, .f32⟩ : BufTy).Contents (Elt F)),
    reshape main_v41 main_v42 rfl shapeCasts_S8x1x128_S8x128,
    unary main_v42 main_v43 (broadcastInDim S8x1x128 ![0, 2] bcast_S8x128_S8x1x128_0_2 : (⟨S8x128, .f32⟩ : BufTy).Contents (Elt F) → (⟨S8x1x128, .f32⟩ : BufTy).Contents (Elt F)),
    unary main_v43 main_v44 (broadcastInDim S8x65536x128 ![0, 1, 2] bcast_S8x1x128_S8x65536x128_0_1_2 : (⟨S8x1x128, .f32⟩ : BufTy).Contents (Elt F) → (⟨S8x65536x128, .f32⟩ : BufTy).Contents (Elt F)),
    binary main_v40 main_v44 main_v45 (addf : (⟨S8x65536x128, .f32⟩ : BufTy).Contents (Elt F) → (⟨S8x65536x128, .f32⟩ : BufTy).Contents (Elt F) → (⟨S8x65536x128, .f32⟩ : BufTy).Contents (Elt F)),
    nullary main_cst_3 (constant S_ .f32 0x41F00000#32),
    unary main_cst_3 main_v46 (broadcastInDim S8x65536x128 ![] bcast_S_S8x65536x128 : (⟨S_, .f32⟩ : BufTy).Contents (Elt F) → (⟨S8x65536x128, .f32⟩ : BufTy).Contents (Elt F)),
    binary main_v46 main_v45 main_v47 (mulf : (⟨S8x65536x128, .f32⟩ : BufTy).Contents (Elt F) → (⟨S8x65536x128, .f32⟩ : BufTy).Contents (Elt F) → (⟨S8x65536x128, .f32⟩ : BufTy).Contents (Elt F)),
    unary main_v47 main_v48 (Host.sin : (⟨S8x65536x128, .f32⟩ : BufTy).Contents (Elt F) → (⟨S8x65536x128, .f32⟩ : BufTy).Contents (Elt F)),
    unary main_arg3 main_v49 ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)),
    reshape main_v49 main_v50 rfl shapeCasts_S8x1x128x128_S8x128x128,
    binary main_v48 main_v50 main_v51 ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)),
    unary main_arg4 main_v52 ((extractStridedSlice S8x1x128 ![0, 2, 0] · slices_S8x3x128_S8x1x128_0_2_0) : (⟨S8x3x128, .f32⟩ : BufTy).Contents (Elt F) → (⟨S8x1x128, .f32⟩ : BufTy).Contents (Elt F)),
    reshape main_v52 main_v53 rfl shapeCasts_S8x1x128_S8x128,
    unary main_v53 main_v54 (broadcastInDim S8x1x128 ![0, 2] bcast_S8x128_S8x1x128_0_2 : (⟨S8x128, .f32⟩ : BufTy).Contents (Elt F) → (⟨S8x1x128, .f32⟩ : BufTy).Contents (Elt F)) ]

/-- The second window's 57 operations: the last layer, the output column, the box tests, the arg-max over the boxes
    (five operations on the first call's buffers), "some box holds the point", the take-along-axis (twenty-two on the
    second call's), and the select against zero (three on the third call's). -/
abbrev ops1 : List (HloOp τ sig (Elt F)) :=
  [ unary main_v54 main_v55 (broadcastInDim S8x65536x128 ![0, 1, 2] bcast_S8x1x128_S8x65536x128_0_1_2 : (⟨S8x1x128, .f32⟩ : BufTy).Contents (Elt F) → (⟨S8x65536x128, .f32⟩ : BufTy).Contents (Elt F)),
    binary main_v51 main_v55 main_v56 (addf : (⟨S8x65536x128, .f32⟩ : BufTy).Contents (Elt F) → (⟨S8x65536x128, .f32⟩ : BufTy).Contents (Elt F) → (⟨S8x65536x128, .f32⟩ : BufTy).Contents (Elt F)),
    nullary main_cst_4 (constant S_ .f32 0x41F00000#32),
    unary main_cst_4 main_v57 (broadcastInDim S8x65536x128 ![] bcast_S_S8x65536x128 : (⟨S_, .f32⟩ : BufTy).Contents (Elt F) → (⟨S8x65536x128, .f32⟩ : BufTy).Contents (Elt F)),
    binary main_v57 main_v56 main_v58 (mulf : (⟨S8x65536x128, .f32⟩ : BufTy).Contents (Elt F) → (⟨S8x65536x128, .f32⟩ : BufTy).Contents (Elt F) → (⟨S8x65536x128, .f32⟩ : BufTy).Contents (Elt F)),
    unary main_v58 main_v59 (Host.sin : (⟨S8x65536x128, .f32⟩ : BufTy).Contents (Elt F) → (⟨S8x65536x128, .f32⟩ : BufTy).Contents (Elt F)),
    binary main_v59 main_arg5 main_v60 ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)),
    unary main_arg6 main_v61 (broadcastInDim S8x1x1 ![0, 2] bcast_S8x1_S8x1x1_0_2 : (⟨S8x1, .f32⟩ : BufTy).Contents (Elt F) → (⟨S8x1x1, .f32⟩ : BufTy).Contents (Elt F)),
    unary main_v61 main_v62 (broadcastInDim S8x65536x1 ![0, 1, 2] bcast_S8x1x1_S8x65536x1_0_1_2 : (⟨S8x1x1, .f32⟩ : BufTy).Contents (Elt F) → (⟨S8x65536x1, .f32⟩ : BufTy).Contents (Elt F)),
    binary main_v60 main_v62 main_v63 (addf : (⟨S8x65536x1, .f32⟩ : BufTy).Contents (Elt F) → (⟨S8x65536x1, .f32⟩ : BufTy).Contents (Elt F) → (⟨S8x65536x1, .f32⟩ : BufTy).Contents (Elt F)),
    reshape main_v63 main_v64 rfl shapeCasts_S8x65536x1_S8x65536,
    unary main_arg0 main_v65 (broadcastInDim S1x65536x3 ![1, 2] bcast_S65536x3_S1x65536x3_1_2 : (⟨S65536x3, .f32⟩ : BufTy).Contents (Elt F) → (⟨S1x65536x3, .f32⟩ : BufTy).Contents (Elt F)),
    unary main_v65 main_v66 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    unary main_v2 main_v67 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v66 main_v67 main_v68 (cmpf .oge : (⟨S8x65536x3, .f32⟩ : BufTy).Contents (Elt F) → (⟨S8x65536x3, .f32⟩ : BufTy).Contents (Elt F) → (⟨S8x65536x3, .i1⟩ : BufTy).Contents (Elt F)),
    unary main_arg0 main_v69 (broadcastInDim S1x65536x3 ![1, 2] bcast_S65536x3_S1x65536x3_1_2 : (⟨S65536x3, .f32⟩ : BufTy).Contents (Elt F) → (⟨S1x65536x3, .f32⟩ : BufTy).Contents (Elt F)),
    unary main_v69 main_v70 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    unary main_v5 main_v71 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v70 main_v71 main_v72 (cmpf .ole : (⟨S8x65536x3, .f32⟩ : BufTy).Contents (Elt F) → (⟨S8x65536x3, .f32⟩ : BufTy).Contents (Elt F) → (⟨S8x65536x3, .i1⟩ : BufTy).Contents (Elt F)),
    binary main_v68 main_v72 main_v73 (andi : (⟨S8x65536x3, .i1⟩ : BufTy).Contents (Elt F) → (⟨S8x65536x3, .i1⟩ : BufTy).Contents (Elt F) → (⟨S8x65536x3, .i1⟩ : BufTy).Contents (Elt F)),
    nullary main_c (constantI S_ 1 1#1),
    binary main_v73 main_c main_v74 ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)),
    TRef.nullary main_call0.v0 (iotaInDim S8x65536 32 0),
    TRef.nullary main_call0.c (constantI S_ 1 0#1),
    TRef.nullary main_call0.c_0 (constantI S_ 32 0#32),
    TRef.quaternary (.of main_v74) main_call0.v0 main_call0.c main_call0.c_0 main_call0.v1_0 (fun x y u v j => (Host.reduce2 reducer_argmax_i1_i32 x y u v reducesTo_S8x65536_S65536_d0 h_S_ j).1),
    TRef.quaternary (.of main_v74) main_call0.v0 main_call0.c main_call0.c_0 main_call0.v1_1 (fun x y u v j => (Host.reduce2 reducer_argmax_i1_i32 x y u v reducesTo_S8x65536_S65536_d0 h_S_ j).2),
    nullary main_c_5 (constantI S_ 1 0#1),
    binary main_v74 main_c_5 main_v76 ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)),
    unary main_v75 main_v77 (broadcastInDim S1x65536 ![1] bcast_S65536_S1x65536_1 : (⟨S65536, .i32⟩ : BufTy).Contents (Elt F) → (⟨S1x65536, .i32⟩ : BufTy).Contents (Elt F)),
    TRef.nullary main_call1.c (constantI S_ 32 0#32),
    TRef.unary main_call1.c main_call1.v0 (broadcastInDim S1x65536 ![] bcast_S_S1x65536),
    TRef.binary (.of main_v77) main_call1.v0 main_call1.v1 (cmpi .slt),
    TRef.nullary main_call1.c_0 (constantI S_ 32 8#32),
    TRef.unary main_call1.c_0 main_call1.v2 (broadcastInDim S1x65536 ![] bcast_S_S1x65536),
    TRef.binary (.of main_v77) main_call1.v2 main_call1.v3 addi,
    TRef.ternary main_call1.v1 main_call1.v3 (.of main_v77) main_call1.v4 select,
    TRef.reshape main_call1.v4 main_call1.v5 rfl shapeCasts_S1x65536_S1x65536x1,
    TRef.nullary main_call1.c_1 (constantI S1 32 7#32),
    TRef.nullary main_call1.c_2 (constantI S_ 32 0#32),
    TRef.unary main_call1.c_2 main_call1.v6 (broadcastInDim S1x65536x1 ![] bcast_S_S1x65536x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x65536x1 ![0, 1, 2] bcast_S1x1x1_S1x65536x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x65536x1_S1x65536_d2 h_S_),
    TRef.binary (.of main_v64) main_call1.v5 main_call1.v13 (fun x i => Host.gather gather_S8x65536_S1x65536x1_S1x65536_n_0_1_1_0_2_11 x i),
    TRef.nullary main_call1.cst (constant S_ .f32 0x7FC00000#32),
    TRef.unary main_call1.cst main_call1.v14 (broadcastInDim S1x65536 ![] bcast_S_S1x65536),
    TRef.ternary main_call1.v12 main_call1.v13 main_call1.v14 main_call1.v15 select,
    reshape main_v78 main_v79 rfl shapeCasts_S1x65536_S65536,
    nullary main_cst_6 (constant S_ .f32 0x00000000#32),
    TRef.unary (.of main_cst_6) main_call2.v0 id,
    TRef.unary main_call2.v0 main_call2.v1 (broadcastInDim S65536 ![] bcast_S_S65536),
    TRef.ternary (.of main_v76) (.of main_v79) main_call2.v1 main_call2.v2 select ]

/-- @main's operations, in order. -/
abbrev ops : List (HloOp τ sig (Elt F)) := ops0 ++ ops1

set_option maxRecDepth 8192 in
theorem main_part0_eq (c : Dev nD) : main_part0 (F := F) c = seq ops0 := rfl

set_option maxRecDepth 8192 in
set_option maxHeartbeats 4000000 in
/-- The callees' definitions unfolded at their calls and sequencing re-associated, the window is one chain of steps. -/
theorem main_part1_eq (c : Dev nD) : main_part1 (F := F) c = seq ops1 := by
  simp only [main_part1, fn_argmax.body, fn_take_along_axis.body, fn_where.body, seq, bind_assoc, pure_bind]

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., binary_bufs_sub .., unary_bufs_sub .., reshape_bufs_sub .., unary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., unary_bufs_sub .., binary_bufs_sub .., unary_bufs_sub .., unary_bufs_sub .., binary_bufs_sub .., reshape_bufs_sub .., unary_bufs_sub .., unary_bufs_sub .., unary_bufs_sub .., binary_bufs_sub .., unary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., unary_bufs_sub .., unary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
set_option maxHeartbeats 4000000 in
/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  What the reference program computes, as one function of its nine argument arrays, and the same cut into stages.

  `refOut` is @main's operations composed in their printed order, every intermediate tensor named after the buffer that
  holds it (the callees' values after their call's buffers).  The stages are the same operations grouped by what they
  compute: the boxes' corners; the normalised coordinates; the first layer; the three hidden layers; the output column
  with its bias; the box test; and the selection of the first holding box's value.  `refOut_eq`: `refOut` is the stages
  composed — both sides unfold to the same operations.
-/
import proofs.«176922_j5729486373507_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's result as a function of the argument arrays: its operations composed in order. -/
def refOut (r_arg0 : (⟨S65536x3, .f32⟩ : BufTy).Contents (Elt F)) (r_arg1 : (⟨S8x3x128, .f32⟩ : BufTy).Contents (Elt F)) (r_arg2 : (⟨S8x128, .f32⟩ : BufTy).Contents (Elt F)) (r_arg3 : (⟨S8x3x128x128, .f32⟩ : BufTy).Contents (Elt F)) (r_arg4 : (⟨S8x3x128, .f32⟩ : BufTy).Contents (Elt F)) (r_arg5 : (⟨S8x128x1, .f32⟩ : BufTy).Contents (Elt F)) (r_arg6 : (⟨S8x1, .f32⟩ : BufTy).Contents (Elt F)) (r_arg7 : (⟨S8x3, .f32⟩ : BufTy).Contents (Elt F)) (r_arg8 : (⟨S8x3x2, .f32⟩ : BufTy).Contents (Elt F)) :
    (⟨S65536, .f32⟩ : BufTy).Contents (Elt F) :=
  have r_v0 : (⟨S8x3x1, .f32⟩ : BufTy).Contents (Elt F) := ((extractStridedSlice S8x3x1 ![0, 0, 0] · slices_S8x3x2_S8x3x1_0_0_0) : (⟨S8x3x2, .f32⟩ : BufTy).Contents (Elt F) → (⟨S8x3x1, .f32⟩ : BufTy).Contents (Elt F)) r_arg8
  have r_v1 : (⟨S8x3, .f32⟩ : BufTy).Contents (Elt F) := shapeCast S8x3 r_v0 shapeCasts_S8x3x1_S8x3
  have r_v2 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_v1
  have r_v3 : (⟨S8x3x1, .f32⟩ : BufTy).Contents (Elt F) := ((extractStridedSlice S8x3x1 ![0, 0, 1] · slices_S8x3x2_S8x3x1_0_0_1) : (⟨S8x3x2, .f32⟩ : BufTy).Contents (Elt F) → (⟨S8x3x1, .f32⟩ : BufTy).Contents (Elt F)) r_arg8
  have r_v4 : (⟨S8x3, .f32⟩ : BufTy).Contents (Elt F) := shapeCast S8x3 r_v3 shapeCasts_S8x3x1_S8x3
  have r_v5 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_v4
  have r_v6 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v7 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v6
  have r_v8 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v2
  have r_v9 : (⟨S8x65536x3, .f32⟩ : BufTy).Contents (Elt F) := (subf : (⟨S8x65536x3, .f32⟩ : BufTy).Contents (Elt F) → (⟨S8x65536x3, .f32⟩ : BufTy).Contents (Elt F) → (⟨S8x65536x3, .f32⟩ : BufTy).Contents (Elt F)) r_v7 r_v8
  have r_cst : (⟨S_, .f32⟩ : BufTy).Contents (Elt F) := (constant S_ .f32 0x40000000#32)
  have r_v10 : (⟨S8x65536x3, .f32⟩ : BufTy).Contents (Elt F) := (broadcastInDim S8x65536x3 ![] bcast_S_S8x65536x3 : (⟨S_, .f32⟩ : BufTy).Contents (Elt F) → (⟨S8x65536x3, .f32⟩ : BufTy).Contents (Elt F)) r_cst
  have r_v11 : (⟨S8x65536x3, .f32⟩ : BufTy).Contents (Elt F) := (mulf : (⟨S8x65536x3, .f32⟩ : BufTy).Contents (Elt F) → (⟨S8x65536x3, .f32⟩ : BufTy).Contents (Elt F) → (⟨S8x65536x3, .f32⟩ : BufTy).Contents (Elt F)) r_v10 r_v9
  have r_v12 : (⟨S8x1x3, .f32⟩ : BufTy).Contents (Elt F) := (subf : (⟨S8x1x3, .f32⟩ : BufTy).Contents (Elt F) → (⟨S8x1x3, .f32⟩ : BufTy).Contents (Elt F) → (⟨S8x1x3, .f32⟩ : BufTy).Contents (Elt F)) r_v5 r_v2
  have r_v13 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v12
  have r_v14 : (⟨S8x65536x3, .f32⟩ : BufTy).Contents (Elt F) := (Host.divf : (⟨S8x65536x3, .f32⟩ : BufTy).Contents (Elt F) → (⟨S8x65536x3, .f32⟩ : BufTy).Contents (Elt F) → (⟨S8x65536x3, .f32⟩ : BufTy).Contents (Elt F)) r_v11 r_v13
  have r_cst_0 : (⟨S_, .f32⟩ : BufTy).Contents (Elt F) := (constant S_ .f32 0x3F800000#32)
  have r_v15 : (⟨S8x65536x3, .f32⟩ : BufTy).Contents (Elt F) := (broadcastInDim S8x65536x3 ![] bcast_S_S8x65536x3 : (⟨S_, .f32⟩ : BufTy).Contents (Elt F) → (⟨S8x65536x3, .f32⟩ : BufTy).Contents (Elt F)) r_cst_0
  have r_v16 : (⟨S8x65536x3, .f32⟩ : BufTy).Contents (Elt F) := (subf : (⟨S8x65536x3, .f32⟩ : BufTy).Contents (Elt F) → (⟨S8x65536x3, .f32⟩ : BufTy).Contents (Elt F) → (⟨S8x65536x3, .f32⟩ : BufTy).Contents (Elt F)) r_v14 r_v15
  have r_v17 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_arg7
  have r_v18 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v17
  have r_v19 : (⟨S8x65536x3, .f32⟩ : BufTy).Contents (Elt F) := (mulf : (⟨S8x65536x3, .f32⟩ : BufTy).Contents (Elt F) → (⟨S8x65536x3, .f32⟩ : BufTy).Contents (Elt F) → (⟨S8x65536x3, .f32⟩ : BufTy).Contents (Elt F)) r_v16 r_v18
  have r_v20 : (⟨S8x65536x128, .f32⟩ : BufTy).Contents (Elt F) := ((fun l r => Host.dotGeneral dot_S8x65536x3_S8x3x128_S8x65536x128_2_1_1_2_0_0 none l r) : (⟨S8x65536x3, .f32⟩ : BufTy).Contents (Elt F) → (⟨S8x3x128, .f32⟩ : BufTy).Contents (Elt F) → (⟨S8x65536x128, .f32⟩ : BufTy).Contents (Elt F)) r_v19 r_arg1
  have r_v21 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_arg2
  have r_v22 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v21
  have r_v23 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v20 r_v22
  have r_cst_1 : (⟨S_, .f32⟩ : BufTy).Contents (Elt F) := (constant S_ .f32 0x41F00000#32)
  have r_v24 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_1
  have r_v25 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v24 r_v23
  have r_v26 : (⟨S8x65536x128, .f32⟩ : BufTy).Contents (Elt F) := (Host.sin : (⟨S8x65536x128, .f32⟩ : BufTy).Contents (Elt F) → (⟨S8x65536x128, .f32⟩ : BufTy).Contents (Elt F)) r_v25
  have r_v27 : (⟨S8x1x128x128, .f32⟩ : BufTy).Contents (Elt F) := ((extractStridedSlice S8x1x128x128 ![0, 0, 0, 0] · slices_S8x3x128x128_S8x1x128x128_0_0_0_0) : (⟨S8x3x128x128, .f32⟩ : BufTy).Contents (Elt F) → (⟨S8x1x128x128, .f32⟩ : BufTy).Contents (Elt F)) r_arg3
  have r_v28 : (⟨S8x128x128, .f32⟩ : BufTy).Contents (Elt F) := shapeCast S8x128x128 r_v27 shapeCasts_S8x1x128x128_S8x128x128
  have r_v29 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v26 r_v28
  have r_v30 : (⟨S8x1x128, .f32⟩ : BufTy).Contents (Elt F) := ((extractStridedSlice S8x1x128 ![0, 0, 0] · slices_S8x3x128_S8x1x128_0_0_0) : (⟨S8x3x128, .f32⟩ : BufTy).Contents (Elt F) → (⟨S8x1x128, .f32⟩ : BufTy).Contents (Elt F)) r_arg4
  have r_v31 : (⟨S8x128, .f32⟩ : BufTy).Contents (Elt F) := shapeCast S8x128 r_v30 shapeCasts_S8x1x128_S8x128
  have r_v32 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v31
  have r_v33 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v32
  have r_v34 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v29 r_v33
  have r_cst_2 : (⟨S_, .f32⟩ : BufTy).Contents (Elt F) := (constant S_ .f32 0x41F00000#32)
  have r_v35 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_2
  have r_v36 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v35 r_v34
  have r_v37 : (⟨S8x65536x128, .f32⟩ : BufTy).Contents (Elt F) := (Host.sin : (⟨S8x65536x128, .f32⟩ : BufTy).Contents (Elt F) → (⟨S8x65536x128, .f32⟩ : BufTy).Contents (Elt F)) r_v36
  have r_v38 : (⟨S8x1x128x128, .f32⟩ : BufTy).Contents (Elt F) := ((extractStridedSlice S8x1x128x128 ![0, 1, 0, 0] · slices_S8x3x128x128_S8x1x128x128_0_1_0_0) : (⟨S8x3x128x128, .f32⟩ : BufTy).Contents (Elt F) → (⟨S8x1x128x128, .f32⟩ : BufTy).Contents (Elt F)) r_arg3
  have r_v39 : (⟨S8x128x128, .f32⟩ : BufTy).Contents (Elt F) := shapeCast S8x128x128 r_v38 shapeCasts_S8x1x128x128_S8x128x128
  have r_v40 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v37 r_v39
  have r_v41 : (⟨S8x1x128, .f32⟩ : BufTy).Contents (Elt F) := ((extractStridedSlice S8x1x128 ![0, 1, 0] · slices_S8x3x128_S8x1x128_0_1_0) : (⟨S8x3x128, .f32⟩ : BufTy).Contents (Elt F) → (⟨S8x1x128, .f32⟩ : BufTy).Contents (Elt F)) r_arg4
  have r_v42 : (⟨S8x128, .f32⟩ : BufTy).Contents (Elt F) := shapeCast S8x128 r_v41 shapeCasts_S8x1x128_S8x128
  have r_v43 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v42
  have r_v44 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v43
  have r_v45 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v40 r_v44
  have r_cst_3 : (⟨S_, .f32⟩ : BufTy).Contents (Elt F) := (constant S_ .f32 0x41F00000#32)
  have r_v46 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_3
  have r_v47 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v46 r_v45
  have r_v48 : (⟨S8x65536x128, .f32⟩ : BufTy).Contents (Elt F) := (Host.sin : (⟨S8x65536x128, .f32⟩ : BufTy).Contents (Elt F) → (⟨S8x65536x128, .f32⟩ : BufTy).Contents (Elt F)) r_v47
  have r_v49 : (⟨S8x1x128x128, .f32⟩ : BufTy).Contents (Elt F) := ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)) r_arg3
  have r_v50 : (⟨S8x128x128, .f32⟩ : BufTy).Contents (Elt F) := shapeCast S8x128x128 r_v49 shapeCasts_S8x1x128x128_S8x128x128
  have r_v51 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v48 r_v50
  have r_v52 : (⟨S8x1x128, .f32⟩ : BufTy).Contents (Elt F) := ((extractStridedSlice S8x1x128 ![0, 2, 0] · slices_S8x3x128_S8x1x128_0_2_0) : (⟨S8x3x128, .f32⟩ : BufTy).Contents (Elt F) → (⟨S8x1x128, .f32⟩ : BufTy).Contents (Elt F)) r_arg4
  have r_v53 : (⟨S8x128, .f32⟩ : BufTy).Contents (Elt F) := shapeCast S8x128 r_v52 shapeCasts_S8x1x128_S8x128
  have r_v54 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v53
  have r_v55 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v54
  have r_v56 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v51 r_v55
  have r_cst_4 : (⟨S_, .f32⟩ : BufTy).Contents (Elt F) := (constant S_ .f32 0x41F00000#32)
  have r_v57 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_4
  have r_v58 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v57 r_v56
  have r_v59 : (⟨S8x65536x128, .f32⟩ : BufTy).Contents (Elt F) := (Host.sin : (⟨S8x65536x128, .f32⟩ : BufTy).Contents (Elt F) → (⟨S8x65536x128, .f32⟩ : BufTy).Contents (Elt F)) r_v58
  have r_v60 : (⟨S8x65536x1, .f32⟩ : BufTy).Contents (Elt F) := ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)) r_v59 r_arg5
  have r_v61 : (⟨S8x1x1, .f32⟩ : BufTy).Contents (Elt F) := (broadcastInDim S8x1x1 ![0, 2] bcast_S8x1_S8x1x1_0_2 : (⟨S8x1, .f32⟩ : BufTy).Contents (Elt F) → (⟨S8x1x1, .f32⟩ : BufTy).Contents (Elt F)) r_arg6
  have r_v62 : (⟨S8x65536x1, .f32⟩ : BufTy).Contents (Elt F) := (broadcastInDim S8x65536x1 ![0, 1, 2] bcast_S8x1x1_S8x65536x1_0_1_2 : (⟨S8x1x1, .f32⟩ : BufTy).Contents (Elt F) → (⟨S8x65536x1, .f32⟩ : BufTy).Contents (Elt F)) r_v61
  have r_v63 : (⟨S8x65536x1, .f32⟩ : BufTy).Contents (Elt F) := (addf : (⟨S8x65536x1, .f32⟩ : BufTy).Contents (Elt F) → (⟨S8x65536x1, .f32⟩ : BufTy).Contents (Elt F) → (⟨S8x65536x1, .f32⟩ : BufTy).Contents (Elt F)) r_v60 r_v62
  have r_v64 : (⟨S8x65536, .f32⟩ : BufTy).Contents (Elt F) := shapeCast S8x65536 r_v63 shapeCasts_S8x65536x1_S8x65536
  have r_v65 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v66 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v65
  have r_v67 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v2
  have r_v68 : (⟨S8x65536x3, .i1⟩ : BufTy).Contents (Elt F) := (cmpf .oge : (⟨S8x65536x3, .f32⟩ : BufTy).Contents (Elt F) → (⟨S8x65536x3, .f32⟩ : BufTy).Contents (Elt F) → (⟨S8x65536x3, .i1⟩ : BufTy).Contents (Elt F)) r_v66 r_v67
  have r_v69 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v70 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v69
  have r_v71 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v5
  have r_v72 : (⟨S8x65536x3, .i1⟩ : BufTy).Contents (Elt F) := (cmpf .ole : (⟨S8x65536x3, .f32⟩ : BufTy).Contents (Elt F) → (⟨S8x65536x3, .f32⟩ : BufTy).Contents (Elt F) → (⟨S8x65536x3, .i1⟩ : BufTy).Contents (Elt F)) r_v70 r_v71
  have r_v73 : (⟨S8x65536x3, .i1⟩ : BufTy).Contents (Elt F) := (andi : (⟨S8x65536x3, .i1⟩ : BufTy).Contents (Elt F) → (⟨S8x65536x3, .i1⟩ : BufTy).Contents (Elt F) → (⟨S8x65536x3, .i1⟩ : BufTy).Contents (Elt F)) r_v68 r_v72
  have r_c : (⟨S_, .i1⟩ : BufTy).Contents (Elt F) := (constantI S_ 1 1#1)
  have r_v74 : (⟨S8x65536, .i1⟩ : BufTy).Contents (Elt F) := ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)) r_v73 r_c
  have r_call0_v0 : (⟨S8x65536, .i32⟩ : BufTy).Contents (Elt F) := (iotaInDim S8x65536 32 0)
  have r_call0_c : (⟨S_, .i1⟩ : BufTy).Contents (Elt F) := (constantI S_ 1 0#1)
  have r_call0_c_0 : (⟨S_, .i32⟩ : BufTy).Contents (Elt F) := (constantI S_ 32 0#32)
  have r_call0_v1_0 : (⟨S65536, .i1⟩ : BufTy).Contents (Elt F) := (fun x y u v j => (Host.reduce2 reducer_argmax_i1_i32 x y u v reducesTo_S8x65536_S65536_d0 h_S_ j).1) r_v74 r_call0_v0 r_call0_c r_call0_c_0
  have r_v75 : (⟨S65536, .i32⟩ : BufTy).Contents (Elt F) := (fun x y u v j => (Host.reduce2 reducer_argmax_i1_i32 x y u v reducesTo_S8x65536_S65536_d0 h_S_ j).2) r_v74 r_call0_v0 r_call0_c r_call0_c_0
  have r_c_5 : (⟨S_, .i1⟩ : BufTy).Contents (Elt F) := (constantI S_ 1 0#1)
  have r_v76 : (⟨S65536, .i1⟩ : BufTy).Contents (Elt F) := ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)) r_v74 r_c_5
  have r_v77 : (⟨S1x65536, .i32⟩ : BufTy).Contents (Elt F) := (broadcastInDim S1x65536 ![1] bcast_S65536_S1x65536_1 : (⟨S65536, .i32⟩ : BufTy).Contents (Elt F) → (⟨S1x65536, .i32⟩ : BufTy).Contents (Elt F)) r_v75
  have r_call1_c : (⟨S_, .i32⟩ : BufTy).Contents (Elt F) := (constantI S_ 32 0#32)
  have r_call1_v0 : (⟨S1x65536, .i32⟩ : BufTy).Contents (Elt F) := (broadcastInDim S1x65536 ![] bcast_S_S1x65536) r_call1_c
  have r_call1_v1 : (⟨S1x65536, .i1⟩ : BufTy).Contents (Elt F) := (cmpi .slt) r_v77 r_call1_v0
  have r_call1_c_0 : (⟨S_, .i32⟩ : BufTy).Contents (Elt F) := (constantI S_ 32 8#32)
  have r_call1_v2 : (⟨S1x65536, .i32⟩ : BufTy).Contents (Elt F) := (broadcastInDim S1x65536 ![] bcast_S_S1x65536) r_call1_c_0
  have r_call1_v3 : (⟨S1x65536, .i32⟩ : BufTy).Contents (Elt F) := addi r_v77 r_call1_v2
  have r_call1_v4 : (⟨S1x65536, .i32⟩ : BufTy).Contents (Elt F) := select r_call1_v1 r_call1_v3 r_v77
  have r_call1_v5 : (⟨S1x65536x1, .i32⟩ : BufTy).Contents (Elt F) := shapeCast S1x65536x1 r_call1_v4 shapeCasts_S1x65536_S1x65536x1
  have r_call1_c_1 : (⟨S1, .i32⟩ : BufTy).Contents (Elt F) := (constantI S1 32 7#32)
  have r_call1_c_2 : (⟨S_, .i32⟩ : BufTy).Contents (Elt F) := (constantI S_ 32 0#32)
  have r_call1_v6 : (⟨S1x65536x1, .i32⟩ : BufTy).Contents (Elt F) := (broadcastInDim S1x65536x1 ![] bcast_S_S1x65536x1) r_call1_c_2
  have r_call1_v7 : (⟨S1x65536x1, .i1⟩ : BufTy).Contents (Elt F) := (cmpi .sge) r_call1_v5 r_call1_v6
  have r_call1_v8 : (⟨S1x1x1, .i32⟩ : BufTy).Contents (Elt F) := (broadcastInDim S1x1x1 ![2] bcast_S1_S1x1x1_2) r_call1_c_1
  have r_call1_v9 : (⟨S1x65536x1, .i32⟩ : BufTy).Contents (Elt F) := (broadcastInDim S1x65536x1 ![0, 1, 2] bcast_S1x1x1_S1x65536x1_0_1_2) r_call1_v8
  have r_call1_v10 : (⟨S1x65536x1, .i1⟩ : BufTy).Contents (Elt F) := (cmpi .sle) r_call1_v5 r_call1_v9
  have r_call1_v11 : (⟨S1x65536x1, .i1⟩ : BufTy).Contents (Elt F) := andi r_call1_v7 r_call1_v10
  have r_call1_c_3 : (⟨S_, .i1⟩ : BufTy).Contents (Elt F) := (constantI S_ 1 1#1)
  have r_call1_v12 : (⟨S1x65536, .i1⟩ : BufTy).Contents (Elt F) := (fun x v => Host.reduce IntOp.andi x v reducesTo_S1x65536x1_S1x65536_d2 h_S_) r_call1_v11 r_call1_c_3
  have r_call1_v13 : (⟨S1x65536, .f32⟩ : BufTy).Contents (Elt F) := (fun x i => Host.gather gather_S8x65536_S1x65536x1_S1x65536_n_0_1_1_0_2_11 x i) r_v64 r_call1_v5
  have r_call1_cst : (⟨S_, .f32⟩ : BufTy).Contents (Elt F) := (constant S_ .f32 0x7FC00000#32)
  have r_call1_v14 : (⟨S1x65536, .f32⟩ : BufTy).Contents (Elt F) := (broadcastInDim S1x65536 ![] bcast_S_S1x65536) r_call1_cst
  have r_v78 : (⟨S1x65536, .f32⟩ : BufTy).Contents (Elt F) := select r_call1_v12 r_call1_v13 r_call1_v14
  have r_v79 : (⟨S65536, .f32⟩ : BufTy).Contents (Elt F) := shapeCast S65536 r_v78 shapeCasts_S1x65536_S65536
  have r_cst_6 : (⟨S_, .f32⟩ : BufTy).Contents (Elt F) := (constant S_ .f32 0x00000000#32)
  have r_call2_v0 : (⟨S_, .f32⟩ : BufTy).Contents (Elt F) := id r_cst_6
  have r_call2_v1 : (⟨S65536, .f32⟩ : BufTy).Contents (Elt F) := (broadcastInDim S65536 ![] bcast_S_S65536) r_call2_v0
  have r_v80 : (⟨S65536, .f32⟩ : BufTy).Contents (Elt F) := select r_v76 r_v79 r_call2_v1
  r_v80

/-- The boxes' low corners, `[8, 1, 3]`. -/
def refLo (r_arg8 : (⟨S8x3x2, .f32⟩ : BufTy).Contents (Elt F)) :
    (⟨S8x1x3, .f32⟩ : BufTy).Contents (Elt F) :=
  have r_v0 : (⟨S8x3x1, .f32⟩ : BufTy).Contents (Elt F) := ((extractStridedSlice S8x3x1 ![0, 0, 0] · slices_S8x3x2_S8x3x1_0_0_0) : (⟨S8x3x2, .f32⟩ : BufTy).Contents (Elt F) → (⟨S8x3x1, .f32⟩ : BufTy).Contents (Elt F)) r_arg8
  have r_v1 : (⟨S8x3, .f32⟩ : BufTy).Contents (Elt F) := shapeCast S8x3 r_v0 shapeCasts_S8x3x1_S8x3
  have r_v2 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_v1
  r_v2

/-- The boxes' high corners, `[8, 1, 3]`. -/
def refHi (r_arg8 : (⟨S8x3x2, .f32⟩ : BufTy).Contents (Elt F)) :
    (⟨S8x1x3, .f32⟩ : BufTy).Contents (Elt F) :=
  have r_v3 : (⟨S8x3x1, .f32⟩ : BufTy).Contents (Elt F) := ((extractStridedSlice S8x3x1 ![0, 0, 1] · slices_S8x3x2_S8x3x1_0_0_1) : (⟨S8x3x2, .f32⟩ : BufTy).Contents (Elt F) → (⟨S8x3x1, .f32⟩ : BufTy).Contents (Elt F)) r_arg8
  have r_v4 : (⟨S8x3, .f32⟩ : BufTy).Contents (Elt F) := shapeCast S8x3 r_v3 shapeCasts_S8x3x1_S8x3
  have r_v5 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_v4
  r_v5

/-- Every box's normalised coordinates of every point, `[8, 65536, 3]`. -/
def refXn (r_arg0 : (⟨S65536x3, .f32⟩ : BufTy).Contents (Elt F)) (r_arg7 : (⟨S8x3, .f32⟩ : BufTy).Contents (Elt F)) (r_v2 : (⟨S8x1x3, .f32⟩ : BufTy).Contents (Elt F)) (r_v5 : (⟨S8x1x3, .f32⟩ : BufTy).Contents (Elt F)) :
    (⟨S8x65536x3, .f32⟩ : BufTy).Contents (Elt F) :=
  have r_v6 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v7 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v6
  have r_v8 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v2
  have r_v9 : (⟨S8x65536x3, .f32⟩ : BufTy).Contents (Elt F) := (subf : (⟨S8x65536x3, .f32⟩ : BufTy).Contents (Elt F) → (⟨S8x65536x3, .f32⟩ : BufTy).Contents (Elt F) → (⟨S8x65536x3, .f32⟩ : BufTy).Contents (Elt F)) r_v7 r_v8
  have r_cst : (⟨S_, .f32⟩ : BufTy).Contents (Elt F) := (constant S_ .f32 0x40000000#32)
  have r_v10 : (⟨S8x65536x3, .f32⟩ : BufTy).Contents (Elt F) := (broadcastInDim S8x65536x3 ![] bcast_S_S8x65536x3 : (⟨S_, .f32⟩ : BufTy).Contents (Elt F) → (⟨S8x65536x3, .f32⟩ : BufTy).Contents (Elt F)) r_cst
  have r_v11 : (⟨S8x65536x3, .f32⟩ : BufTy).Contents (Elt F) := (mulf : (⟨S8x65536x3, .f32⟩ : BufTy).Contents (Elt F) → (⟨S8x65536x3, .f32⟩ : BufTy).Contents (Elt F) → (⟨S8x65536x3, .f32⟩ : BufTy).Contents (Elt F)) r_v10 r_v9
  have r_v12 : (⟨S8x1x3, .f32⟩ : BufTy).Contents (Elt F) := (subf : (⟨S8x1x3, .f32⟩ : BufTy).Contents (Elt F) → (⟨S8x1x3, .f32⟩ : BufTy).Contents (Elt F) → (⟨S8x1x3, .f32⟩ : BufTy).Contents (Elt F)) r_v5 r_v2
  have r_v13 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v12
  have r_v14 : (⟨S8x65536x3, .f32⟩ : BufTy).Contents (Elt F) := (Host.divf : (⟨S8x65536x3, .f32⟩ : BufTy).Contents (Elt F) → (⟨S8x65536x3, .f32⟩ : BufTy).Contents (Elt F) → (⟨S8x65536x3, .f32⟩ : BufTy).Contents (Elt F)) r_v11 r_v13
  have r_cst_0 : (⟨S_, .f32⟩ : BufTy).Contents (Elt F) := (constant S_ .f32 0x3F800000#32)
  have r_v15 : (⟨S8x65536x3, .f32⟩ : BufTy).Contents (Elt F) := (broadcastInDim S8x65536x3 ![] bcast_S_S8x65536x3 : (⟨S_, .f32⟩ : BufTy).Contents (Elt F) → (⟨S8x65536x3, .f32⟩ : BufTy).Contents (Elt F)) r_cst_0
  have r_v16 : (⟨S8x65536x3, .f32⟩ : BufTy).Contents (Elt F) := (subf : (⟨S8x65536x3, .f32⟩ : BufTy).Contents (Elt F) → (⟨S8x65536x3, .f32⟩ : BufTy).Contents (Elt F) → (⟨S8x65536x3, .f32⟩ : BufTy).Contents (Elt F)) r_v14 r_v15
  have r_v17 : (⟨S8x1x3, .f32⟩ : BufTy).Contents (Elt F) := (broadcastInDim S8x1x3 ![0, 2] bcast_S8x3_S8x1x3_0_2 : (⟨S8x3, .f32⟩ : BufTy).Contents (Elt F) → (⟨S8x1x3, .f32⟩ : BufTy).Contents (Elt F)) r_arg7
  have r_v18 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v17
  have r_v19 : (⟨S8x65536x3, .f32⟩ : BufTy).Contents (Elt F) := (mulf : (⟨S8x65536x3, .f32⟩ : BufTy).Contents (Elt F) → (⟨S8x65536x3, .f32⟩ : BufTy).Contents (Elt F) → (⟨S8x65536x3, .f32⟩ : BufTy).Contents (Elt F)) r_v16 r_v18
  r_v19

/-- Every box's first layer at every point, `[8, 65536, 128]`. -/
def refL0 (r_v19 : (⟨S8x65536x3, .f32⟩ : BufTy).Contents (Elt F)) (r_arg1 : (⟨S8x3x128, .f32⟩ : BufTy).Contents (Elt F)) (r_arg2 : (⟨S8x128, .f32⟩ : BufTy).Contents (Elt F)) :
    (⟨S8x65536x128, .f32⟩ : BufTy).Contents (Elt F) :=
  have r_v20 : (⟨S8x65536x128, .f32⟩ : BufTy).Contents (Elt F) := ((fun l r => Host.dotGeneral dot_S8x65536x3_S8x3x128_S8x65536x128_2_1_1_2_0_0 none l r) : (⟨S8x65536x3, .f32⟩ : BufTy).Contents (Elt F) → (⟨S8x3x128, .f32⟩ : BufTy).Contents (Elt F) → (⟨S8x65536x128, .f32⟩ : BufTy).Contents (Elt F)) r_v19 r_arg1
  have r_v21 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_arg2
  have r_v22 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v21
  have r_v23 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v20 r_v22
  have r_cst_1 : (⟨S_, .f32⟩ : BufTy).Contents (Elt F) := (constant S_ .f32 0x41F00000#32)
  have r_v24 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_1
  have r_v25 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v24 r_v23
  have r_v26 : (⟨S8x65536x128, .f32⟩ : BufTy).Contents (Elt F) := (Host.sin : (⟨S8x65536x128, .f32⟩ : BufTy).Contents (Elt F) → (⟨S8x65536x128, .f32⟩ : BufTy).Contents (Elt F)) r_v25
  r_v26

/-- Hidden layer 0 applied to the layer before it. -/
def refL1 (r_v26 : (⟨S8x65536x128, .f32⟩ : BufTy).Contents (Elt F)) (r_arg3 : (⟨S8x3x128x128, .f32⟩ : BufTy).Contents (Elt F)) (r_arg4 : (⟨S8x3x128, .f32⟩ : BufTy).Contents (Elt F)) :
    (⟨S8x65536x128, .f32⟩ : BufTy).Contents (Elt F) :=
  have r_v27 : (⟨S8x1x128x128, .f32⟩ : BufTy).Contents (Elt F) := ((extractStridedSlice S8x1x128x128 ![0, 0, 0, 0] · slices_S8x3x128x128_S8x1x128x128_0_0_0_0) : (⟨S8x3x128x128, .f32⟩ : BufTy).Contents (Elt F) → (⟨S8x1x128x128, .f32⟩ : BufTy).Contents (Elt F)) r_arg3
  have r_v28 : (⟨S8x128x128, .f32⟩ : BufTy).Contents (Elt F) := shapeCast S8x128x128 r_v27 shapeCasts_S8x1x128x128_S8x128x128
  have r_v29 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v26 r_v28
  have r_v30 : (⟨S8x1x128, .f32⟩ : BufTy).Contents (Elt F) := ((extractStridedSlice S8x1x128 ![0, 0, 0] · slices_S8x3x128_S8x1x128_0_0_0) : (⟨S8x3x128, .f32⟩ : BufTy).Contents (Elt F) → (⟨S8x1x128, .f32⟩ : BufTy).Contents (Elt F)) r_arg4
  have r_v31 : (⟨S8x128, .f32⟩ : BufTy).Contents (Elt F) := shapeCast S8x128 r_v30 shapeCasts_S8x1x128_S8x128
  have r_v32 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v31
  have r_v33 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v32
  have r_v34 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v29 r_v33
  have r_cst_2 : (⟨S_, .f32⟩ : BufTy).Contents (Elt F) := (constant S_ .f32 0x41F00000#32)
  have r_v35 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_2
  have r_v36 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v35 r_v34
  have r_v37 : (⟨S8x65536x128, .f32⟩ : BufTy).Contents (Elt F) := (Host.sin : (⟨S8x65536x128, .f32⟩ : BufTy).Contents (Elt F) → (⟨S8x65536x128, .f32⟩ : BufTy).Contents (Elt F)) r_v36
  r_v37

/-- Hidden layer 1 applied to the layer before it. -/
def refL2 (r_v37 : (⟨S8x65536x128, .f32⟩ : BufTy).Contents (Elt F)) (r_arg3 : (⟨S8x3x128x128, .f32⟩ : BufTy).Contents (Elt F)) (r_arg4 : (⟨S8x3x128, .f32⟩ : BufTy).Contents (Elt F)) :
    (⟨S8x65536x128, .f32⟩ : BufTy).Contents (Elt F) :=
  have r_v38 : (⟨S8x1x128x128, .f32⟩ : BufTy).Contents (Elt F) := ((extractStridedSlice S8x1x128x128 ![0, 1, 0, 0] · slices_S8x3x128x128_S8x1x128x128_0_1_0_0) : (⟨S8x3x128x128, .f32⟩ : BufTy).Contents (Elt F) → (⟨S8x1x128x128, .f32⟩ : BufTy).Contents (Elt F)) r_arg3
  have r_v39 : (⟨S8x128x128, .f32⟩ : BufTy).Contents (Elt F) := shapeCast S8x128x128 r_v38 shapeCasts_S8x1x128x128_S8x128x128
  have r_v40 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v37 r_v39
  have r_v41 : (⟨S8x1x128, .f32⟩ : BufTy).Contents (Elt F) := ((extractStridedSlice S8x1x128 ![0, 1, 0] · slices_S8x3x128_S8x1x128_0_1_0) : (⟨S8x3x128, .f32⟩ : BufTy).Contents (Elt F) → (⟨S8x1x128, .f32⟩ : BufTy).Contents (Elt F)) r_arg4
  have r_v42 : (⟨S8x128, .f32⟩ : BufTy).Contents (Elt F) := shapeCast S8x128 r_v41 shapeCasts_S8x1x128_S8x128
  have r_v43 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v42
  have r_v44 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v43
  have r_v45 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v40 r_v44
  have r_cst_3 : (⟨S_, .f32⟩ : BufTy).Contents (Elt F) := (constant S_ .f32 0x41F00000#32)
  have r_v46 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_3
  have r_v47 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v46 r_v45
  have r_v48 : (⟨S8x65536x128, .f32⟩ : BufTy).Contents (Elt F) := (Host.sin : (⟨S8x65536x128, .f32⟩ : BufTy).Contents (Elt F) → (⟨S8x65536x128, .f32⟩ : BufTy).Contents (Elt F)) r_v47
  r_v48

/-- Hidden layer 2 applied to the layer before it. -/
def refL3 (r_v48 : (⟨S8x65536x128, .f32⟩ : BufTy).Contents (Elt F)) (r_arg3 : (⟨S8x3x128x128, .f32⟩ : BufTy).Contents (Elt F)) (r_arg4 : (⟨S8x3x128, .f32⟩ : BufTy).Contents (Elt F)) :
    (⟨S8x65536x128, .f32⟩ : BufTy).Contents (Elt F) :=
  have r_v49 : (⟨S8x1x128x128, .f32⟩ : BufTy).Contents (Elt F) := ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)) r_arg3
  have r_v50 : (⟨S8x128x128, .f32⟩ : BufTy).Contents (Elt F) := shapeCast S8x128x128 r_v49 shapeCasts_S8x1x128x128_S8x128x128
  have r_v51 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v48 r_v50
  have r_v52 : (⟨S8x1x128, .f32⟩ : BufTy).Contents (Elt F) := ((extractStridedSlice S8x1x128 ![0, 2, 0] · slices_S8x3x128_S8x1x128_0_2_0) : (⟨S8x3x128, .f32⟩ : BufTy).Contents (Elt F) → (⟨S8x1x128, .f32⟩ : BufTy).Contents (Elt F)) r_arg4
  have r_v53 : (⟨S8x128, .f32⟩ : BufTy).Contents (Elt F) := shapeCast S8x128 r_v52 shapeCasts_S8x1x128_S8x128
  have r_v54 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v53
  have r_v55 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v54
  have r_v56 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v51 r_v55
  have r_cst_4 : (⟨S_, .f32⟩ : BufTy).Contents (Elt F) := (constant S_ .f32 0x41F00000#32)
  have r_v57 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_4
  have r_v58 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v57 r_v56
  have r_v59 : (⟨S8x65536x128, .f32⟩ : BufTy).Contents (Elt F) := (Host.sin : (⟨S8x65536x128, .f32⟩ : BufTy).Contents (Elt F) → (⟨S8x65536x128, .f32⟩ : BufTy).Contents (Elt F)) r_v58
  r_v59

/-- Every box's value at every point, `[8, 65536]`. -/
def refTop (r_v59 : (⟨S8x65536x128, .f32⟩ : BufTy).Contents (Elt F)) (r_arg5 : (⟨S8x128x1, .f32⟩ : BufTy).Contents (Elt F)) (r_arg6 : (⟨S8x1, .f32⟩ : BufTy).Contents (Elt F)) :
    (⟨S8x65536, .f32⟩ : BufTy).Contents (Elt F) :=
  have r_v60 : (⟨S8x65536x1, .f32⟩ : BufTy).Contents (Elt F) := ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)) r_v59 r_arg5
  have r_v61 : (⟨S8x1x1, .f32⟩ : BufTy).Contents (Elt F) := (broadcastInDim S8x1x1 ![0, 2] bcast_S8x1_S8x1x1_0_2 : (⟨S8x1, .f32⟩ : BufTy).Contents (Elt F) → (⟨S8x1x1, .f32⟩ : BufTy).Contents (Elt F)) r_arg6
  have r_v62 : (⟨S8x65536x1, .f32⟩ : BufTy).Contents (Elt F) := (broadcastInDim S8x65536x1 ![0, 1, 2] bcast_S8x1x1_S8x65536x1_0_1_2 : (⟨S8x1x1, .f32⟩ : BufTy).Contents (Elt F) → (⟨S8x65536x1, .f32⟩ : BufTy).Contents (Elt F)) r_v61
  have r_v63 : (⟨S8x65536x1, .f32⟩ : BufTy).Contents (Elt F) := (addf : (⟨S8x65536x1, .f32⟩ : BufTy).Contents (Elt F) → (⟨S8x65536x1, .f32⟩ : BufTy).Contents (Elt F) → (⟨S8x65536x1, .f32⟩ : BufTy).Contents (Elt F)) r_v60 r_v62
  have r_v64 : (⟨S8x65536, .f32⟩ : BufTy).Contents (Elt F) := shapeCast S8x65536 r_v63 shapeCasts_S8x65536x1_S8x65536
  r_v64

/-- Every box's test of every point, `[8, 65536]` bits. -/
def refMask (r_arg0 : (⟨S65536x3, .f32⟩ : BufTy).Contents (Elt F)) (r_v2 : (⟨S8x1x3, .f32⟩ : BufTy).Contents (Elt F)) (r_v5 : (⟨S8x1x3, .f32⟩ : BufTy).Contents (Elt F)) :
    (⟨S8x65536, .i1⟩ : BufTy).Contents (Elt F) :=
  have r_v65 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v66 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v65
  have r_v67 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v2
  have r_v68 : (⟨S8x65536x3, .i1⟩ : BufTy).Contents (Elt F) := (cmpf .oge : (⟨S8x65536x3, .f32⟩ : BufTy).Contents (Elt F) → (⟨S8x65536x3, .f32⟩ : BufTy).Contents (Elt F) → (⟨S8x65536x3, .i1⟩ : BufTy).Contents (Elt F)) r_v66 r_v67
  have r_v69 : (⟨S1x65536x3, .f32⟩ : BufTy).Contents (Elt F) := (broadcastInDim S1x65536x3 ![1, 2] bcast_S65536x3_S1x65536x3_1_2 : (⟨S65536x3, .f32⟩ : BufTy).Contents (Elt F) → (⟨S1x65536x3, .f32⟩ : BufTy).Contents (Elt F)) r_arg0
  have r_v70 : (⟨S8x65536x3, .f32⟩ : BufTy).Contents (Elt F) := (broadcastInDim S8x65536x3 ![0, 1, 2] bcast_S1x65536x3_S8x65536x3_0_1_2 : (⟨S1x65536x3, .f32⟩ : BufTy).Contents (Elt F) → (⟨S8x65536x3, .f32⟩ : BufTy).Contents (Elt F)) r_v69
  have r_v71 : (⟨S8x65536x3, .f32⟩ : BufTy).Contents (Elt F) := (broadcastInDim S8x65536x3 ![0, 1, 2] bcast_S8x1x3_S8x65536x3_0_1_2 : (⟨S8x1x3, .f32⟩ : BufTy).Contents (Elt F) → (⟨S8x65536x3, .f32⟩ : BufTy).Contents (Elt F)) r_v5
  have r_v72 : (⟨S8x65536x3, .i1⟩ : BufTy).Contents (Elt F) := (cmpf .ole : (⟨S8x65536x3, .f32⟩ : BufTy).Contents (Elt F) → (⟨S8x65536x3, .f32⟩ : BufTy).Contents (Elt F) → (⟨S8x65536x3, .i1⟩ : BufTy).Contents (Elt F)) r_v70 r_v71
  have r_v73 : (⟨S8x65536x3, .i1⟩ : BufTy).Contents (Elt F) := (andi : (⟨S8x65536x3, .i1⟩ : BufTy).Contents (Elt F) → (⟨S8x65536x3, .i1⟩ : BufTy).Contents (Elt F) → (⟨S8x65536x3, .i1⟩ : BufTy).Contents (Elt F)) r_v68 r_v72
  have r_c : (⟨S_, .i1⟩ : BufTy).Contents (Elt F) := (constantI S_ 1 1#1)
  have r_v74 : (⟨S8x65536, .i1⟩ : BufTy).Contents (Elt F) := ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)) r_v73 r_c
  r_v74

/-- The selection: the arg-max of the bits over the boxes (the first box holding the point), the value taken at that box, zero where no box holds the point. -/
def refSel (r_v64 : (⟨S8x65536, .f32⟩ : BufTy).Contents (Elt F)) (r_v74 : (⟨S8x65536, .i1⟩ : BufTy).Contents (Elt F)) :
    (⟨S65536, .f32⟩ : BufTy).Contents (Elt F) :=
  have r_call0_v0 : (⟨S8x65536, .i32⟩ : BufTy).Contents (Elt F) := (iotaInDim S8x65536 32 0)
  have r_call0_c : (⟨S_, .i1⟩ : BufTy).Contents (Elt F) := (constantI S_ 1 0#1)
  have r_call0_c_0 : (⟨S_, .i32⟩ : BufTy).Contents (Elt F) := (constantI S_ 32 0#32)
  have r_call0_v1_0 : (⟨S65536, .i1⟩ : BufTy).Contents (Elt F) := (fun x y u v j => (Host.reduce2 reducer_argmax_i1_i32 x y u v reducesTo_S8x65536_S65536_d0 h_S_ j).1) r_v74 r_call0_v0 r_call0_c r_call0_c_0
  have r_v75 : (⟨S65536, .i32⟩ : BufTy).Contents (Elt F) := (fun x y u v j => (Host.reduce2 reducer_argmax_i1_i32 x y u v reducesTo_S8x65536_S65536_d0 h_S_ j).2) r_v74 r_call0_v0 r_call0_c r_call0_c_0
  have r_c_5 : (⟨S_, .i1⟩ : BufTy).Contents (Elt F) := (constantI S_ 1 0#1)
  have r_v76 : (⟨S65536, .i1⟩ : BufTy).Contents (Elt F) := ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)) r_v74 r_c_5
  have r_v77 : (⟨S1x65536, .i32⟩ : BufTy).Contents (Elt F) := (broadcastInDim S1x65536 ![1] bcast_S65536_S1x65536_1 : (⟨S65536, .i32⟩ : BufTy).Contents (Elt F) → (⟨S1x65536, .i32⟩ : BufTy).Contents (Elt F)) r_v75
  have r_call1_c : (⟨S_, .i32⟩ : BufTy).Contents (Elt F) := (constantI S_ 32 0#32)
  have r_call1_v0 : (⟨S1x65536, .i32⟩ : BufTy).Contents (Elt F) := (broadcastInDim S1x65536 ![] bcast_S_S1x65536) r_call1_c
  have r_call1_v1 : (⟨S1x65536, .i1⟩ : BufTy).Contents (Elt F) := (cmpi .slt) r_v77 r_call1_v0
  have r_call1_c_0 : (⟨S_, .i32⟩ : BufTy).Contents (Elt F) := (constantI S_ 32 8#32)
  have r_call1_v2 : (⟨S1x65536, .i32⟩ : BufTy).Contents (Elt F) := (broadcastInDim S1x65536 ![] bcast_S_S1x65536) r_call1_c_0
  have r_call1_v3 : (⟨S1x65536, .i32⟩ : BufTy).Contents (Elt F) := addi r_v77 r_call1_v2
  have r_call1_v4 : (⟨S1x65536, .i32⟩ : BufTy).Contents (Elt F) := select r_call1_v1 r_call1_v3 r_v77
  have r_call1_v5 : (⟨S1x65536x1, .i32⟩ : BufTy).Contents (Elt F) := shapeCast S1x65536x1 r_call1_v4 shapeCasts_S1x65536_S1x65536x1
  have r_call1_c_1 : (⟨S1, .i32⟩ : BufTy).Contents (Elt F) := (constantI S1 32 7#32)
  have r_call1_c_2 : (⟨S_, .i32⟩ : BufTy).Contents (Elt F) := (constantI S_ 32 0#32)
  have r_call1_v6 : (⟨S1x65536x1, .i32⟩ : BufTy).Contents (Elt F) := (broadcastInDim S1x65536x1 ![] bcast_S_S1x65536x1) r_call1_c_2
  have r_call1_v7 : (⟨S1x65536x1, .i1⟩ : BufTy).Contents (Elt F) := (cmpi .sge) r_call1_v5 r_call1_v6
  have r_call1_v8 : (⟨S1x1x1, .i32⟩ : BufTy).Contents (Elt F) := (broadcastInDim S1x1x1 ![2] bcast_S1_S1x1x1_2) r_call1_c_1
  have r_call1_v9 : (⟨S1x65536x1, .i32⟩ : BufTy).Contents (Elt F) := (broadcastInDim S1x65536x1 ![0, 1, 2] bcast_S1x1x1_S1x65536x1_0_1_2) r_call1_v8
  have r_call1_v10 : (⟨S1x65536x1, .i1⟩ : BufTy).Contents (Elt F) := (cmpi .sle) r_call1_v5 r_call1_v9
  have r_call1_v11 : (⟨S1x65536x1, .i1⟩ : BufTy).Contents (Elt F) := andi r_call1_v7 r_call1_v10
  have r_call1_c_3 : (⟨S_, .i1⟩ : BufTy).Contents (Elt F) := (constantI S_ 1 1#1)
  have r_call1_v12 : (⟨S1x65536, .i1⟩ : BufTy).Contents (Elt F) := (fun x v => Host.reduce IntOp.andi x v reducesTo_S1x65536x1_S1x65536_d2 h_S_) r_call1_v11 r_call1_c_3
  have r_call1_v13 : (⟨S1x65536, .f32⟩ : BufTy).Contents (Elt F) := (fun x i => Host.gather gather_S8x65536_S1x65536x1_S1x65536_n_0_1_1_0_2_11 x i) r_v64 r_call1_v5
  have r_call1_cst : (⟨S_, .f32⟩ : BufTy).Contents (Elt F) := (constant S_ .f32 0x7FC00000#32)
  have r_call1_v14 : (⟨S1x65536, .f32⟩ : BufTy).Contents (Elt F) := (broadcastInDim S1x65536 ![] bcast_S_S1x65536) r_call1_cst
  have r_v78 : (⟨S1x65536, .f32⟩ : BufTy).Contents (Elt F) := select r_call1_v12 r_call1_v13 r_call1_v14
  have r_v79 : (⟨S65536, .f32⟩ : BufTy).Contents (Elt F) := shapeCast S65536 r_v78 shapeCasts_S1x65536_S65536
  have r_cst_6 : (⟨S_, .f32⟩ : BufTy).Contents (Elt F) := (constant S_ .f32 0x00000000#32)
  have r_call2_v0 : (⟨S_, .f32⟩ : BufTy).Contents (Elt F) := id r_cst_6
  have r_call2_v1 : (⟨S65536, .f32⟩ : BufTy).Contents (Elt F) := (broadcastInDim S65536 ![] bcast_S_S65536) r_call2_v0
  have r_v80 : (⟨S65536, .f32⟩ : BufTy).Contents (Elt F) := select r_v76 r_v79 r_call2_v1
  r_v80

/-- Hidden layer 2's contracted sum (the part computed before the printed cut). -/
def refL3a (r_v48 : (⟨S8x65536x128, .f32⟩ : BufTy).Contents (Elt F)) (r_arg3 : (⟨S8x3x128x128, .f32⟩ : BufTy).Contents (Elt F)) :
    (⟨S8x65536x128, .f32⟩ : BufTy).Contents (Elt F) :=
  have r_v49 : (⟨S8x1x128x128, .f32⟩ : BufTy).Contents (Elt F) := ((extractStridedSlice S8x1x128x128 ![0, 2, 0, 0] · slices_S8x3x128x128_S8x1x128x128_0_2_0_0) : (⟨S8x3x128x128, .f32⟩ : BufTy).Contents (Elt F) → (⟨S8x1x128x128, .f32⟩ : BufTy).Contents (Elt F)) r_arg3
  have r_v50 : (⟨S8x128x128, .f32⟩ : BufTy).Contents (Elt F) := shapeCast S8x128x128 r_v49 shapeCasts_S8x1x128x128_S8x128x128
  have r_v51 : (⟨S8x65536x128, .f32⟩ : BufTy).Contents (Elt F) := ((fun l r => Host.dotGeneral dot_S8x65536x128_S8x128x128_S8x65536x128_2_1_1_2_0_0 none l r) : (⟨S8x65536x128, .f32⟩ : BufTy).Contents (Elt F) → (⟨S8x128x128, .f32⟩ : BufTy).Contents (Elt F) → (⟨S8x65536x128, .f32⟩ : BufTy).Contents (Elt F)) r_v48 r_v50
  r_v51

/-- Hidden layer 2's bias as `[8, 1, 128]`. -/
def refL3b (r_arg4 : (⟨S8x3x128, .f32⟩ : BufTy).Contents (Elt F)) :
    (⟨S8x1x128, .f32⟩ : BufTy).Contents (Elt F) :=
  have r_v52 : (⟨S8x1x128, .f32⟩ : BufTy).Contents (Elt F) := ((extractStridedSlice S8x1x128 ![0, 2, 0] · slices_S8x3x128_S8x1x128_0_2_0) : (⟨S8x3x128, .f32⟩ : BufTy).Contents (Elt F) → (⟨S8x1x128, .f32⟩ : BufTy).Contents (Elt F)) r_arg4
  have r_v53 : (⟨S8x128, .f32⟩ : BufTy).Contents (Elt F) := shapeCast S8x128 r_v52 shapeCasts_S8x1x128_S8x128
  have r_v54 : (⟨S8x1x128, .f32⟩ : BufTy).Contents (Elt F) := (broadcastInDim S8x1x128 ![0, 2] bcast_S8x128_S8x1x128_0_2 : (⟨S8x128, .f32⟩ : BufTy).Contents (Elt F) → (⟨S8x1x128, .f32⟩ : BufTy).Contents (Elt F)) r_v53
  r_v54

/-- Hidden layer 2 from its contracted sum and its bias. -/
def refL3c (r_v51 : (⟨S8x65536x128, .f32⟩ : BufTy).Contents (Elt F)) (r_v54 : (⟨S8x1x128, .f32⟩ : BufTy).Contents (Elt F)) :
    (⟨S8x65536x128, .f32⟩ : BufTy).Contents (Elt F) :=
  have r_v55 : (⟨S8x65536x128, .f32⟩ : BufTy).Contents (Elt F) := (broadcastInDim S8x65536x128 ![0, 1, 2] bcast_S8x1x128_S8x65536x128_0_1_2 : (⟨S8x1x128, .f32⟩ : BufTy).Contents (Elt F) → (⟨S8x65536x128, .f32⟩ : BufTy).Contents (Elt F)) r_v54
  have r_v56 : (⟨S8x65536x128, .f32⟩ : BufTy).Contents (Elt F) := (addf : (⟨S8x65536x128, .f32⟩ : BufTy).Contents (Elt F) → (⟨S8x65536x128, .f32⟩ : BufTy).Contents (Elt F) → (⟨S8x65536x128, .f32⟩ : BufTy).Contents (Elt F)) r_v51 r_v55
  have r_cst_4 : (⟨S_, .f32⟩ : BufTy).Contents (Elt F) := (constant S_ .f32 0x41F00000#32)
  have r_v57 : (⟨S8x65536x128, .f32⟩ : BufTy).Contents (Elt F) := (broadcastInDim S8x65536x128 ![] bcast_S_S8x65536x128 : (⟨S_, .f32⟩ : BufTy).Contents (Elt F) → (⟨S8x65536x128, .f32⟩ : BufTy).Contents (Elt F)) r_cst_4
  have r_v58 : (⟨S8x65536x128, .f32⟩ : BufTy).Contents (Elt F) := (mulf : (⟨S8x65536x128, .f32⟩ : BufTy).Contents (Elt F) → (⟨S8x65536x128, .f32⟩ : BufTy).Contents (Elt F) → (⟨S8x65536x128, .f32⟩ : BufTy).Contents (Elt F)) r_v57 r_v56
  have r_v59 : (⟨S8x65536x128, .f32⟩ : BufTy).Contents (Elt F) := (Host.sin : (⟨S8x65536x128, .f32⟩ : BufTy).Contents (Elt F) → (⟨S8x65536x128, .f32⟩ : BufTy).Contents (Elt F)) r_v58
  r_v59

/-- The reference's result is the stages composed. -/
theorem refOut_eq (r_arg0 : (⟨S65536x3, .f32⟩ : BufTy).Contents (Elt F)) (r_arg1 : (⟨S8x3x128, .f32⟩ : BufTy).Contents (Elt F)) (r_arg2 : (⟨S8x128, .f32⟩ : BufTy).Contents (Elt F)) (r_arg3 : (⟨S8x3x128x128, .f32⟩ : BufTy).Contents (Elt F)) (r_arg4 : (⟨S8x3x128, .f32⟩ : BufTy).Contents (Elt F)) (r_arg5 : (⟨S8x128x1, .f32⟩ : BufTy).Contents (Elt F)) (r_arg6 : (⟨S8x1, .f32⟩ : BufTy).Contents (Elt F)) (r_arg7 : (⟨S8x3, .f32⟩ : BufTy).Contents (Elt F)) (r_arg8 : (⟨S8x3x2, .f32⟩ : BufTy).Contents (Elt F)) :
    refOut r_arg0 r_arg1 r_arg2 r_arg3 r_arg4 r_arg5 r_arg6 r_arg7 r_arg8 =
      refSel (refTop (refL3 (refL2 (refL1 (refL0 (refXn r_arg0 r_arg7 (refLo r_arg8) (refHi r_arg8)) r_arg1 r_arg2) r_arg3 r_arg4) r_arg3 r_arg4) r_arg3 r_arg4) r_arg5 r_arg6) (refMask r_arg0 (refLo r_arg8) (refHi r_arg8)) := rfl

/-- Hidden layer 2 is its contracted sum and its bias put together. -/
theorem refL3_split (r_v48 : (⟨S8x65536x128, .f32⟩ : BufTy).Contents (Elt F)) (r_arg3 : (⟨S8x3x128x128, .f32⟩ : BufTy).Contents (Elt F)) (r_arg4 : (⟨S8x3x128, .f32⟩ : BufTy).Contents (Elt F)) :
    refL3 r_v48 r_arg3 r_arg4 = refL3c (refL3a r_v48 r_arg3) (refL3b r_arg4) := rfl

end Cert.ReferenceIdeal.RefRun

end
-- ==== Proof.RefOut.lean ====
/-
  The fold of the reference's operation list at the result buffer is `refOut` of the arguments.

  Window by window: after the first window the corners' buffers hold `refLo` / `refHi` of `boxes`, hidden layer 2's
  contracted sum and its bias their stage functions, and the arguments what they held; the second window's result is the
  remaining stages of those seven buffers (its selection tail, the three calls, taken apart from the rest).  Each operation's result at its own buffer is its function of its operands'
  buffers and at every other buffer what was there; the reductions and the gather stay folded: no equation looks inside
  them.  `keep`: a buffer neither window writes keeps its contents.
-/
import proofs.«176922_j5729486373507_1_alg».proof.Proof.RefRun
import proofs.«176922_j5729486373507_1_alg».proof.Proof.RefStages
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the first window's operations write. -/
abbrev ops0_W : List (Ref sig .tc) := [main_v0, main_v1, main_v2, main_v3, main_v4, main_v5, main_v6, main_v7, main_v8, main_v9, main_cst, main_v10, main_v11, main_v12, main_v13, main_v14, main_cst_0, main_v15, main_v16, main_v17, main_v18, main_v19, main_v20, main_v21, main_v22, main_v23, main_cst_1, main_v24, main_v25, main_v26, main_v27, main_v28, main_v29, main_v30, main_v31, main_v32, main_v33, main_v34, main_cst_2, main_v35, main_v36, main_v37, main_v38, main_v39, main_v40, main_v41, main_v42, main_v43, main_v44, main_v45, main_cst_3, main_v46, main_v47, main_v48, main_v49, main_v50, main_v51, main_v52, main_v53, main_v54]
/-- The buffers the second window's operations write. -/
abbrev ops1_W : List (Ref sig .tc) := [main_v55, main_v56, main_cst_4, main_v57, main_v58, main_v59, main_v60, main_v61, main_v62, main_v63, main_v64, main_v65, main_v66, main_v67, main_v68, main_v69, main_v70, main_v71, main_v72, main_v73, main_c, main_v74, main_call0_v0, main_call0_c, main_call0_c_0, main_call0_v1_0, main_v75, main_c_5, main_v76, main_v77, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v78, main_v79, main_cst_6, main_call2_v0, main_call2_v1, main_v80]

set_option maxRecDepth 8192 in
set_option maxHeartbeats 4000000 in
theorem ops0_writes : (ops0 : List (HloOp τ sig (Elt F))).Forall fun op =>
    op.writes ⊆ (ops0_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

set_option maxRecDepth 8192 in
set_option maxHeartbeats 4000000 in
theorem ops1_writes : (ops1 : List (HloOp τ sig (Elt F))).Forall fun op =>
    op.writes ⊆ (ops1_W.map (Proc.devRef (τ := τ) .tc)).toFinset := by
  simp only [List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer neither window writes keeps its contents through @main. -/
theorem keep (V : Valuation τ sig (Elt F)) (r : Ref sig .tc) (h0 : r ∉ ops0_W) (h1 : r ∉ ops1_W) :
    after ops V (Proc.devRef .tc r) = V (Proc.devRef .tc r) := by
  simp only [ops, after_append]
  rw [after_of_writes_sub ops1 _ ops1_writes h1, after_of_writes_sub ops0 _ ops0_writes h0]

attribute [local irreducible] Host.reduce Host.reduce2 Host.gather in
set_option maxRecDepth 16384 in
set_option maxHeartbeats 40000000 in
theorem w0_v2 (V : Valuation τ sig (Elt F)) : after ops0 V (main_v2 : DevRef τ sig) = refLo (V (main_arg8 : DevRef τ sig)) := by
  after_results_simp
  rfl

attribute [local irreducible] Host.reduce Host.reduce2 Host.gather in
set_option maxRecDepth 16384 in
set_option maxHeartbeats 40000000 in
theorem w0_v5 (V : Valuation τ sig (Elt F)) : after ops0 V (main_v5 : DevRef τ sig) = refHi (V (main_arg8 : DevRef τ sig)) := by
  after_results_simp
  rfl

attribute [local irreducible] Host.reduce Host.reduce2 Host.gather in
set_option maxRecDepth 16384 in
set_option maxHeartbeats 40000000 in
theorem w0_v54 (V : Valuation τ sig (Elt F)) : after ops0 V (main_v54 : DevRef τ sig) = refL3b (V (main_arg4 : DevRef τ sig)) := by
  after_results_simp
  rfl

attribute [local irreducible] Host.reduce Host.reduce2 Host.gather in
set_option maxRecDepth 16384 in
set_option maxHeartbeats 40000000 in
theorem w0_v51 (V : Valuation τ sig (Elt F)) :
    after ops0 V (main_v51 : DevRef τ sig) = refL3a (refL2 (refL1 (refL0 (refXn (V (main_arg0 : DevRef τ sig)) (V (main_arg7 : DevRef τ sig)) (refLo (V (main_arg8 : DevRef τ sig))) (refHi (V (main_arg8 : DevRef τ sig)))) (V (main_arg1 : DevRef τ sig)) (V (main_arg2 : DevRef τ sig))) (V (main_arg3 : DevRef τ sig)) (V (main_arg4 : DevRef τ sig))) (V (main_arg3 : DevRef τ sig)) (V (main_arg4 : DevRef τ sig))) (V (main_arg3 : DevRef τ sig)) := by
  after_results_simp
  rfl

/-- The second window up to the box tests. -/
abbrev ops1a : List (HloOp τ sig (Elt F)) :=
  [ unary main_v54 main_v55 (broadcastInDim S8x65536x128 ![0, 1, 2] bcast_S8x1x128_S8x65536x128_0_1_2 : (⟨S8x1x128, .f32⟩ : BufTy).Contents (Elt F) → (⟨S8x65536x128, .f32⟩ : BufTy).Contents (Elt F)),
    binary main_v51 main_v55 main_v56 (addf : (⟨S8x65536x128, .f32⟩ : BufTy).Contents (Elt F) → (⟨S8x65536x128, .f32⟩ : BufTy).Contents (Elt F) → (⟨S8x65536x128, .f32⟩ : BufTy).Contents (Elt F)),
    nullary main_cst_4 (constant S_ .f32 0x41F00000#32),
    unary main_cst_4 main_v57 (broadcastInDim S8x65536x128 ![] bcast_S_S8x65536x128 : (⟨S_, .f32⟩ : BufTy).Contents (Elt F) → (⟨S8x65536x128, .f32⟩ : BufTy).Contents (Elt F)),
    binary main_v57 main_v56 main_v58 (mulf : (⟨S8x65536x128, .f32⟩ : BufTy).Contents (Elt F) → (⟨S8x65536x128, .f32⟩ : BufTy).Contents (Elt F) → (⟨S8x65536x128, .f32⟩ : BufTy).Contents (Elt F)),
    unary main_v58 main_v59 (Host.sin : (⟨S8x65536x128, .f32⟩ : BufTy).Contents (Elt F) → (⟨S8x65536x128, .f32⟩ : BufTy).Contents (Elt F)),
    binary main_v59 main_arg5 main_v60 ((fun l r => Host.dotGeneral dot_S8x65536x128_S8x128x1_S8x65536x1_2_1_1_2_0_0 none l r) : (⟨S8x65536x128, .f32⟩ : BufTy).Contents (Elt F) → (⟨S8x128x1, .f32⟩ : BufTy).Contents (Elt F) → (⟨S8x65536x1, .f32⟩ : BufTy).Contents (Elt F)),
    unary main_arg6 main_v61 (broadcastInDim S8x1x1 ![0, 2] bcast_S8x1_S8x1x1_0_2 : (⟨S8x1, .f32⟩ : BufTy).Contents (Elt F) → (⟨S8x1x1, .f32⟩ : BufTy).Contents (Elt F)),
    unary main_v61 main_v62 (broadcastInDim S8x65536x1 ![0, 1, 2] bcast_S8x1x1_S8x65536x1_0_1_2 : (⟨S8x1x1, .f32⟩ : BufTy).Contents (Elt F) → (⟨S8x65536x1, .f32⟩ : BufTy).Contents (Elt F)),
    binary main_v60 main_v62 main_v63 (addf : (⟨S8x65536x1, .f32⟩ : BufTy).Contents (Elt F) → (⟨S8x65536x1, .f32⟩ : BufTy).Contents (Elt F) → (⟨S8x65536x1, .f32⟩ : BufTy).Contents (Elt F)),
    reshape main_v63 main_v64 rfl shapeCasts_S8x65536x1_S8x65536,
    unary main_arg0 main_v65 (broadcastInDim S1x65536x3 ![1, 2] bcast_S65536x3_S1x65536x3_1_2 : (⟨S65536x3, .f32⟩ : BufTy).Contents (Elt F) → (⟨S1x65536x3, .f32⟩ : BufTy).Contents (Elt F)),
    unary main_v65 main_v66 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    unary main_v2 main_v67 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v66 main_v67 main_v68 (cmpf .oge : (⟨S8x65536x3, .f32⟩ : BufTy).Contents (Elt F) → (⟨S8x65536x3, .f32⟩ : BufTy).Contents (Elt F) → (⟨S8x65536x3, .i1⟩ : BufTy).Contents (Elt F)),
    unary main_arg0 main_v69 (broadcastInDim S1x65536x3 ![1, 2] bcast_S65536x3_S1x65536x3_1_2 : (⟨S65536x3, .f32⟩ : BufTy).Contents (Elt F) → (⟨S1x65536x3, .f32⟩ : BufTy).Contents (Elt F)),
    unary main_v69 main_v70 (broadcastInDim S8x65536x3 ![0, 1, 2] bcast_S1x65536x3_S8x65536x3_0_1_2 : (⟨S1x65536x3, .f32⟩ : BufTy).Contents (Elt F) → (⟨S8x65536x3, .f32⟩ : BufTy).Contents (Elt F)),
    unary main_v5 main_v71 (broadcastInDim S8x65536x3 ![0, 1, 2] bcast_S8x1x3_S8x65536x3_0_1_2 : (⟨S8x1x3, .f32⟩ : BufTy).Contents (Elt F) → (⟨S8x65536x3, .f32⟩ : BufTy).Contents (Elt F)),
    binary main_v70 main_v71 main_v72 (cmpf .ole : (⟨S8x65536x3, .f32⟩ : BufTy).Contents (Elt F) → (⟨S8x65536x3, .f32⟩ : BufTy).Contents (Elt F) → (⟨S8x65536x3, .i1⟩ : BufTy).Contents (Elt F)),
    binary main_v68 main_v72 main_v73 (andi : (⟨S8x65536x3, .i1⟩ : BufTy).Contents (Elt F) → (⟨S8x65536x3, .i1⟩ : BufTy).Contents (Elt F) → (⟨S8x65536x3, .i1⟩ : BufTy).Contents (Elt F)),
    nullary main_c (constantI S_ 1 1#1),
    binary main_v73 main_c main_v74 ((fun x v => Host.reduce IntOp.andi x v reducesTo_S8x65536x3_S8x65536_d2 h_S_) : (⟨S8x65536x3, .i1⟩ : BufTy).Contents (Elt F) → (⟨S_, .i1⟩ : BufTy).Contents (Elt F) → (⟨S8x65536, .i1⟩ : BufTy).Contents (Elt F)) ]

/-- The second window's selection tail: the three calls and the operations between them. -/
abbrev ops1b : List (HloOp τ sig (Elt F)) :=
  [ TRef.nullary main_call0.v0 (iotaInDim S8x65536 32 0),
    TRef.nullary main_call0.c (constantI S_ 1 0#1),
    TRef.nullary main_call0.c_0 (constantI S_ 32 0#32),
    TRef.quaternary (.of main_v74) main_call0.v0 main_call0.c main_call0.c_0 main_call0.v1_0 (fun x y u v j => (Host.reduce2 reducer_argmax_i1_i32 x y u v reducesTo_S8x65536_S65536_d0 h_S_ j).1),
    TRef.quaternary (.of main_v74) main_call0.v0 main_call0.c main_call0.c_0 main_call0.v1_1 (fun x y u v j => (Host.reduce2 reducer_argmax_i1_i32 x y u v reducesTo_S8x65536_S65536_d0 h_S_ j).2),
    nullary main_c_5 (constantI S_ 1 0#1),
    binary main_v74 main_c_5 main_v76 ((fun x v => Host.reduce IntOp.ori x v reducesTo_S8x65536_S65536_d0 h_S_) : (⟨S8x65536, .i1⟩ : BufTy).Contents (Elt F) → (⟨S_, .i1⟩ : BufTy).Contents (Elt F) → (⟨S65536, .i1⟩ : BufTy).Contents (Elt F)),
    unary main_v75 main_v77 (broadcastInDim S1x65536 ![1] bcast_S65536_S1x65536_1 : (⟨S65536, .i32⟩ : BufTy).Contents (Elt F) → (⟨S1x65536, .i32⟩ : BufTy).Contents (Elt F)),
    TRef.nullary main_call1.c (constantI S_ 32 0#32),
    TRef.unary main_call1.c main_call1.v0 (broadcastInDim S1x65536 ![] bcast_S_S1x65536),
    TRef.binary (.of main_v77) main_call1.v0 main_call1.v1 (cmpi .slt),
    TRef.nullary main_call1.c_0 (constantI S_ 32 8#32),
    TRef.unary main_call1.c_0 main_call1.v2 (broadcastInDim S1x65536 ![] bcast_S_S1x65536),
    TRef.binary (.of main_v77) main_call1.v2 main_call1.v3 addi,
    TRef.ternary main_call1.v1 main_call1.v3 (.of main_v77) main_call1.v4 select,
    TRef.reshape main_call1.v4 main_call1.v5 rfl shapeCasts_S1x65536_S1x65536x1,
    TRef.nullary main_call1.c_1 (constantI S1 32 7#32),
    TRef.nullary main_call1.c_2 (constantI S_ 32 0#32),
    TRef.unary main_call1.c_2 main_call1.v6 (broadcastInDim S1x65536x1 ![] bcast_S_S1x65536x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S1x65536x1 ![0, 1, 2] bcast_S1x1x1_S1x65536x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1x65536x1_S1x65536_d2 h_S_),
    TRef.binary (.of main_v64) main_call1.v5 main_call1.v13 (fun x i => Host.gather gather_S8x65536_S1x65536x1_S1x65536_n_0_1_1_0_2_11 x i),
    TRef.nullary main_call1.cst (constant S_ .f32 0x7FC00000#32),
    TRef.unary main_call1.cst main_call1.v14 (broadcastInDim S1x65536 ![] bcast_S_S1x65536),
    TRef.ternary main_call1.v12 main_call1.v13 main_call1.v14 main_call1.v15 select,
    reshape main_v78 main_v79 rfl shapeCasts_S1x65536_S65536,
    nullary main_cst_6 (constant S_ .f32 0x00000000#32),
    TRef.unary (.of main_cst_6) main_call2.v0 id,
    TRef.unary main_call2.v0 main_call2.v1 (broadcastInDim S65536 ![] bcast_S_S65536),
    TRef.ternary (.of main_v76) (.of main_v79) main_call2.v1 main_call2.v2 select ]

theorem ops1_split : (ops1 : List (HloOp τ sig (Elt F))) = ops1a ++ ops1b := rfl

attribute [local irreducible] Host.reduce Host.reduce2 Host.gather in
set_option maxRecDepth 16384 in
set_option maxHeartbeats 40000000 in
theorem w1a_v64 (W : Valuation τ sig (Elt F)) :
    after ops1a W (main_v64 : DevRef τ sig) =
      refTop (refL3c (W (main_v51 : DevRef τ sig)) (W (main_v54 : DevRef τ sig))) (W (main_arg5 : DevRef τ sig)) (W (main_arg6 : DevRef τ sig)) := by
  after_results_simp
  rfl

attribute [local irreducible] Host.reduce Host.reduce2 Host.gather in
set_option maxRecDepth 16384 in
set_option maxHeartbeats 40000000 in
theorem w1a_v74 (W : Valuation τ sig (Elt F)) :
    after ops1a W (main_v74 : DevRef τ sig) = refMask (W (main_arg0 : DevRef τ sig)) (W (main_v2 : DevRef τ sig)) (W (main_v5 : DevRef τ sig)) := by
  after_results_simp
  rfl

attribute [local irreducible] Host.reduce Host.reduce2 Host.gather in
set_option maxRecDepth 16384 in
set_option maxHeartbeats 40000000 in
theorem w1b_out (X : Valuation τ sig (Elt F)) :
    after ops1b X (main_v80 : DevRef τ sig) = refSel (X (main_v64 : DevRef τ sig)) (X (main_v74 : DevRef τ sig)) := by
  after_results_simp
  -- a callee's operation moves its operands and result along the typed references' (trivial) type equations
  simp only [TRef.ofBuf, TRef.toBuf, cast_eq]
  rfl

theorem w1_out (W : Valuation τ sig (Elt F)) :
    after ops1 W (main_v80 : DevRef τ sig) =
      refSel (refTop (refL3c (W (main_v51 : DevRef τ sig)) (W (main_v54 : DevRef τ sig))) (W (main_arg5 : DevRef τ sig)) (W (main_arg6 : DevRef τ sig)))
        (refMask (W (main_arg0 : DevRef τ sig)) (W (main_v2 : DevRef τ sig)) (W (main_v5 : DevRef τ sig))) := by
  rw [ops1_split, after_append, w1b_out, w1a_v64, w1a_v74]

/-- The fold at the result buffer is `refOut` of the launch contents of the arguments. -/
theorem out_eq (V : Valuation τ sig (Elt F)) :
    after ops V (main_v80 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp only [ops, after_append]
  rw [w1_out, w0_v2, w0_v5, w0_v51, w0_v54,
    after_of_writes_sub ops0 V ops0_writes (r := main_arg0) (by decide),
    after_of_writes_sub ops0 V ops0_writes (r := main_arg5) (by decide),
    after_of_writes_sub ops0 V ops0_writes (r := main_arg6) (by decide), refOut_eq, refL3_split]

end Cert.ReferenceIdeal.RefRun

end
-- ==== Proof.RefRead1.lean ====
/-
  The reference's first stages read at an index.

  The corners are slices of `boxes` re-laid as `[8, 1, 3]`; the normalised coordinate at (box, point, axis) is the
  specification's `xnorm` of the point's coordinate and the box's corners and scale; the first layer at (box, point, unit)
  is the activation of the contracted sum over the three axes plus the bias; the box test at (box, point) is the "and" over
  the three axes of the two comparisons.
-/
import proofs.«176922_j5729486373507_1_alg».proof.Proof.RefStages
import proofs.«176922_j5729486373507_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx
open scoped BigOperators

/-! ## The corners: a slice along the last axis, flattened, then given a unit middle axis -/

/-- The slice of the corners along the last axis from `o`, flattened and re-laid as `[8, 1, 3]`. -/
theorem corner_read {o : Nat} (a8 : (⟨3, ![8, 3, 2]⟩ : Shape).Idx → EReal)
    (hs : (⟨3, ![8, 3, 2]⟩ : Shape).Slices ![0, 0, o] ⟨3, ![8, 3, 1]⟩)
    (hc : (⟨3, ![8, 3, 1]⟩ : Shape).ShapeCasts ⟨2, ![8, 3]⟩)
    (hb : (⟨2, ![8, 3]⟩ : Shape).BroadcastsInDim ⟨3, ![8, 1, 3]⟩ (![0, 2] : Fin 2 → Fin 3))
    (r : Fin 8) (d : Fin 3) (k : Fin 2) (hk : k.val = o) :
    broadcastInDim ⟨3, ![8, 1, 3]⟩ ![0, 2] hb
      (shapeCast ⟨2, ![8, 3]⟩ (extractStridedSlice ⟨3, ![8, 3, 1]⟩ ![0, 0, o] a8 hs) hc) (ix3 r (0 : Fin 1) d)
      = a8 (ix3 r d k) := by
  refine (broadcastInDim_apply _ _ _ (ix3 r (0 : Fin 1) d) (ix2 r d) (fun a => ?_)).trans ?_
  · match a with
    | ⟨0, _⟩ => rfl
    | ⟨1, _⟩ => rfl
  refine (shapeCast_apply _ _ (ix2 r d) (ix3 r d (0 : Fin 1)) ?_).trans ?_
  · rw [Shape.rowMajor_val_three, Shape.rowMajor_val_two]
    show ((r.val * 3 + d.val) * 1 + 0) = r.val * 3 + d.val
    omega
  refine extractStridedSlice_apply _ _ _ (ix3 r d (0 : Fin 1)) (ix3 r d k) (fun a => ?_)
  match a with
  | ⟨0, _⟩ => exact (Nat.zero_add _).symm
  | ⟨1, _⟩ => exact (Nat.zero_add _).symm
  | ⟨2, _⟩ => show k.val = o + 0; omega

/-! ## Broadcasts read at an index -/

/-- A scalar broadcast to any shape reads the scalar everywhere. -/
theorem bcast_scalar_apply {α : Type} {t : Shape} (dims : Fin 0 → Fin t.rank)
    (h : (⟨0, ![]⟩ : Shape).BroadcastsInDim t dims) (c : (⟨0, ![]⟩ : Shape).Idx → α) (j : t.Idx) :
    broadcastInDim t dims h c j = c ix0 :=
  broadcastInDim_apply dims h c j ix0 (fun a => a.elim0)

/-- An `[N, m]` array laid as `[1, N, m]` and repeated along a new leading axis of extent `R` reads, at
    `(r, n, d)`, the array at `(n, d)`. -/
theorem bcast_points_apply {α : Type} (x : (⟨2, ![65536, 3]⟩ : Shape).Idx → α)
    (h1 : (⟨2, ![65536, 3]⟩ : Shape).BroadcastsInDim ⟨3, ![1, 65536, 3]⟩ (![1, 2] : Fin 2 → Fin 3))
    (h2 : (⟨3, ![1, 65536, 3]⟩ : Shape).BroadcastsInDim ⟨3, ![8, 65536, 3]⟩ (![0, 1, 2] : Fin 3 → Fin 3))
    (r : Fin 8) (n : Fin 65536) (d : Fin 3) :
    broadcastInDim ⟨3, ![8, 65536, 3]⟩ ![0, 1, 2] h2 (broadcastInDim ⟨3, ![1, 65536, 3]⟩ ![1, 2] h1 x) (ix3 r n d)
      = x (ix2 n d) := by
  refine (broadcastInDim_apply _ _ _ (ix3 r n d) (ix3 (0 : Fin 1) n d) (fun a => ?_)).trans ?_
  · match a with
    | ⟨0, _⟩ => rfl
    | ⟨1, _⟩ => rfl
    | ⟨2, _⟩ => rfl
  refine broadcastInDim_apply _ _ _ (ix3 (0 : Fin 1) n d) (ix2 n d) (fun a => ?_)
  match a with
  | ⟨0, _⟩ => rfl
  | ⟨1, _⟩ => rfl

/-- An `[8, 1, m]` array repeated along its unit axis reads, at `(r, n, d)`, the array at `(r, 0, d)`. -/
theorem bcast_box_apply {α : Type} {m : Nat} (v : (⟨3, ![8, 1, m]⟩ : Shape).Idx → α)
    (h : (⟨3, ![8, 1, m]⟩ : Shape).BroadcastsInDim ⟨3, ![8, 65536, m]⟩ (![0, 1, 2] : Fin 3 → Fin 3))
    (r : Fin 8) (n : Fin 65536) (d : Fin m) :
    broadcastInDim ⟨3, ![8, 65536, m]⟩ ![0, 1, 2] h v (ix3 r n d) = v (ix3 r (0 : Fin 1) d) := by
  refine broadcastInDim_apply _ _ _ (ix3 r n d) (ix3 r (0 : Fin 1) d) (fun a => ?_)
  match a with
  | ⟨0, _⟩ => rfl
  | ⟨1, _⟩ => rfl
  | ⟨2, _⟩ =>
    show d.val = if m = 1 then 0 else d.val
    split
    · have := d.isLt; omega
    · rfl

/-- An `[8, m]` array given a unit middle axis reads, at `(r, 0, d)`, the array at `(r, d)`. -/
theorem bcast_row_apply {α : Type} {m : Nat} (v : (⟨2, ![8, m]⟩ : Shape).Idx → α)
    (h : (⟨2, ![8, m]⟩ : Shape).BroadcastsInDim ⟨3, ![8, 1, m]⟩ (![0, 2] : Fin 2 → Fin 3))
    (r : Fin 8) (d : Fin m) :
    broadcastInDim ⟨3, ![8, 1, m]⟩ ![0, 2] h v (ix3 r (0 : Fin 1) d) = v (ix2 r d) := by
  refine broadcastInDim_apply _ _ _ (ix3 r (0 : Fin 1) d) (ix2 r d) (fun a => ?_)
  match a with
  | ⟨0, _⟩ => rfl
  | ⟨1, _⟩ =>
    show d.val = if m = 1 then 0 else d.val
    split
    · have := d.isLt; omega
    · rfl

/-- The host's quotient is pointwise the exact quotient. -/
theorem hostDivf_apply {s : Shape} {φ : FTy} (a b : FVec Ideal s φ) (i : s.Idx) :
    Host.divf a b i = Ideal.div (a i) (b i) := rfl

/-- The host's sine is pointwise the exact sine. -/
theorem hostSin_apply {s : Shape} {φ : FTy} (a : FVec Ideal s φ) (i : s.Idx) :
    Host.sin a i = Ideal.sin (a i) := rfl

/-! ## The first layer's contraction: batch axis 0, contracted axis 2 of the left and 1 of the right operand -/

theorem l0_lhs0 (i : S8x65536x128.Idx) (q : dot_S8x65536x3_S8x3x128_S8x65536x128_2_1_1_2_0_0.contr.Idx) :
    (dot_S8x65536x3_S8x3x128_S8x65536x128_2_1_1_2_0_0.lhsIdx i q 0).val = (i 0).val := by
  unfold DotDims.lhsIdx
  rw [dif_pos (show (0 : Fin 3) ∈ dot_S8x65536x3_S8x3x128_S8x65536x128_2_1_1_2_0_0.lhsBatch from List.mem_singleton.mpr rfl)]
  rfl

theorem l0_lhs1 (i : S8x65536x128.Idx) (q : dot_S8x65536x3_S8x3x128_S8x65536x128_2_1_1_2_0_0.contr.Idx) :
    (dot_S8x65536x3_S8x3x128_S8x65536x128_2_1_1_2_0_0.lhsIdx i q 1).val = (i 1).val := by
  unfold DotDims.lhsIdx
  rw [dif_neg (show ¬(1 : Fin 3) ∈ dot_S8x65536x3_S8x3x128_S8x65536x128_2_1_1_2_0_0.lhsBatch from
      fun h => absurd (List.mem_singleton.mp h) (by decide)),
    dif_pos (show (1 : Fin 3) ∈ dot_S8x65536x3_S8x3x128_S8x65536x128_2_1_1_2_0_0.lhsNonContracting from List.mem_singleton.mpr rfl)]
  rfl

theorem l0_lhs2 (i : S8x65536x128.Idx) (q : dot_S8x65536x3_S8x3x128_S8x65536x128_2_1_1_2_0_0.contr.Idx) :
    (dot_S8x65536x3_S8x3x128_S8x65536x128_2_1_1_2_0_0.lhsIdx i q 2).val = (q ⟨0, Nat.one_pos⟩).val :=
  dot_S8x65536x3_S8x3x128_S8x65536x128_2_1_1_2_0_0.lhsIdx_val_of_single rfl i q

theorem l0_rhs0 (i : S8x65536x128.Idx) (q : dot_S8x65536x3_S8x3x128_S8x65536x128_2_1_1_2_0_0.contr.Idx) :
    (dot_S8x65536x3_S8x3x128_S8x65536x128_2_1_1_2_0_0.rhsIdx i q 0).val = (i 0).val := by
  unfold DotDims.rhsIdx
  rw [dif_pos (show (0 : Fin 3) ∈ dot_S8x65536x3_S8x3x128_S8x65536x128_2_1_1_2_0_0.rhsBatch from List.mem_singleton.mpr rfl)]
  rfl

theorem l0_rhs1 (i : S8x65536x128.Idx) (q : dot_S8x65536x3_S8x3x128_S8x65536x128_2_1_1_2_0_0.contr.Idx) :
    (dot_S8x65536x3_S8x3x128_S8x65536x128_2_1_1_2_0_0.rhsIdx i q 1).val = (q ⟨0, Nat.one_pos⟩).val :=
  dot_S8x65536x3_S8x3x128_S8x65536x128_2_1_1_2_0_0.rhsIdx_val_of_single rfl i q

theorem l0_rhs2 (i : S8x65536x128.Idx) (q : dot_S8x65536x3_S8x3x128_S8x65536x128_2_1_1_2_0_0.contr.Idx) :
    (dot_S8x65536x3_S8x3x128_S8x65536x128_2_1_1_2_0_0.rhsIdx i q 2).val = (i 2).val := by
  unfold DotDims.rhsIdx
  rw [dif_neg (show ¬(2 : Fin 3) ∈ dot_S8x65536x3_S8x3x128_S8x65536x128_2_1_1_2_0_0.rhsBatch from
      fun h => absurd (List.mem_singleton.mp h) (by decide)),
    dif_pos (show (2 : Fin 3) ∈ dot_S8x65536x3_S8x3x128_S8x65536x128_2_1_1_2_0_0.rhsNonContracting from List.mem_singleton.mpr rfl)]
  rfl

/-- The contracted sum at (box, point, unit), re-indexed by the one contracted coordinate. -/
theorem l0_sum (a : S8x65536x3.Idx → EReal) (b : S8x3x128.Idx → EReal) (r : Fin 8) (n : Fin 65536) (j : Fin 128) :
    ∑ k : dot_S8x65536x3_S8x3x128_S8x65536x128_2_1_1_2_0_0.contr.Idx,
        a (dot_S8x65536x3_S8x3x128_S8x65536x128_2_1_1_2_0_0.lhsIdx (ix3 r n j) k)
          * b (dot_S8x65536x3_S8x3x128_S8x65536x128_2_1_1_2_0_0.rhsIdx (ix3 r n j) k)
      = ∑ d : Fin 3, a (ix3 r n d) * b (ix3 r d j) := by
  rw [← Equiv.sum_comp (contrEquiv1 dot_S8x65536x3_S8x3x128_S8x65536x128_2_1_1_2_0_0 3 rfl rfl).symm]
  refine Finset.sum_congr rfl fun k _ => ?_
  have hk := contrEquiv1_symm_val dot_S8x65536x3_S8x3x128_S8x65536x128_2_1_1_2_0_0 3 rfl rfl k
  have el : dot_S8x65536x3_S8x3x128_S8x65536x128_2_1_1_2_0_0.lhsIdx (ix3 r n j)
      ((contrEquiv1 dot_S8x65536x3_S8x3x128_S8x65536x128_2_1_1_2_0_0 3 rfl rfl).symm k) = ix3 r n k :=
    funext fun ax => Fin.ext (by
      match ax with
      | ⟨0, _⟩ => exact l0_lhs0 _ _
      | ⟨1, _⟩ => exact l0_lhs1 _ _
      | ⟨2, _⟩ => exact (l0_lhs2 _ _).trans hk)
  have er : dot_S8x65536x3_S8x3x128_S8x65536x128_2_1_1_2_0_0.rhsIdx (ix3 r n j)
      ((contrEquiv1 dot_S8x65536x3_S8x3x128_S8x65536x128_2_1_1_2_0_0 3 rfl rfl).symm k) = ix3 r k j :=
    funext fun ax => Fin.ext (by
      match ax with
      | ⟨0, _⟩ => exact l0_rhs0 _ _
      | ⟨1, _⟩ => exact (l0_rhs1 _ _).trans hk
      | ⟨2, _⟩ => exact l0_rhs2 _ _)
  rw [el, er]

/-! ## The "and" over one axis -/

/-- Two one-bit indicators of equivalent propositions are equal, whatever decision procedures they carry. -/
theorem ite_bit_congr {p q : Prop} {_ : Decidable p} {_ : Decidable q} (h : p ↔ q) :
    (if p then 1#1 else 0#1 : BitVec 1) = if q then 1#1 else 0#1 := by
  by_cases hp : p
  · rw [if_pos hp, if_pos (h.mp hp)]
  · rw [if_neg hp, if_neg (fun hq => hp (h.mpr hq))]

/-- A fold by "and" from 1 over a finite set of one-bit words is 1 exactly when every word is. -/
theorem fold_andi_mem {ι : Type} [DecidableEq ι] (f : ι → BitVec 1) (s : Finset ι) :
    s.fold IntOp.andi 1#1 f = if ∀ d ∈ s, f d = 1#1 then 1#1 else 0#1 := by
  induction s using Finset.induction_on with
  | empty => simp
  | insert a s ha ih =>
    rw [Finset.fold_insert ha, ih]
    have hb : ∀ b : BitVec 1, b = 0#1 ∨ b = 1#1 := by decide
    by_cases hs : ∀ d ∈ s, f d = 1#1
    · rw [if_pos hs]
      rcases hb (f a) with h0 | h1
      · rw [h0, if_neg (fun h => by have := h a (Finset.mem_insert_self a s); rw [h0] at this; exact absurd this (by decide))]
        rfl
      · rw [h1, if_pos (fun d hd => by
          rcases Finset.mem_insert.mp hd with rfl | hd
          · exact h1
          · exact hs d hd)]
        rfl
    · rw [if_neg hs, if_neg (fun h => hs fun d hd => h d (Finset.mem_insert_of_mem hd))]
      rcases hb (f a) with h0 | h1
      · rw [h0]; rfl
      · rw [h1]; rfl

/-- Over a whole finite type. -/
theorem fold_andi_univ {ι : Type} [Fintype ι] [DecidableEq ι] (f : ι → BitVec 1) :
    (Finset.univ : Finset ι).fold IntOp.andi 1#1 f = if ∀ d, f d = 1#1 then 1#1 else 0#1 := by
  rw [fold_andi_mem]
  exact ite_bit_congr ⟨fun h d => h d (Finset.mem_univ d), fun h d _ => h d⟩

/-- An "and"-reduction of an `[8, 65536, 3]` array of bits over its last axis, from a scalar 1, at (box, point). -/
theorem reduce_and_last (x : (⟨3, ![8, 65536, 3]⟩ : Shape).Idx → BitVec 1) (init : (⟨0, ![]⟩ : Shape).Idx → BitVec 1)
    (hinit : ∀ i, init i = 1#1)
    (h' : (⟨3, ![8, 65536, 3]⟩ : Shape).ReducesTo [2] ⟨2, ![8, 65536]⟩) (hu : 0 < (⟨0, ![]⟩ : Shape).numel)
    (r : Fin 8) (n : Fin 65536) :
    Host.reduce IntOp.andi x init h' hu (ix2 r n) = if ∀ d : Fin 3, x (ix3 r n d) = 1#1 then 1#1 else 0#1 := by
  have hR : (⟨3, ![8, 65536, 3]⟩ : Shape).Reduces [2] ⟨2, ![8, 65536]⟩ := ⟨h'.1, Nat.zero_lt_two, h'.2⟩
  have hl : ∀ k : Fin 3, hR.lift (ix2 r n) k = ix3 r n k := fun k => funext fun c => Fin.ext (by
    match c with
    | ⟨0, _⟩ => rfl
    | ⟨1, _⟩ => rfl
    | ⟨2, _⟩ => rfl)
  rw [Host.reduce_eq_fold_single IntOp.andi x init h' hR hu (ix2 r n), hinit, fold_andi_univ]
  refine ite_bit_congr ⟨fun h d => ?_, fun h d => ?_⟩
  · have hd : x (hR.lift (ix2 r n) d) = 1#1 := h d
    rw [hl d] at hd
    exact hd
  · show x (hR.lift (ix2 r n) d) = 1#1
    rw [hl d]
    exact h d

/-- The pointwise "and" of two arrays of bits. -/
theorem andi_apply {s : Shape} {w : Nat} (x y : IVec s w) (i : s.Idx) : andi x y i = IntOp.andi (x i) (y i) := rfl

/-! ## The stages at an index -/

/-- The low corners: entry (box, 0, axis) is `boxes (box, axis, 0)`. -/
theorem refLo_apply (a8 : (⟨S8x3x2, .f32⟩ : BufTy).Contents (Elt Ideal)) (r : Fin 8) (d : Fin 3) :
    refLo (F := Ideal) a8 (ix3 r (0 : Fin 1) d) = a8 (ix3 r d (0 : Fin 2)) := by
  unfold refLo
  exact corner_read a8 _ _ _ r d 0 rfl

/-- The high corners: entry (box, 0, axis) is `boxes (box, axis, 1)`. -/
theorem refHi_apply (a8 : (⟨S8x3x2, .f32⟩ : BufTy).Contents (Elt Ideal)) (r : Fin 8) (d : Fin 3) :
    refHi (F := Ideal) a8 (ix3 r (0 : Fin 1) d) = a8 (ix3 r d (1 : Fin 2)) := by
  unfold refHi
  exact corner_read a8 _ _ _ r d 1 rfl

/-- The normalised coordinates at (box, point, axis). -/
theorem refXn_apply (a0 : (⟨S65536x3, .f32⟩ : BufTy).Contents (Elt Ideal)) (a7 : (⟨S8x3, .f32⟩ : BufTy).Contents (Elt Ideal)) (lo hi : (⟨S8x1x3, .f32⟩ : BufTy).Contents (Elt Ideal))
    (r : Fin 8) (n : Fin 65536) (d : Fin 3) :
    refXn (F := Ideal) a0 a7 lo hi (ix3 r n d) =
      Cert.Siren.xnorm (lo (ix3 r (0 : Fin 1) d)) (hi (ix3 r (0 : Fin 1) d)) (a7 (ix2 r d)) (a0 (ix2 n d)) := by
  unfold refXn
  dsimp only
  rw [mulf_apply, subf_apply, hostDivf_apply, mulf_apply, subf_apply, bcast_points_apply, bcast_box_apply,
    bcast_box_apply, subf_apply, bcast_box_apply, bcast_row_apply, bcast_scalar_apply, bcast_scalar_apply,
    constant_apply, constant_apply]
  rfl

/-- The first layer at (box, point, unit). -/
theorem refL0_apply (xn : (⟨S8x65536x3, .f32⟩ : BufTy).Contents (Elt Ideal)) (a1 : (⟨S8x3x128, .f32⟩ : BufTy).Contents (Elt Ideal)) (a2 : (⟨S8x128, .f32⟩ : BufTy).Contents (Elt Ideal))
    (r : Fin 8) (n : Fin 65536) (j : Fin 128) :
    refL0 (F := Ideal) xn a1 a2 (ix3 r n j) =
      Cert.Siren.act (∑ d : Fin 3, xn (ix3 r n d) * a1 (ix3 r d j) + a2 (ix2 r j)) := by
  unfold refL0
  dsimp only
  rw [hostSin_apply, mulf_apply, addf_apply, bcast_scalar_apply, constant_apply, bcast_box_apply, bcast_row_apply]
  simp only [Host.dotGeneral]
  rw [Ideal.dotGeneral_apply, l0_sum]
  rfl

/-- The box test at (box, point). -/
theorem refMask_apply (a0 : (⟨S65536x3, .f32⟩ : BufTy).Contents (Elt Ideal)) (lo hi : (⟨S8x1x3, .f32⟩ : BufTy).Contents (Elt Ideal)) (r : Fin 8) (n : Fin 65536) :
    refMask (F := Ideal) a0 lo hi (ix2 r n) =
      Cert.Siren.rowIn (fun d => lo (ix3 r (0 : Fin 1) d)) (fun d => hi (ix3 r (0 : Fin 1) d)) (fun d => a0 (ix2 n d)) := by
  unfold refMask
  dsimp only
  rw [reduce_and_last _ _ (fun i => constantI_apply _ i) _ _ r n]
  unfold Cert.Siren.rowIn Cert.Siren.rowAxis
  refine ite_bit_congr (forall_congr' fun d => ?_)
  rw [andi_apply, cmpf_apply, cmpf_apply, bcast_points_apply, bcast_box_apply, bcast_box_apply]
  exact Iff.rfl

end Cert.ReferenceIdeal.RefRun

end
-- ==== Proof.RefRead2.lean ====
/-
  The reference's hidden layers and output column read at an index.

  Each hidden layer slices its weight matrix and bias out of the resident arrays, contracts the layer before it with the
  matrix box by box, adds the bias and applies the activation; the output column contracts the last layer with the
  box's output weights and adds the output bias.

  The contraction keeps the box axis: at (box, point, column) the left operand is read at (box, point, j) and the right
  at (box, j, column), `j` the contracted coordinate; the sum over the contraction position is re-indexed by that one
  coordinate.  The slices, casts and broadcasts each read one element of their operand, named by coordinates.
-/
import proofs.«176922_j5729486373507_1_alg».proof.Proof.RefStages
import proofs.«176922_j5729486373507_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx
open scoped BigOperators

/-! ## The hidden layers' contraction `[8, 65536, 128] × [8, 128, 128]` -/

/-- Left operand, batch axis: the result's box coordinate. -/
theorem hid_lhs0 (i : S8x65536x128.Idx) (q : dot_S8x65536x128_S8x128x128_S8x65536x128_2_1_1_2_0_0.contr.Idx) :
    (dot_S8x65536x128_S8x128x128_S8x65536x128_2_1_1_2_0_0.lhsIdx i q 0).val = (i 0).val := by
  unfold DotDims.lhsIdx
  rw [dif_pos (show (0 : Fin 3) ∈ dot_S8x65536x128_S8x128x128_S8x65536x128_2_1_1_2_0_0.lhsBatch from List.mem_singleton.mpr rfl)]
  rfl

/-- Left operand, free axis: the result's point coordinate. -/
theorem hid_lhs1 (i : S8x65536x128.Idx) (q : dot_S8x65536x128_S8x128x128_S8x65536x128_2_1_1_2_0_0.contr.Idx) :
    (dot_S8x65536x128_S8x128x128_S8x65536x128_2_1_1_2_0_0.lhsIdx i q 1).val = (i 1).val := by
  unfold DotDims.lhsIdx
  rw [dif_neg (show ¬(1 : Fin 3) ∈ dot_S8x65536x128_S8x128x128_S8x65536x128_2_1_1_2_0_0.lhsBatch by decide),
    dif_pos (show (1 : Fin 3) ∈ dot_S8x65536x128_S8x128x128_S8x65536x128_2_1_1_2_0_0.lhsNonContracting from List.mem_singleton.mpr rfl)]
  rfl

/-- Left operand, contracted axis: the contraction position's one coordinate. -/
theorem hid_lhs2 (i : S8x65536x128.Idx) (q : dot_S8x65536x128_S8x128x128_S8x65536x128_2_1_1_2_0_0.contr.Idx) :
    (dot_S8x65536x128_S8x128x128_S8x65536x128_2_1_1_2_0_0.lhsIdx i q 2).val = (q ⟨0, Nat.one_pos⟩).val :=
  dot_S8x65536x128_S8x128x128_S8x65536x128_2_1_1_2_0_0.lhsIdx_val_of_single rfl i q

/-- Right operand, batch axis: the result's box coordinate. -/
theorem hid_rhs0 (i : S8x65536x128.Idx) (q : dot_S8x65536x128_S8x128x128_S8x65536x128_2_1_1_2_0_0.contr.Idx) :
    (dot_S8x65536x128_S8x128x128_S8x65536x128_2_1_1_2_0_0.rhsIdx i q 0).val = (i 0).val := by
  unfold DotDims.rhsIdx
  rw [dif_pos (show (0 : Fin 3) ∈ dot_S8x65536x128_S8x128x128_S8x65536x128_2_1_1_2_0_0.rhsBatch from List.mem_singleton.mpr rfl)]
  rfl

/-- Right operand, contracted axis: the contraction position's one coordinate. -/
theorem hid_rhs1 (i : S8x65536x128.Idx) (q : dot_S8x65536x128_S8x128x128_S8x65536x128_2_1_1_2_0_0.contr.Idx) :
    (dot_S8x65536x128_S8x128x128_S8x65536x128_2_1_1_2_0_0.rhsIdx i q 1).val = (q ⟨0, Nat.one_pos⟩).val :=
  dot_S8x65536x128_S8x128x128_S8x65536x128_2_1_1_2_0_0.rhsIdx_val_of_single rfl i q

/-- Right operand, free axis: the result's last coordinate. -/
theorem hid_rhs2 (i : S8x65536x128.Idx) (q : dot_S8x65536x128_S8x128x128_S8x65536x128_2_1_1_2_0_0.contr.Idx) :
    (dot_S8x65536x128_S8x128x128_S8x65536x128_2_1_1_2_0_0.rhsIdx i q 2).val = (i 2).val := by
  unfold DotDims.rhsIdx
  rw [dif_neg (show ¬(2 : Fin 3) ∈ dot_S8x65536x128_S8x128x128_S8x65536x128_2_1_1_2_0_0.rhsBatch by decide),
    dif_pos (show (2 : Fin 3) ∈ dot_S8x65536x128_S8x128x128_S8x65536x128_2_1_1_2_0_0.rhsNonContracting from List.mem_singleton.mpr rfl)]
  rfl

/-- The sum over the contraction position, re-indexed by the one contracted coordinate. -/
theorem hid_sum (h : S8x65536x128.Idx → EReal) (w : S8x128x128.Idx → EReal) (r : Fin 8) (n : Fin 65536) (k : Fin 128) :
    ∑ q : dot_S8x65536x128_S8x128x128_S8x65536x128_2_1_1_2_0_0.contr.Idx, h (dot_S8x65536x128_S8x128x128_S8x65536x128_2_1_1_2_0_0.lhsIdx (ix3 r n k) q) * w (dot_S8x65536x128_S8x128x128_S8x65536x128_2_1_1_2_0_0.rhsIdx (ix3 r n k) q)
      = ∑ j : Fin 128, h (ix3 r n j) * w (ix3 r j k) := by
  rw [← Equiv.sum_comp (contrEquiv1 dot_S8x65536x128_S8x128x128_S8x65536x128_2_1_1_2_0_0 128 rfl rfl).symm]
  refine Finset.sum_congr rfl fun j _ => ?_
  have hj := contrEquiv1_symm_val dot_S8x65536x128_S8x128x128_S8x65536x128_2_1_1_2_0_0 128 rfl rfl j
  have el : dot_S8x65536x128_S8x128x128_S8x65536x128_2_1_1_2_0_0.lhsIdx (ix3 r n k) ((contrEquiv1 dot_S8x65536x128_S8x128x128_S8x65536x128_2_1_1_2_0_0 128 rfl rfl).symm j) = ix3 r n j :=
    funext fun ax => Fin.ext (by
      match ax with
      | ⟨0, _⟩ => exact hid_lhs0 _ _
      | ⟨1, _⟩ => exact hid_lhs1 _ _
      | ⟨2, _⟩ => exact (hid_lhs2 _ _).trans hj)
  have er : dot_S8x65536x128_S8x128x128_S8x65536x128_2_1_1_2_0_0.rhsIdx (ix3 r n k) ((contrEquiv1 dot_S8x65536x128_S8x128x128_S8x65536x128_2_1_1_2_0_0 128 rfl rfl).symm j) = ix3 r j k :=
    funext fun ax => Fin.ext (by
      match ax with
      | ⟨0, _⟩ => exact hid_rhs0 _ _
      | ⟨1, _⟩ => exact (hid_rhs1 _ _).trans hj
      | ⟨2, _⟩ => exact hid_rhs2 _ _)
  rw [el, er]

/-- The box-by-box contraction at (box, point, column): the sum over the contracted coordinate of the left operand at
    (box, point, ·) times the right at (box, ·, column). -/
theorem hid_apply (h : S8x65536x128.Idx → EReal) (w : S8x128x128.Idx → EReal) (r : Fin 8) (n : Fin 65536) (k : Fin 128) :
    Host.dotGeneral (F := Ideal) (φ₁ := .f32) (φ₂ := .f32) dot_S8x65536x128_S8x128x128_S8x65536x128_2_1_1_2_0_0 none h w (ix3 r n k)
      = ∑ j : Fin 128, h (ix3 r n j) * w (ix3 r j k) := by
  simp only [Host.dotGeneral]
  exact (Ideal.dotGeneral_apply dot_S8x65536x128_S8x128x128_S8x65536x128_2_1_1_2_0_0 none .single h w (ix3 r n k)).trans (hid_sum h w r n k)

/-! ## The output column's contraction `[8, 65536, 128] × [8, 128, 1]` -/

/-- Left operand, batch axis: the result's box coordinate. -/
theorem out_lhs0 (i : S8x65536x1.Idx) (q : dot_S8x65536x128_S8x128x1_S8x65536x1_2_1_1_2_0_0.contr.Idx) :
    (dot_S8x65536x128_S8x128x1_S8x65536x1_2_1_1_2_0_0.lhsIdx i q 0).val = (i 0).val := by
  unfold DotDims.lhsIdx
  rw [dif_pos (show (0 : Fin 3) ∈ dot_S8x65536x128_S8x128x1_S8x65536x1_2_1_1_2_0_0.lhsBatch from List.mem_singleton.mpr rfl)]
  rfl

/-- Left operand, free axis: the result's point coordinate. -/
theorem out_lhs1 (i : S8x65536x1.Idx) (q : dot_S8x65536x128_S8x128x1_S8x65536x1_2_1_1_2_0_0.contr.Idx) :
    (dot_S8x65536x128_S8x128x1_S8x65536x1_2_1_1_2_0_0.lhsIdx i q 1).val = (i 1).val := by
  unfold DotDims.lhsIdx
  rw [dif_neg (show ¬(1 : Fin 3) ∈ dot_S8x65536x128_S8x128x1_S8x65536x1_2_1_1_2_0_0.lhsBatch by decide),
    dif_pos (show (1 : Fin 3) ∈ dot_S8x65536x128_S8x128x1_S8x65536x1_2_1_1_2_0_0.lhsNonContracting from List.mem_singleton.mpr rfl)]
  rfl

/-- Left operand, contracted axis: the contraction position's one coordinate. -/
theorem out_lhs2 (i : S8x65536x1.Idx) (q : dot_S8x65536x128_S8x128x1_S8x65536x1_2_1_1_2_0_0.contr.Idx) :
    (dot_S8x65536x128_S8x128x1_S8x65536x1_2_1_1_2_0_0.lhsIdx i q 2).val = (q ⟨0, Nat.one_pos⟩).val :=
  dot_S8x65536x128_S8x128x1_S8x65536x1_2_1_1_2_0_0.lhsIdx_val_of_single rfl i q

/-- Right operand, batch axis: the result's box coordinate. -/
theorem out_rhs0 (i : S8x65536x1.Idx) (q : dot_S8x65536x128_S8x128x1_S8x65536x1_2_1_1_2_0_0.contr.Idx) :
    (dot_S8x65536x128_S8x128x1_S8x65536x1_2_1_1_2_0_0.rhsIdx i q 0).val = (i 0).val := by
  unfold DotDims.rhsIdx
  rw [dif_pos (show (0 : Fin 3) ∈ dot_S8x65536x128_S8x128x1_S8x65536x1_2_1_1_2_0_0.rhsBatch from List.mem_singleton.mpr rfl)]
  rfl

/-- Right operand, contracted axis: the contraction position's one coordinate. -/
theorem out_rhs1 (i : S8x65536x1.Idx) (q : dot_S8x65536x128_S8x128x1_S8x65536x1_2_1_1_2_0_0.contr.Idx) :
    (dot_S8x65536x128_S8x128x1_S8x65536x1_2_1_1_2_0_0.rhsIdx i q 1).val = (q ⟨0, Nat.one_pos⟩).val :=
  dot_S8x65536x128_S8x128x1_S8x65536x1_2_1_1_2_0_0.rhsIdx_val_of_single rfl i q

/-- Right operand, free axis: the result's last coordinate. -/
theorem out_rhs2 (i : S8x65536x1.Idx) (q : dot_S8x65536x128_S8x128x1_S8x65536x1_2_1_1_2_0_0.contr.Idx) :
    (dot_S8x65536x128_S8x128x1_S8x65536x1_2_1_1_2_0_0.rhsIdx i q 2).val = (i 2).val := by
  unfold DotDims.rhsIdx
  rw [dif_neg (show ¬(2 : Fin 3) ∈ dot_S8x65536x128_S8x128x1_S8x65536x1_2_1_1_2_0_0.rhsBatch by decide),
    dif_pos (show (2 : Fin 3) ∈ dot_S8x65536x128_S8x128x1_S8x65536x1_2_1_1_2_0_0.rhsNonContracting from List.mem_singleton.mpr rfl)]
  rfl

/-- The sum over the contraction position, re-indexed by the one contracted coordinate. -/
theorem out_sum (h : S8x65536x128.Idx → EReal) (w : S8x128x1.Idx → EReal) (r : Fin 8) (n : Fin 65536) (k : Fin 1) :
    ∑ q : dot_S8x65536x128_S8x128x1_S8x65536x1_2_1_1_2_0_0.contr.Idx, h (dot_S8x65536x128_S8x128x1_S8x65536x1_2_1_1_2_0_0.lhsIdx (ix3 r n k) q) * w (dot_S8x65536x128_S8x128x1_S8x65536x1_2_1_1_2_0_0.rhsIdx (ix3 r n k) q)
      = ∑ j : Fin 128, h (ix3 r n j) * w (ix3 r j k) := by
  rw [← Equiv.sum_comp (contrEquiv1 dot_S8x65536x128_S8x128x1_S8x65536x1_2_1_1_2_0_0 128 rfl rfl).symm]
  refine Finset.sum_congr rfl fun j _ => ?_
  have hj := contrEquiv1_symm_val dot_S8x65536x128_S8x128x1_S8x65536x1_2_1_1_2_0_0 128 rfl rfl j
  have el : dot_S8x65536x128_S8x128x1_S8x65536x1_2_1_1_2_0_0.lhsIdx (ix3 r n k) ((contrEquiv1 dot_S8x65536x128_S8x128x1_S8x65536x1_2_1_1_2_0_0 128 rfl rfl).symm j) = ix3 r n j :=
    funext fun ax => Fin.ext (by
      match ax with
      | ⟨0, _⟩ => exact out_lhs0 _ _
      | ⟨1, _⟩ => exact out_lhs1 _ _
      | ⟨2, _⟩ => exact (out_lhs2 _ _).trans hj)
  have er : dot_S8x65536x128_S8x128x1_S8x65536x1_2_1_1_2_0_0.rhsIdx (ix3 r n k) ((contrEquiv1 dot_S8x65536x128_S8x128x1_S8x65536x1_2_1_1_2_0_0 128 rfl rfl).symm j) = ix3 r j k :=
    funext fun ax => Fin.ext (by
      match ax with
      | ⟨0, _⟩ => exact out_rhs0 _ _
      | ⟨1, _⟩ => exact (out_rhs1 _ _).trans hj
      | ⟨2, _⟩ => exact out_rhs2 _ _)
  rw [el, er]

/-- The box-by-box contraction at (box, point, column): the sum over the contracted coordinate of the left operand at
    (box, point, ·) times the right at (box, ·, column). -/
theorem out_apply (h : S8x65536x128.Idx → EReal) (w : S8x128x1.Idx → EReal) (r : Fin 8) (n : Fin 65536) (k : Fin 1) :
    Host.dotGeneral (F := Ideal) (φ₁ := .f32) (φ₂ := .f32) dot_S8x65536x128_S8x128x1_S8x65536x1_2_1_1_2_0_0 none h w (ix3 r n k)
      = ∑ j : Fin 128, h (ix3 r n j) * w (ix3 r j k) := by
  simp only [Host.dotGeneral]
  exact (Ideal.dotGeneral_apply dot_S8x65536x128_S8x128x1_S8x65536x1_2_1_1_2_0_0 none .single h w (ix3 r n k)).trans (out_sum h w r n k)

/-! ## The weights, the bias and the literal at an index -/

/-- The weight array cut at layer `o` and cast to `[8, 128, 128]` reads, at (box, row, column), the array at
    (box, `o`, row, column). -/
theorem slabW_apply (o : Nat) (ho : o < 3) (hW : S8x3x128x128.Slices ![0, o, 0, 0] S8x1x128x128)
    (a3 : S8x3x128x128.Idx → EReal) (r : Fin 8) (j k : Fin 128) :
    shapeCast S8x128x128 (extractStridedSlice S8x1x128x128 ![0, o, 0, 0] a3 hW) shapeCasts_S8x1x128x128_S8x128x128 (ix3 r j k)
      = a3 (ix4 r (⟨o, ho⟩ : Fin 3) j k) := by
  refine (shapeCast_apply _ shapeCasts_S8x1x128x128_S8x128x128 (ix3 r j k) (ix4 r (0 : Fin 1) j k) ?_).trans ?_
  · rw [Shape.rowMajor_val_four, Shape.rowMajor_val_three]
    show ((r.val * 1 + 0) * 128 + j.val) * 128 + k.val = (r.val * 128 + j.val) * 128 + k.val
    omega
  · exact slice4_axis1_apply o a3 hW r (0 : Fin 1) j k (⟨o, ho⟩ : Fin 3) rfl

/-- The bias array cut at layer `o`, cast to `[8, 128]` and spread over the points reads, at (box, point, unit), the
    array at (box, `o`, unit). -/
theorem slabB_apply (o : Nat) (ho : o < 3) (hb : S8x3x128.Slices ![0, o, 0] S8x1x128)
    (a4 : S8x3x128.Idx → EReal) (r : Fin 8) (n : Fin 65536) (k : Fin 128) :
    broadcastInDim S8x65536x128 ![0, 1, 2] bcast_S8x1x128_S8x65536x128_0_1_2
        (broadcastInDim S8x1x128 ![0, 2] bcast_S8x128_S8x1x128_0_2
          (shapeCast S8x128 (extractStridedSlice S8x1x128 ![0, o, 0] a4 hb) shapeCasts_S8x1x128_S8x128)) (ix3 r n k)
      = a4 (ix3 r (⟨o, ho⟩ : Fin 3) k) := by
  refine (broadcastInDim_apply _ bcast_S8x1x128_S8x65536x128_0_1_2 _ (ix3 r n k) (ix3 r (0 : Fin 1) k) fun ax => ?_).trans ?_
  · match ax with
    | ⟨0, _⟩ => rfl
    | ⟨1, _⟩ => rfl
    | ⟨2, _⟩ => rfl
  refine (broadcastInDim_apply _ bcast_S8x128_S8x1x128_0_2 _ (ix3 r (0 : Fin 1) k) (ix2 r k) fun ax => ?_).trans ?_
  · match ax with
    | ⟨0, _⟩ => rfl
    | ⟨1, _⟩ => rfl
  refine (shapeCast_apply _ shapeCasts_S8x1x128_S8x128 (ix2 r k) (ix3 r (0 : Fin 1) k) ?_).trans ?_
  · rw [Shape.rowMajor_val_three, Shape.rowMajor_val_two]
    show (r.val * 1 + 0) * 128 + k.val = r.val * 128 + k.val
    omega
  · exact slice3_axis1_apply o a4 hb r (0 : Fin 1) k (⟨o, ho⟩ : Fin 3) rfl

/-- A literal spread over `[8, 65536, 128]` reads the literal everywhere. -/
theorem lit_apply (b : BitVec 32) (i : S8x65536x128.Idx) :
    broadcastInDim S8x65536x128 ![] bcast_S_S8x65536x128 (constant (F := Ideal) S_ .f32 b) i = Ideal.ofBits .f32 b := rfl

/-- The output bias spread over the points reads, at (box, point, 0), the bias at (box, 0). -/
theorem biasOut_apply (a6 : S8x1.Idx → EReal) (r : Fin 8) (n : Fin 65536) :
    broadcastInDim S8x65536x1 ![0, 1, 2] bcast_S8x1x1_S8x65536x1_0_1_2
        (broadcastInDim S8x1x1 ![0, 2] bcast_S8x1_S8x1x1_0_2 a6) (ix3 r n (0 : Fin 1))
      = a6 (ix2 r (0 : Fin 1)) := by
  refine (broadcastInDim_apply _ bcast_S8x1x1_S8x65536x1_0_1_2 _ (ix3 r n (0 : Fin 1)) (ix3 r (0 : Fin 1) (0 : Fin 1)) fun ax => ?_).trans ?_
  · match ax with
    | ⟨0, _⟩ => rfl
    | ⟨1, _⟩ => rfl
    | ⟨2, _⟩ => rfl
  refine broadcastInDim_apply _ bcast_S8x1_S8x1x1_0_2 a6 (ix3 r (0 : Fin 1) (0 : Fin 1)) (ix2 r (0 : Fin 1)) fun ax => ?_
  match ax with
  | ⟨0, _⟩ => rfl
  | ⟨1, _⟩ => rfl

/-! ## The layers -/

/-- A hidden layer at (box, point, unit), its weights and bias cut at layer `o`: the activation of the contracted sum
    over the layer before plus the bias. -/
theorem layer_apply (o : Nat) (ho : o < 3) (hW : S8x3x128x128.Slices ![0, o, 0, 0] S8x1x128x128)
    (hb : S8x3x128.Slices ![0, o, 0] S8x1x128)
    (h : S8x65536x128.Idx → EReal) (a3 : S8x3x128x128.Idx → EReal) (a4 : S8x3x128.Idx → EReal)
    (r : Fin 8) (n : Fin 65536) (k : Fin 128) :
    Host.sin (F := Ideal) (φ := .f32)
        (mulf (broadcastInDim S8x65536x128 ![] bcast_S_S8x65536x128 (constant (F := Ideal) S_ .f32 0x41F00000#32))
          (addf
            (Host.dotGeneral (F := Ideal) (φ₁ := .f32) (φ₂ := .f32) dot_S8x65536x128_S8x128x128_S8x65536x128_2_1_1_2_0_0 none h
              (shapeCast S8x128x128 (extractStridedSlice S8x1x128x128 ![0, o, 0, 0] a3 hW) shapeCasts_S8x1x128x128_S8x128x128))
            (broadcastInDim S8x65536x128 ![0, 1, 2] bcast_S8x1x128_S8x65536x128_0_1_2
              (broadcastInDim S8x1x128 ![0, 2] bcast_S8x128_S8x1x128_0_2
                (shapeCast S8x128 (extractStridedSlice S8x1x128 ![0, o, 0] a4 hb) shapeCasts_S8x1x128_S8x128)))))
        (ix3 r n k)
      = Cert.Siren.act (∑ j : Fin 128, h (ix3 r n j) * a3 (ix4 r (⟨o, ho⟩ : Fin 3) j k) + a4 (ix3 r (⟨o, ho⟩ : Fin 3) k)) := by
  have e1 := hid_apply h
    (shapeCast S8x128x128 (extractStridedSlice S8x1x128x128 ![0, o, 0, 0] a3 hW) shapeCasts_S8x1x128x128_S8x128x128) r n k
  have e2 := slabB_apply o ho hb a4 r n k
  have e3 : ∑ j : Fin 128, h (ix3 r n j) *
        shapeCast S8x128x128 (extractStridedSlice S8x1x128x128 ![0, o, 0, 0] a3 hW) shapeCasts_S8x1x128x128_S8x128x128 (ix3 r j k)
      = ∑ j : Fin 128, h (ix3 r n j) * a3 (ix4 r (⟨o, ho⟩ : Fin 3) j k) :=
    Finset.sum_congr rfl fun j _ => by rw [slabW_apply o ho hW a3 r j k]
  show Ideal.sin (Ideal.ofBits .f32 0x41F00000#32 * (_ + _)) = Ideal.sin (Ideal.ofBits .f32 0x41F00000#32 * _)
  rw [e1, e2, e3]

/-- Hidden layer 0 at (box, point, unit): the activation of the contracted sum over the layer before plus the bias. -/
theorem refL1_apply (h : (⟨S8x65536x128, .f32⟩ : BufTy).Contents (Elt Ideal)) (a3 : (⟨S8x3x128x128, .f32⟩ : BufTy).Contents (Elt Ideal)) (a4 : (⟨S8x3x128, .f32⟩ : BufTy).Contents (Elt Ideal))
    (r : Fin 8) (n : Fin 65536) (k : Fin 128) :
    refL1 (F := Ideal) h a3 a4 (ix3 r n k) =
      Cert.Siren.act (∑ j : Fin 128, h (ix3 r n j) * a3 (ix4 r (0 : Fin 3) j k) + a4 (ix3 r (0 : Fin 3) k)) :=
  layer_apply 0 (by decide) slices_S8x3x128x128_S8x1x128x128_0_0_0_0 slices_S8x3x128_S8x1x128_0_0_0 h a3 a4 r n k

/-- Hidden layer 1 at (box, point, unit): the activation of the contracted sum over the layer before plus the bias. -/
theorem refL2_apply (h : (⟨S8x65536x128, .f32⟩ : BufTy).Contents (Elt Ideal)) (a3 : (⟨S8x3x128x128, .f32⟩ : BufTy).Contents (Elt Ideal)) (a4 : (⟨S8x3x128, .f32⟩ : BufTy).Contents (Elt Ideal))
    (r : Fin 8) (n : Fin 65536) (k : Fin 128) :
    refL2 (F := Ideal) h a3 a4 (ix3 r n k) =
      Cert.Siren.act (∑ j : Fin 128, h (ix3 r n j) * a3 (ix4 r (1 : Fin 3) j k) + a4 (ix3 r (1 : Fin 3) k)) :=
  layer_apply 1 (by decide) slices_S8x3x128x128_S8x1x128x128_0_1_0_0 slices_S8x3x128_S8x1x128_0_1_0 h a3 a4 r n k

/-- Hidden layer 2 at (box, point, unit): the activation of the contracted sum over the layer before plus the bias. -/
theorem refL3_apply (h : (⟨S8x65536x128, .f32⟩ : BufTy).Contents (Elt Ideal)) (a3 : (⟨S8x3x128x128, .f32⟩ : BufTy).Contents (Elt Ideal)) (a4 : (⟨S8x3x128, .f32⟩ : BufTy).Contents (Elt Ideal))
    (r : Fin 8) (n : Fin 65536) (k : Fin 128) :
    refL3 (F := Ideal) h a3 a4 (ix3 r n k) =
      Cert.Siren.act (∑ j : Fin 128, h (ix3 r n j) * a3 (ix4 r (2 : Fin 3) j k) + a4 (ix3 r (2 : Fin 3) k)) :=
  layer_apply 2 (by decide) slices_S8x3x128x128_S8x1x128x128_0_2_0_0 slices_S8x3x128_S8x1x128_0_2_0 h a3 a4 r n k

/-- The value at (box, point). -/
theorem refTop_apply (h : (⟨S8x65536x128, .f32⟩ : BufTy).Contents (Elt Ideal)) (a5 : (⟨S8x128x1, .f32⟩ : BufTy).Contents (Elt Ideal)) (a6 : (⟨S8x1, .f32⟩ : BufTy).Contents (Elt Ideal))
    (r : Fin 8) (n : Fin 65536) :
    refTop (F := Ideal) h a5 a6 (ix2 r n) =
      ∑ k : Fin 128, h (ix3 r n k) * a5 (ix3 r k (0 : Fin 1)) + a6 (ix2 r (0 : Fin 1)) := by
  unfold refTop
  refine (shapeCast_apply _ shapeCasts_S8x65536x1_S8x65536 (ix2 r n) (ix3 r n (0 : Fin 1)) ?_).trans ?_
  · rw [Shape.rowMajor_val_three, Shape.rowMajor_val_two]
    show (r.val * 65536 + n.val) * 1 + 0 = r.val * 65536 + n.val
    omega
  have e1 := out_apply h a5 r n (0 : Fin 1)
  have e2 := biasOut_apply a6 r n
  show Host.dotGeneral (F := Ideal) (φ₁ := .f32) (φ₂ := .f32) dot_S8x65536x128_S8x128x1_S8x65536x1_2_1_1_2_0_0 none h a5 (ix3 r n (0 : Fin 1)) + _ = _
  rw [e1, e2]

end Cert.ReferenceIdeal.RefRun

end
-- ==== Proof.Select.lean ====
/-
  Two facts about "the first box that holds the point", free of any program.

  `pick` (the walk over the eight boxes) returns the value of the first box whose bit is set, and zero when no bit is set;
  and the arg-max of the bits over the boxes, taken as a reduction of (bit, box number) pairs that prefers the larger bit
  and, on equal bits, the smaller number, names exactly that first box, while the "or" of the bits says whether there is one.
-/
import proofs.«176922_j5729486373507_1_alg».proof.Proof.Spec
import Idealize.ShloMosaic.PureOps.Reduce

noncomputable section

namespace Cert.Siren

open Idealize.ShloMosaic Idealize.ShloMosaic.ValueIdx

/-- Either no bit is set, or there is a first set bit. -/
theorem first_or_none (m : Fin 8 → BitVec 1) :
    (∀ r, m r = 0#1) ∨ ∃ r, m r = 1#1 ∧ ∀ r' : Fin 8, r' < r → m r' = 0#1 := by
  by_cases h : ∃ r, m r = 1#1
  · right
    have hex : ∃ k : ℕ, ∃ hk : k < 8, m ⟨k, hk⟩ = 1#1 := by
      obtain ⟨r, hr⟩ := h
      exact ⟨r.val, r.isLt, hr⟩
    classical
    obtain ⟨hk, hm⟩ := Nat.find_spec hex
    refine ⟨⟨Nat.find hex, hk⟩, hm, fun r' hr' => eq_zero_of_ne_one fun h1 => ?_⟩
    exact Nat.find_min hex hr' ⟨r'.isLt, h1⟩
  · left
    exact fun r => eq_zero_of_ne_one fun h1 => h ⟨r, h1⟩

/-- A box whose bit is clear leaves the walk's state as it was. -/
private theorem pickStep_zero (m : Fin 8 → BitVec 1) (v : Fin 8 → EReal) (acc : EReal × BitVec 1) (r : Fin 8)
    (h : m r = 0#1) : pickStep m v acc r = acc := by
  obtain ⟨a, b⟩ := acc
  have e1 : IntOp.andi (0#1) (IntOp.xori b 1#1) = 0#1 := BitVec.zero_and
  have e2 : IntOp.ori b (0#1) = b := BitVec.or_zero
  show (Scalar.select (IntOp.andi (m r) (IntOp.xori b 1#1)) (v r) a, IntOp.ori b (m r)) = (a, b)
  rw [h, e1, e2, select_zero]

/-- The first box whose bit is set gives its value and sets the "some box held it" bit. -/
private theorem pickStep_first (m : Fin 8 → BitVec 1) (v : Fin 8 → EReal) (a : EReal) (r : Fin 8)
    (h : m r = 1#1) : pickStep m v (a, 0#1) r = (v r, 1#1) := by
  have e1 : IntOp.andi (1#1) (IntOp.xori 0#1 1#1) = 1#1 := by decide
  have e2 : IntOp.ori (0#1) (1#1) = 1#1 := by decide
  show (Scalar.select (IntOp.andi (m r) (IntOp.xori 0#1 1#1)) (v r) a, IntOp.ori 0#1 (m r)) = (v r, 1#1)
  rw [h, e1, e2, select_one]

/-- Once some box held the point no later box changes the state. -/
private theorem pickStep_done (m : Fin 8 → BitVec 1) (v : Fin 8 → EReal) (a : EReal) (r : Fin 8) :
    pickStep m v (a, 1#1) r = (a, 1#1) := by
  have e1 : IntOp.andi (m r) (IntOp.xori 1#1 1#1) = 0#1 := by
    rcases BitVec.eq_zero_or_eq_one (m r) with h | h <;> rw [h] <;> decide
  have e2 : IntOp.ori (1#1) (m r) = 1#1 := by
    rcases BitVec.eq_zero_or_eq_one (m r) with h | h <;> rw [h] <;> decide
  show (Scalar.select (IntOp.andi (m r) (IntOp.xori 1#1 1#1)) (v r) a, IntOp.ori 1#1 (m r)) = (a, 1#1)
  rw [e1, e2, select_zero]

/-- Over boxes whose bits are all clear the walk's state does not move. -/
private theorem foldl_pickStep_zero (m : Fin 8 → BitVec 1) (v : Fin 8 → EReal) (l : List (Fin 8)) (acc : EReal × BitVec 1)
    (h : ∀ r ∈ l, m r = 0#1) : l.foldl (pickStep m v) acc = acc := by
  induction l with
  | nil => rfl
  | cons r l ih =>
    rw [List.foldl_cons, pickStep_zero m v acc r (h r List.mem_cons_self)]
    exact ih fun r' hr' => h r' (List.mem_cons_of_mem _ hr')

/-- From a state whose "some box held it" bit is set the walk's state does not move. -/
private theorem foldl_pickStep_done (m : Fin 8 → BitVec 1) (v : Fin 8 → EReal) (l : List (Fin 8)) (a : EReal) :
    l.foldl (pickStep m v) (a, 1#1) = (a, 1#1) := by
  induction l with
  | nil => rfl
  | cons r l ih => rw [List.foldl_cons, pickStep_done, ih]

/-- The row numbers in order split at `r` into the smaller ones, `r` itself, and the larger ones. -/
private theorem finRange_split (r : Fin 8) :
    ∃ s t : List (Fin 8), List.finRange 8 = s ++ r :: t ∧ (∀ a ∈ s, a < r) ∧ ∀ a ∈ t, r < a := by
  obtain ⟨s, t, hst⟩ := List.append_of_mem (List.mem_finRange r)
  have hp := List.pairwise_lt_finRange 8
  rw [hst, List.pairwise_append] at hp
  exact ⟨s, t, hst, fun a ha => hp.2.2 a ha r List.mem_cons_self, fun a ha => (List.pairwise_cons.1 hp.2.1).1 a ha⟩

/-- The walk returns the value of the first box whose bit is set. -/
theorem pick_of_first (m : Fin 8 → BitVec 1) (v : Fin 8 → EReal) (r : Fin 8) (hr : m r = 1#1)
    (hlt : ∀ r' : Fin 8, r' < r → m r' = 0#1) : pick m v = v r := by
  obtain ⟨s, t, hst, hs, -⟩ := finRange_split r
  unfold pick
  rw [hst, List.foldl_append, List.foldl_cons, foldl_pickStep_zero m v s _ fun a ha => hlt a (hs a ha),
    pickStep_first m v _ r hr, foldl_pickStep_done]

/-- With no bit set the walk returns zero. -/
theorem pick_of_none (m : Fin 8 → BitVec 1) (v : Fin 8 → EReal) (h : ∀ r, m r = 0#1) : pick m v = zero := by
  unfold pick
  rw [foldl_pickStep_zero m v _ _ fun r _ => h r]

/-- The arg-max's combining step on (bit, number) pairs: the pair with the larger bit, and on equal bits the one with the
    smaller number. -/
def argmaxRed (a b : BitVec 1 × BitVec 32) : BitVec 1 × BitVec 32 :=
  let v2 := IntOp.cmpi .ugt a.1 b.1
  let v3 := IntOp.cmpi .ne a.1 a.1
  let v4 := IntOp.ori v2 v3
  let v5 := IntOp.cmpi .eq a.1 b.1
  let v6 := IntOp.cmpi .slt a.2 b.2
  let v7 := IntOp.andi v5 v6
  let v8 := IntOp.ori v4 v7
  (Scalar.select v4 a.1 b.1, Scalar.select v8 a.2 b.2)

/-- An index of the `[8, N]` array built from a row and the column kept by the reduction. -/
private theorem pair_col {N : ℕ} (hR : (⟨2, ![8, N]⟩ : Shape).Reduces [0] ⟨1, ![N]⟩) (n : Fin N) (k : Fin 8) :
    Shape.pair (d := ![8, N]) k (hR.col (ix1 n)) = ix2 k n := by
  funext b
  apply Fin.ext
  match b with
  | ⟨0, _⟩ => rfl
  | ⟨1, _⟩ => rfl

/-- A two-operand reduction over the rows, read at a column: the left fold down that column, top row first. -/
private theorem reduce2_rows {N : ℕ} {α β : Type} (f : α × β → α × β → α × β) (x : (⟨2, ![8, N]⟩ : Shape).Idx → α)
    (y : (⟨2, ![8, N]⟩ : Shape).Idx → β) (ix : (⟨0, ![]⟩ : Shape).Idx → α) (iy : (⟨0, ![]⟩ : Shape).Idx → β)
    (h : (⟨2, ![8, N]⟩ : Shape).ReducesTo [0] ⟨1, ![N]⟩) (hu : 0 < (⟨0, ![]⟩ : Shape).numel) (n : Fin N) :
    Host.reduce2 f x y ix iy h hu (ix1 n)
      = (List.finRange 8).foldl (fun acc k => f acc (x (ix2 k n), y (ix2 k n)))
          (ix (Shape.Idx.first hu), iy (Shape.Idx.first hu)) := by
  have hR : (⟨2, ![8, N]⟩ : Shape).Reduces [0] ⟨1, ![N]⟩ := ⟨h.1, Nat.one_pos, h.2⟩
  refine (reduceFold_rows hR f (ix (Shape.Idx.first hu), iy (Shape.Idx.first hu)) (fun i => (x i, y i)) (ix1 n)).trans ?_
  refine congrArg (fun g => (List.finRange 8).foldl g (ix (Shape.Idx.first hu), iy (Shape.Idx.first hu)))
    (funext fun acc => funext fun k => ?_)
  show f acc (x (Shape.pair k (hR.col (ix1 n))), y (Shape.pair k (hR.col (ix1 n)))) = _
  rw [pair_col hR n k]

/-- A one-operand reduction over the rows, read at a column: the left fold down that column, top row first. -/
private theorem reduce_rows {N : ℕ} {α : Type} (f : α → α → α) (x : (⟨2, ![8, N]⟩ : Shape).Idx → α)
    (init : (⟨0, ![]⟩ : Shape).Idx → α)
    (h : (⟨2, ![8, N]⟩ : Shape).ReducesTo [0] ⟨1, ![N]⟩) (hu : 0 < (⟨0, ![]⟩ : Shape).numel) (n : Fin N) :
    Host.reduce f x init h hu (ix1 n)
      = (List.finRange 8).foldl (fun acc k => f acc (x (ix2 k n))) (init (Shape.Idx.first hu)) := by
  have hR : (⟨2, ![8, N]⟩ : Shape).Reduces [0] ⟨1, ![N]⟩ := ⟨h.1, Nat.one_pos, h.2⟩
  refine (reduceFold_rows hR f (init (Shape.Idx.first hu)) x (ix1 n)).trans ?_
  refine congrArg (fun g => (List.finRange 8).foldl g (init (Shape.Idx.first hu)))
    (funext fun acc => funext fun k => ?_)
  show f acc (x (Shape.pair k (hR.col (ix1 n)))) = _
  rw [pair_col hR n k]

/-- Against (no bit, number 0) a row whose bit is clear changes nothing: on equal bits the smaller number, 0, stays. -/
private theorem argmaxRed_none_clear (k : Fin 8) :
    argmaxRed (0#1, 0#32) (0#1, BitVec.ofNat 32 k.val) = (0#1, 0#32) := by
  revert k; decide

/-- Against (no bit, number 0) a row whose bit is set wins: the larger bit. -/
private theorem argmaxRed_none_set (k : Fin 8) :
    argmaxRed (0#1, 0#32) (1#1, BitVec.ofNat 32 k.val) = (1#1, BitVec.ofNat 32 k.val) := by
  revert k; decide

/-- A set bit at row `r` is kept against every later row: a clear bit is smaller, and on equal bits `r` is the
    smaller number. -/
private theorem argmaxRed_set_later (r k : Fin 8) (hrk : r < k) (b : BitVec 1) :
    argmaxRed (1#1, BitVec.ofNat 32 r.val) (b, BitVec.ofNat 32 k.val) = (1#1, BitVec.ofNat 32 r.val) := by
  rcases BitVec.eq_zero_or_eq_one b with rfl | rfl <;> (revert r k; decide)

/-- The arg-max fold down a column with a first set bit at row `r` ends at (bit set, `r`). -/
private theorem foldl_argmaxRed_first (m : Fin 8 → BitVec 1) (r : Fin 8) (hr : m r = 1#1)
    (hlt : ∀ r' : Fin 8, r' < r → m r' = 0#1) :
    (List.finRange 8).foldl (fun acc k => argmaxRed acc (m k, BitVec.ofNat 32 k.val)) (0#1, 0#32)
      = (1#1, BitVec.ofNat 32 r.val) := by
  obtain ⟨s, t, hst, hs, ht⟩ := finRange_split r
  have h1 : ∀ l : List (Fin 8), (∀ a ∈ l, m a = 0#1) →
      l.foldl (fun acc k => argmaxRed acc (m k, BitVec.ofNat 32 k.val)) (0#1, 0#32) = (0#1, 0#32) := by
    intro l
    induction l with
    | nil => intro _; rfl
    | cons a l ih =>
      intro hl
      rw [List.foldl_cons, hl a List.mem_cons_self, argmaxRed_none_clear]
      exact ih fun a' ha' => hl a' (List.mem_cons_of_mem _ ha')
  have h2 : ∀ l : List (Fin 8), (∀ a ∈ l, r < a) →
      l.foldl (fun acc k => argmaxRed acc (m k, BitVec.ofNat 32 k.val)) (1#1, BitVec.ofNat 32 r.val)
        = (1#1, BitVec.ofNat 32 r.val) := by
    intro l
    induction l with
    | nil => intro _; rfl
    | cons a l ih =>
      intro hl
      rw [List.foldl_cons, argmaxRed_set_later r a (hl a List.mem_cons_self)]
      exact ih fun a' ha' => hl a' (List.mem_cons_of_mem _ ha')
  rw [hst, List.foldl_append, List.foldl_cons, h1 s fun a ha => hlt a (hs a ha), hr, argmaxRed_none_set, h2 t ht]

/-- The "or" fold down a column from `b`: set exactly when `b` is or some listed row's bit is. -/
private theorem foldl_ori (m : Fin 8 → BitVec 1) (l : List (Fin 8)) (b : BitVec 1) :
    l.foldl (fun acc k => IntOp.ori acc (m k)) b = if b = 1#1 ∨ ∃ r ∈ l, m r = 1#1 then 1#1 else 0#1 := by
  induction l generalizing b with
  | nil =>
    rcases BitVec.eq_zero_or_eq_one b with rfl | rfl <;> simp
  | cons k l ih =>
    have hor : IntOp.ori b (m k) = 1#1 ↔ b = 1#1 ∨ m k = 1#1 := by
      rcases BitVec.eq_zero_or_eq_one b with rfl | rfl <;> rcases BitVec.eq_zero_or_eq_one (m k) with h | h <;>
        rw [h] <;> decide
    rw [List.foldl_cons, ih]
    simp only [hor, List.mem_cons, exists_eq_or_imp, or_assoc]

/-- The arg-max over the eight rows of an `[8, N]` array of bits, from (no bit, number 0) over the rows' numbers: at a
    column with a first set bit, its number is that row. -/
theorem argmax_rows_first {N : ℕ} (M : (⟨2, ![8, N]⟩ : Shape).Idx → BitVec 1)
    (h : (⟨2, ![8, N]⟩ : Shape).ReducesTo [0] ⟨1, ![N]⟩) (hu : 0 < (⟨0, ![]⟩ : Shape).numel) (n : Fin N) (r : Fin 8)
    (hr : M (ix2 r n) = 1#1) (hlt : ∀ r' : Fin 8, r' < r → M (ix2 r' n) = 0#1) :
    (Host.reduce2 argmaxRed M (iotaInDim ⟨2, ![8, N]⟩ 32 0) (constantI ⟨0, ![]⟩ 1 0#1) (constantI ⟨0, ![]⟩ 32 0#32) h hu
      (ix1 n)).2 = BitVec.ofNat 32 r.val := by
  rw [reduce2_rows]
  show ((List.finRange 8).foldl (fun acc k => argmaxRed acc (M (ix2 k n), BitVec.ofNat 32 k.val)) (0#1, 0#32)).2 = _
  rw [foldl_argmaxRed_first (fun k => M (ix2 k n)) r hr hlt]

/-- The "or" over the eight rows of an `[8, N]` array of bits, from no bit: set exactly at the columns where some row's bit
    is. -/
theorem any_rows {N : ℕ} (M : (⟨2, ![8, N]⟩ : Shape).Idx → BitVec 1)
    (h : (⟨2, ![8, N]⟩ : Shape).ReducesTo [0] ⟨1, ![N]⟩) (hu : 0 < (⟨0, ![]⟩ : Shape).numel) (n : Fin N) :
    Host.reduce IntOp.ori M (constantI ⟨0, ![]⟩ 1 0#1) h hu (ix1 n) = if ∃ r : Fin 8, M (ix2 r n) = 1#1 then 1#1 else 0#1 := by
  rw [reduce_rows]
  show (List.finRange 8).foldl (fun acc k => IntOp.ori acc (M (ix2 k n))) (0#1) = _
  rw [foldl_ori (fun k => M (ix2 k n))]
  have e : ((0#1 : BitVec 1) = 1#1 ∨ ∃ r ∈ List.finRange 8, M (ix2 r n) = 1#1) ↔ ∃ r : Fin 8, M (ix2 r n) = 1#1 := by
    constructor
    · rintro (h0 | ⟨r, -, hr⟩)
      · exact absurd h0 (by decide)
      · exact ⟨r, hr⟩
    · rintro ⟨r, hr⟩
      exact Or.inr ⟨r, List.mem_finRange r, hr⟩
  simp only [e]

end Cert.Siren

end
-- ==== Proof.RefSelect.lean ====
/-
  The reference's selection read at a point.

  The arg-max over the boxes of the test bits is the first box holding the point when there is one; that number, already
  in range, indexes the values along the box axis; and where no box holds the point the result is zero.  Together: the
  specification's walk `pick` over the point's eight bits and eight values.
-/
import proofs.«176922_j5729486373507_1_alg».proof.Proof.RefStages
import proofs.«176922_j5729486373507_1_alg».proof.Proof.Spec
import proofs.«176922_j5729486373507_1_alg».proof.Proof.Select
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefRun

open Cert.ReferenceIdeal Cert.ReferenceIdeal.Gen Idealize.ShloMosaic Idealize.ShloMosaic.ValueIdx
open scoped BigOperators

/-- The gather's dimension numbers: the box axis collapsed, the point axis a batch axis, one start index per point. -/
local notation "GD" => gather_S8x65536_S1x65536x1_S1x65536_n_0_1_1_0_2_11

/-- A box number, as a 32-bit word read signed and clamped into the eight rows, is itself. -/
private theorem clamp_row (r : Fin 8) : min (BitVec.ofNat 32 r.val).toInt.toNat (8 - 1) = r.val := by
  revert r; decide

/-- A box number is not negative, so the wrap of negative indices (adding 8) leaves it as it is. -/
private theorem wrap_row (r : Fin 8) :
    Scalar.select (IntOp.cmpi .slt (BitVec.ofNat 32 r.val) 0#32) (IntOp.addi (BitVec.ofNat 32 r.val) 8#32)
      (BitVec.ofNat 32 r.val) = BitVec.ofNat 32 r.val := by
  revert r; decide

/-- A box number passes the range test `0 ≤ i ≤ 7`, and "and" with the initial true bit keeps that. -/
private theorem inrange_row (r : Fin 8) :
    IntOp.andi (IntOp.andi (IntOp.cmpi .sge (BitVec.ofNat 32 r.val) 0#32) (IntOp.cmpi .sle (BitVec.ofNat 32 r.val) 7#32))
      1#1 = 1#1 := by
  revert r; decide

/-- A fold over an axis of one coordinate is one application of the operation, to that coordinate's element and the
    initial value. -/
private theorem fold_fin_one {α : Type} (op : α → α → α) [Std.Commutative op] [Std.Associative op] (b : α) {m : ℕ}
    (hm : m = 1) (f : Fin m → α) : (Finset.univ : Finset (Fin m)).fold op b f = op (f ⟨0, by omega⟩) b := by
  subst hm
  rw [Finset.univ_unique, Finset.fold_singleton]
  rfl

/-- The gather along the box axis read at point `n`: when the start index at `(0, n, 0)` is the box number `r`, the
    result at `(0, n)` is the operand at `(r, n)`.  On the box axis the operand coordinate is the clamped start index
    (no batch or offset part); on the point axis it is the batch coordinate `n` (no start or offset part). -/
private theorem gather_rows_apply {α : Type} (x : S8x65536.Idx → α) (idx : IVec S1x65536x1 32) (n : Fin 65536) (r : Fin 8)
    (hi : idx (ix3 (0 : Fin 1) n (0 : Fin 1)) = BitVec.ofNat 32 r.val) :
    Host.gather GD x idx (ix2 (0 : Fin 1) n) = x (ix2 r n) := by
  have h0 : (GD).start (ix2 (0 : Fin 1) n) idx (0 : Fin 2) + (GD).batchCoord (ix2 (0 : Fin 1) n) (0 : Fin 2)
      + (GD).offCoord (ix2 (0 : Fin 1) n) (0 : Fin 2) = r.val := by
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GD).startIndexMap from List.mem_singleton.mpr rfl)]
    have hsi : (GD).siIdx (ix2 (0 : Fin 1) n) ⟨List.idxOf (0 : Fin 2) (GD).startIndexMap,
        List.idxOf_lt_length_iff.2 (List.mem_singleton.mpr rfl)⟩ = ix3 (0 : Fin 1) n (0 : Fin 1) := by
      funext b; refine Fin.ext ?_
      match b with
      | ⟨0, _⟩ => rfl
      | ⟨1, _⟩ => rfl
      | ⟨2, _⟩ => rfl
    rw [hsi, hi]
    exact clamp_row r
  have h1 : (GD).start (ix2 (0 : Fin 1) n) idx (1 : Fin 2) + (GD).batchCoord (ix2 (0 : Fin 1) n) (1 : Fin 2)
      + (GD).offCoord (ix2 (0 : Fin 1) n) (1 : Fin 2) = n.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (1 : Fin 2) ∈ (GD).operandBatchingDims from List.mem_singleton.mpr rfl)]
    rfl
  unfold Host.gather
  congr 1
  funext a
  refine Fin.ext ?_
  show (GD).start (ix2 (0 : Fin 1) n) idx a + (GD).batchCoord (ix2 (0 : Fin 1) n) a + (GD).offCoord (ix2 (0 : Fin 1) n) a = _
  match a with
  | ⟨0, _⟩ => exact h0
  | ⟨1, _⟩ => exact h1

/-- The start indices at `(0, n, 0)`: the array of numbers `I` broadcast to `[1, 65536]`, its negative entries wrapped by
    adding 8, reshaped to `[1, 65536, 1]`.  Where `I` at `n` is a box number, that number. -/
private theorem starts_apply (I : IVec S65536 32) (n : Fin 65536) (r : Fin 8) (hI : I (ix1 n) = BitVec.ofNat 32 r.val) :
    shapeCast S1x65536x1
      (select
        (cmpi .slt (broadcastInDim S1x65536 ![1] bcast_S65536_S1x65536_1 I)
          (broadcastInDim S1x65536 ![] bcast_S_S1x65536 (constantI S_ 32 0#32)))
        (addi (broadcastInDim S1x65536 ![1] bcast_S65536_S1x65536_1 I)
          (broadcastInDim S1x65536 ![] bcast_S_S1x65536 (constantI S_ 32 8#32)))
        (broadcastInDim S1x65536 ![1] bcast_S65536_S1x65536_1 I))
      shapeCasts_S1x65536_S1x65536x1 (ix3 (0 : Fin 1) n (0 : Fin 1)) = BitVec.ofNat 32 r.val := by
  have hb : broadcastInDim S1x65536 ![1] bcast_S65536_S1x65536_1 I (ix2 (0 : Fin 1) n) = I (ix1 n) :=
    broadcastInDim_apply _ _ _ _ _ (fun a => by match a with | ⟨0, _⟩ => rfl)
  rw [shapeCast_apply _ _ (ix3 (0 : Fin 1) n (0 : Fin 1)) (ix2 (0 : Fin 1) n) (by
    rw [Shape.rowMajor_val_two, Shape.rowMajor_val_three]
    show (0 : ℕ) * 65536 + n.val = ((0 : ℕ) * 65536 + n.val) * 1 + 0
    omega)]
  show Scalar.select (IntOp.cmpi .slt (broadcastInDim S1x65536 ![1] bcast_S65536_S1x65536_1 I (ix2 (0 : Fin 1) n)) 0#32)
      (IntOp.addi (broadcastInDim S1x65536 ![1] bcast_S65536_S1x65536_1 I (ix2 (0 : Fin 1) n)) 8#32)
      (broadcastInDim S1x65536 ![1] bcast_S65536_S1x65536_1 I (ix2 (0 : Fin 1) n)) = _
  rw [hb, hI]
  exact wrap_row r

/-- The range test `0 ≤ i ≤ 7` of the start indices `W`, reduced by "and" over the last axis (one coordinate) from true,
    read at `(0, n)`: set where `W` at `(0, n, 0)` is a box number. -/
private theorem inRange_apply (W : IVec S1x65536x1 32) (n : Fin 65536) (r : Fin 8)
    (hW : W (ix3 (0 : Fin 1) n (0 : Fin 1)) = BitVec.ofNat 32 r.val) :
    Host.reduce IntOp.andi
      (andi (cmpi .sge W (broadcastInDim S1x65536x1 ![] bcast_S_S1x65536x1 (constantI S_ 32 0#32)))
        (cmpi .sle W (broadcastInDim S1x65536x1 ![0, 1, 2] bcast_S1x1x1_S1x65536x1_0_1_2
          (broadcastInDim S1x1x1 ![2] bcast_S1_S1x1x1_2 (constantI S1 32 7#32)))))
      (constantI S_ 1 1#1) reducesTo_S1x65536x1_S1x65536_d2 h_S_ (ix2 (0 : Fin 1) n) = 1#1 := by
  have hR : S1x65536x1.Reduces [2] S1x65536 := by decide
  rw [Host.reduce_eq_fold_single IntOp.andi _ _ reducesTo_S1x65536x1_S1x65536_d2 hR h_S_]
  refine (fold_fin_one IntOp.andi _ (rfl : S1x65536x1.size 2 = 1) _).trans ?_
  have hl : hR.lift (ix2 (0 : Fin 1) n) (0 : Fin 1) = ix3 (0 : Fin 1) n (0 : Fin 1) := by
    funext c; refine Fin.ext ?_
    match c with
    | ⟨0, _⟩ => rfl
    | ⟨1, _⟩ => rfl
    | ⟨2, _⟩ => rfl
  show IntOp.andi (IntOp.andi (IntOp.cmpi .sge (W (hR.lift (ix2 (0 : Fin 1) n) (0 : Fin 1))) 0#32)
      (IntOp.cmpi .sle (W (hR.lift (ix2 (0 : Fin 1) n) (0 : Fin 1))) 7#32)) 1#1 = 1#1
  rw [hl, hW]
  exact inrange_row r

/-- The selection at point `n` is the walk over the point's bits and values. -/
theorem refSel_apply (vis : (⟨S8x65536, .f32⟩ : BufTy).Contents (Elt Ideal)) (M : (⟨S8x65536, .i1⟩ : BufTy).Contents (Elt Ideal)) (n : Fin 65536) :
    refSel (F := Ideal) vis M (ix1 n) = Cert.Siren.pick (fun r => M (ix2 r n)) (fun r => vis (ix2 r n)) := by
  unfold refSel
  dsimp only
  rw [select_apply, Cert.Siren.any_rows M _ _ n]
  rcases Cert.Siren.first_or_none (fun r => M (ix2 r n)) with hnone | ⟨r, hr, hlt⟩
  · -- no box holds the point: the "or" of the bits is clear, the result is the broadcast zero, as the walk's is
    have hno : ¬∃ r : Fin 8, M (ix2 r n) = 1#1 := fun ⟨r, h⟩ => by
      rw [show M (ix2 r n) = 0#1 from hnone r] at h
      exact absurd h (by decide)
    rw [if_neg hno, select_zero, Cert.Siren.pick_of_none _ _ hnone]
    rfl
  · -- box `r` is the first holding the point: the arg-max is `r`, in range, and the gather reads the value of box `r`
    have hI : (fun j => (Host.reduce2 reducer_argmax_i1_i32 M (iotaInDim S8x65536 32 0) (constantI S_ 1 0#1)
        (constantI S_ 32 0#32) reducesTo_S8x65536_S65536_d0 h_S_ j).2) (ix1 n) = BitVec.ofNat 32 r.val :=
      Cert.Siren.argmax_rows_first M reducesTo_S8x65536_S65536_d0 h_S_ n r hr hlt
    have hW := starts_apply (fun j => (Host.reduce2 reducer_argmax_i1_i32 M (iotaInDim S8x65536 32 0) (constantI S_ 1 0#1)
        (constantI S_ 32 0#32) reducesTo_S8x65536_S65536_d0 h_S_ j).2) n r hI
    rw [if_pos ⟨r, hr⟩, select_one,
      shapeCast_apply _ _ (ix1 n) (ix2 (0 : Fin 1) n) (by
        rw [Shape.rowMajor_val_two, Shape.rowMajor_val_one]
        show (0 : ℕ) * 65536 + n.val = n.val
        omega),
      select_apply, inRange_apply _ n r hW, select_one, gather_rows_apply vis _ n r hW]
    exact (Cert.Siren.pick_of_first (fun r => M (ix2 r n)) (fun r => vis (ix2 r n)) r hr hlt).symm

end Cert.ReferenceIdeal.RefRun

end
-- ==== Proof.RefFinal.lean ====
/-
  The reference's result array is the specification's.

  At point `n`: the selection is the walk over the point's eight bits and values (RefSelect); the bit of box `r` is the
  specification's box test at the point's coordinates and the box's corners (RefRead1); the value of box `r` is the output
  column over the last hidden layer (RefRead2), each layer the activation of a contracted sum over the layer before, down to
  the normalised coordinates — which is the specification's `vis r`, unfolded.
-/
import proofs.«176922_j5729486373507_1_alg».proof.Proof.RefOut
import proofs.«176922_j5729486373507_1_alg».proof.Proof.RefRead1
import proofs.«176922_j5729486373507_1_alg».proof.Proof.RefRead2
import proofs.«176922_j5729486373507_1_alg».proof.Proof.RefSelect

noncomputable section

namespace Cert.ReferenceIdeal.RefRun

open Cert.ReferenceIdeal Cert.ReferenceIdeal.Gen Idealize.ShloMosaic Idealize.ShloMosaic.TcCoe Idealize.ShloMosaic.ValueIdx
open Idealize.SL.Sem Idealize.ShloMosaic.StableHlo
open scoped BigOperators

set_option maxRecDepth 16384 in
/-- The reference's result is the specification's array, entry by entry. -/
theorem refOut_G (a0 : (⟨S65536x3, .f32⟩ : BufTy).Contents (Elt Ideal)) (a1 : (⟨S8x3x128, .f32⟩ : BufTy).Contents (Elt Ideal)) (a2 : (⟨S8x128, .f32⟩ : BufTy).Contents (Elt Ideal)) (a3 : (⟨S8x3x128x128, .f32⟩ : BufTy).Contents (Elt Ideal)) (a4 : (⟨S8x3x128, .f32⟩ : BufTy).Contents (Elt Ideal)) (a5 : (⟨S8x128x1, .f32⟩ : BufTy).Contents (Elt Ideal)) (a6 : (⟨S8x1, .f32⟩ : BufTy).Contents (Elt Ideal)) (a7 : (⟨S8x3, .f32⟩ : BufTy).Contents (Elt Ideal)) (a8 : (⟨S8x3x2, .f32⟩ : BufTy).Contents (Elt Ideal)) :
    refOut (F := Ideal) a0 a1 a2 a3 a4 a5 a6 a7 a8 = Cert.Siren.G a0 a1 a2 a3 a4 a5 a6 a7 a8 := by
  refine funext fun (i : S65536.Idx) => ?_
  obtain ⟨n, rfl⟩ : ∃ n : Fin 65536, i = ix1 n := ⟨i 0, eq_ix1 i⟩
  rw [refOut_eq, refSel_apply]
  -- the bit of box `r`: the box test at the point's coordinates and the box's corners
  have hm : ∀ r : Fin 8, refMask (F := Ideal) a0 (refLo a8) (refHi a8) (ix2 r n)
      = Cert.Siren.inBox a8 r (fun d => a0 (ix2 n d)) := by
    intro r
    rw [refMask_apply]
    simp only [refLo_apply, refHi_apply]
    rfl
  -- the value of box `r`: the output column over the four layers, down to the normalised coordinates
  have hv : ∀ r : Fin 8,
      refTop (F := Ideal) (refL3 (refL2 (refL1 (refL0 (refXn a0 a7 (refLo a8) (refHi a8)) a1 a2) a3 a4) a3 a4) a3 a4) a5 a6
          (ix2 r n)
        = Cert.Siren.vis a1 a2 a3 a4 a5 a6 a7 a8 r (fun d => a0 (ix2 n d)) := by
    intro r
    rw [refTop_apply]
    simp only [refL3_apply, refL2_apply, refL1_apply, refL0_apply, refXn_apply, refLo_apply, refHi_apply]
    rfl
  simp only [hm, hv]
  rfl

/-- Every weakly fair execution of the idealized reference's @main terminates with the result array at the
    specification's function of the argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = Cert.Siren.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) :=
  (θ_run defs _ _).mono (fun r h c => ⟨(h c main_v80).trans ((out_eq _).trans (refOut_G _ _ _ _ _ _ _ _ _)),
      (h c main_arg0).trans (keep _ main_arg0 (by decide) (by decide)),
      (h c main_arg1).trans (keep _ main_arg1 (by decide) (by decide)),
      (h c main_arg2).trans (keep _ main_arg2 (by decide) (by decide)),
      (h c main_arg3).trans (keep _ main_arg3 (by decide) (by decide)),
      (h c main_arg4).trans (keep _ main_arg4 (by decide) (by decide)),
      (h c main_arg5).trans (keep _ main_arg5 (by decide) (by decide)),
      (h c main_arg6).trans (keep _ main_arg6 (by decide) (by decide)),
      (h c main_arg7).trans (keep _ main_arg7 (by decide) (by decide)),
      (h c main_arg8).trans (keep _ main_arg8 (by decide) (by decide))⟩)
    (run_main m ρ)

end Cert.ReferenceIdeal.RefRun

end
-- ==== Proof.lean ====
/-
  The certificate's claims, assembled.

  A point of the unit cube is routed to the first of eight boxes that holds it and sent through that box's sine network;
  the kernel does this block by block with the loop over the boxes unrolled, the reference on `[8, 65536, ·]` arrays with an
  arg-max over the boxes.  Both result arrays are the specification's `Cert.Siren.G` of the argument arrays (KerFinal for
  the idealized kernel, RefFinal for the idealized reference), so from memories that agree on the arguments the two
  results are equal entry by entry.  The three frames are the runs with the result dropped; the idealization rewrote
  nothing, so there is nothing to preserve.  No law of arithmetic is used that would need a finite input: the
  precondition is never opened.
-/
import proofs.«176922_j5729486373507_1_alg».proof.Defs
import proofs.«176922_j5729486373507_1_alg».proof.Proof.Gen.Kernel
import proofs.«176922_j5729486373507_1_alg».proof.Proof.Gen.KernelIdeal
import proofs.«176922_j5729486373507_1_alg».proof.Proof.Gen.ReferenceIdeal
import proofs.«176922_j5729486373507_1_alg».proof.Proof.Gen.Pre_finite_inputs
import proofs.«176922_j5729486373507_1_alg».proof.Proof.KernelFrameP
import proofs.«176922_j5729486373507_1_alg».proof.Proof.KernelIdealFrameP
import proofs.«176922_j5729486373507_1_alg».proof.Proof.KerFinal
import proofs.«176922_j5729486373507_1_alg».proof.Proof.RefFinal
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs end at the specification's array of their own arguments; the arguments agree. -/
theorem algebraic : Cert.algebraic_KernelIdeal_ReferenceIdeal := by
  intro m ρ m' ρ' _ hagree
  refine ⟨fun c => Cert.Siren.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
